-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x3 : Shape := ⟨3, ![32, 4096, 3]⟩
abbrev S32 : Shape := ⟨1, ![32]⟩
abbrev S32x4096 : Shape := ⟨2, ![32, 4096]⟩
abbrev S8 : Shape := ⟨1, ![8]⟩
abbrev S8388608 : Shape := ⟨1, ![8388608]⟩
abbrev S_ : Shape := ⟨0, ![]⟩

class Facts : Prop where
  bcast_S_S32x4096x3 : S_.BroadcastsInDim S32x4096x3 (![] : Fin 0 → Fin S32x4096x3.rank)
  reducesTo_S32x4096x3_S_d0_1_2 : S32x4096x3.ReducesTo [0, 1, 2] S_
  h_S_ : 0 < S_.numel
  bcast_S_S32 : S_.BroadcastsInDim S32 (![] : Fin 0 → Fin S32.rank)
  reducesTo_S32_S_d0 : S32.ReducesTo [0] S_
  bcast_S_S8 : S_.BroadcastsInDim S8 (![] : Fin 0 → Fin S8.rank)
  reducesTo_S8_S_d0 : S8.ReducesTo [0] S_
  bcast_S_S32x4096 : S_.BroadcastsInDim S32x4096 (![] : Fin 0 → Fin S32x4096.rank)
  reducesTo_S32x4096_S_d0_1 : S32x4096.ReducesTo [0, 1] S_
  bcast_S_S8388608 : S_.BroadcastsInDim S8388608 (![] : Fin 0 → Fin S8388608.rank)
  reducesTo_S8388608_S_d0 : S8388608.ReducesTo [0] S_

variable [Facts]

def fn_part2 {F : FTy → Type} [FloatOps F] (main_arg7 : IVec S8388608 32) (main_v32 : IVec S_ 1) (main_c_12 : IVec S_ 32) : IVec S_ 1 :=
  let main_v33 : IVec S8388608 32 := broadcastInDim S8388608 ![] bcast_S_S8388608 main_c_12
  let main_v34 : IVec S8388608 1 := cmpi .sge main_arg7 main_v33
  let main_c_13 : IVec S_ 32 := constantI S_ 32 4096#32
  let main_v35 : IVec S8388608 32 := broadcastInDim S8388608 ![] bcast_S_S8388608 main_c_13
  let main_v36 : IVec S8388608 1 := cmpi .slt main_arg7 main_v35
  let main_v37 : IVec S8388608 1 := andi main_v34 main_v36
  let main_c_14 : IVec S_ 1 := constantI S_ 1 1#1
  let main_v38 : IVec S_ 1 := (fun x v => Host.reduce IntOp.andi x v reducesTo_S8388608_S_d0 h_S_) main_v37 main_c_14
  let main_v39 : IVec S_ 1 := andi main_v32 main_v38
  main_v39

def fn_part1 {F : FTy → Type} [FloatOps F] (main_arg2 : IVec S32x4096 32) (main_arg6 : IVec S8388608 32) (main_arg7 : IVec S8388608 32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_c_6 : IVec S_ 32 := constantI S_ 32 0#32
  let main_v19 : IVec S32x4096 32 := broadcastInDim S32x4096 ![] bcast_S_S32x4096 main_c_6
  let main_v20 : IVec S32x4096 1 := cmpi .sge main_arg2 main_v19
  let main_c_7 : IVec S_ 32 := constantI S_ 32 8#32
  let main_v21 : IVec S32x4096 32 := broadcastInDim S32x4096 ![] bcast_S_S32x4096 main_c_7
  let main_v22 : IVec S32x4096 1 := cmpi .slt main_arg2 main_v21
  let main_v23 : IVec S32x4096 1 := andi main_v20 main_v22
  let main_c_8 : IVec S_ 1 := constantI S_ 1 1#1
  let main_v24 : IVec S_ 1 := (fun x v => Host.reduce IntOp.andi x v reducesTo_S32x4096_S_d0_1 h_S_) main_v23 main_c_8
  let main_v25 : IVec S_ 1 := andi main_v18 main_v24
  let main_c_9 : IVec S_ 32 := constantI S_ 32 0#32
  let main_v26 : IVec S8388608 32 := broadcastInDim S8388608 ![] bcast_S_S8388608 main_c_9
  let main_v27 : IVec S8388608 1 := cmpi .sge main_arg6 main_v26
  let main_c_10 : IVec S_ 32 := constantI S_ 32 4096#32
  let main_v28 : IVec S8388608 32 := broadcastInDim S8388608 ![] bcast_S_S8388608 main_c_10
  let main_v29 : IVec S8388608 1 := cmpi .slt main_arg6 main_v28
  let main_v30 : IVec S8388608 1 := andi main_v27 main_v29
  let main_c_11 : IVec S_ 1 := constantI S_ 1 1#1
  let main_v31 : IVec S_ 1 := (fun x v => Host.reduce IntOp.andi x v reducesTo_S8388608_S_d0 h_S_) main_v30 main_c_11
  let main_v32 : IVec S_ 1 := andi main_v25 main_v31
  let main_c_12 : IVec S_ 32 := constantI S_ 32 0#32
  fn_part2 (F := F) main_arg7 main_v32 main_c_12

def fn {F : FTy → Type} [FloatOps F] (main_arg0 : FVec F S32x4096x3 .f32) (main_arg1 : FVec F S32 .f32) (main_arg2 : IVec S32x4096 32) (main_arg3 : FVec F S8 .f32) (main_arg4 : FVec F S8 .f32) (main_arg5 : IVec S8388608 32) (main_arg6 : IVec S8388608 32) (main_arg7 : IVec S8388608 32) : IVec S_ 1 :=
  let main_v0 : FVec F S32x4096x3 .f32 := Host.absf main_arg0
  let main_cst : FVec F S_ .f32 := constant S_ .f32 0x7F800000#32
  let main_v1 : FVec F S32x4096x3 .f32 := broadcastInDim S32x4096x3 ![] bcast_S_S32x4096x3 main_cst
  let main_v2 : IVec S32x4096x3 1 := cmpf .olt main_v0 main_v1
  let main_c : IVec S_ 1 := constantI S_ 1 1#1
  let main_v3 : IVec S_ 1 := (fun x v => Host.reduce IntOp.andi x v reducesTo_S32x4096x3_S_d0_1_2 h_S_) main_v2 main_c
  let main_v4 : FVec F S32 .f32 := Host.absf main_arg1
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg2 main_arg6 main_arg7 main_v13 main_v16
-- ==== Kernel.lean ====
abbrev S32x4096x3 : Shape := ⟨3, ![32, 4096, 3]⟩
abbrev S32 : Shape := ⟨1, ![32]⟩
abbrev S32x4096 : Shape := ⟨2, ![32, 4096]⟩
abbrev S8 : Shape := ⟨1, ![8]⟩
abbrev S8388608 : Shape := ⟨1, ![8388608]⟩
abbrev S32x1 : Shape := ⟨2, ![32, 1]⟩
abbrev S32x32x128 : Shape := ⟨3, ![32, 32, 128]⟩
abbrev S1 : Shape := ⟨1, ![1]⟩
abbrev S32x32 : Shape := ⟨2, ![32, 32]⟩
abbrev S32x4096x1 : Shape := ⟨3, ![32, 4096, 1]⟩
abbrev S32x4096x4 : Shape := ⟨3, ![32, 4096, 4]⟩
abbrev S131072x4 : Shape := ⟨2, ![131072, 4]⟩
abbrev S4x131072 : Shape := ⟨2, ![4, 131072]⟩
abbrev S_ : Shape := ⟨0, ![]⟩
abbrev S8388608x1 : Shape := ⟨2, ![8388608, 1]⟩
abbrev S1x1 : Shape := ⟨2, ![1, 1]⟩
abbrev S4x8388608 : Shape := ⟨2, ![4, 8388608]⟩
abbrev S1x8388608 : Shape := ⟨2, ![1, 8388608]⟩
abbrev S2x32x1 : Shape := ⟨3, ![2, 32, 1]⟩
abbrev S4x32768 : Shape := ⟨2, ![4, 32768]⟩
abbrev S1x32768 : Shape := ⟨2, ![1, 32768]⟩
abbrev S1x32x1 : Shape := ⟨3, ![1, 32, 1]⟩
abbrev S3x32768 : Shape := ⟨2, ![3, 32768]⟩
abbrev S32768 : Shape := ⟨1, ![32768]⟩
abbrev S32x32768 : Shape := ⟨2, ![32, 32768]⟩

abbrev nBuf : Space → Nat
  | .hbm => 84
  | .vmem => 14
  | .smem => 0
  | _ => 0

abbrev bufTy : (tb : Table) → Fin (tcTables nBuf tb) → BufTy
  | .hbm, ⟨0, _⟩ => ⟨S32x4096x3, .f32⟩
  | .hbm, ⟨1, _⟩ => ⟨S32, .f32⟩
  | .hbm, ⟨2, _⟩ => ⟨S32x4096, .i32⟩
  | .hbm, ⟨3, _⟩ => ⟨S8, .f32⟩
  | .hbm, ⟨4, _⟩ => ⟨S8, .f32⟩
  | .hbm, ⟨5, _⟩ => ⟨S8388608, .i32⟩
  | .hbm, ⟨6, _⟩ => ⟨S8388608, .i32⟩
  | .hbm, ⟨7, _⟩ => ⟨S8388608, .i32⟩
  | .hbm, ⟨8, _⟩ => ⟨S32x1, .f32⟩
  | .hbm, ⟨9, _⟩ => ⟨S32x32x128, .i32⟩
  | .hbm, ⟨10, _⟩ => ⟨S32x1, .f32⟩
  | .hbm, ⟨11, _⟩ => ⟨S32x32x128, .f32⟩
  | .hbm, ⟨12, _⟩ => ⟨S32x4096, .f32⟩
  | .hbm, ⟨13, _⟩ => ⟨S32x4096x1, .f32⟩
  | .hbm, ⟨14, _⟩ => ⟨S32x4096x4, .f32⟩
  | .hbm, ⟨15, _⟩ => ⟨S131072x4, .f32⟩
  | .hbm, ⟨16, _⟩ => ⟨S4x131072, .f32⟩
  | .hbm, ⟨17, _⟩ => ⟨S_, .i32⟩
  | .hbm, ⟨18, _⟩ => ⟨S8388608, .i32⟩
  | .hbm, ⟨19, _⟩ => ⟨S8388608, .i32⟩
  | .hbm, ⟨20, _⟩ => ⟨S8388608, .i32⟩
  | .hbm, ⟨21, _⟩ => ⟨S_, .i32⟩
  | .hbm, ⟨22, _⟩ => ⟨S8388608, .i32⟩
  | .hbm, ⟨23, _⟩ => ⟨S8388608, .i32⟩
  | .hbm, ⟨24, _⟩ => ⟨S8388608, .i32⟩
  | .hbm, ⟨25, _⟩ => ⟨S_, .i32⟩
  | .hbm, ⟨26, _⟩ => ⟨S8388608, .i32⟩
  | .hbm, ⟨27, _⟩ => ⟨S8388608, .i1⟩
  | .hbm, ⟨28, _⟩ => ⟨S_, .i32⟩
  | .hbm, ⟨29, _⟩ => ⟨S8388608, .i32⟩
  | .hbm, ⟨30, _⟩ => ⟨S8388608, .i32⟩
  | .hbm, ⟨31, _⟩ => ⟨S8388608, .i32⟩
  | .hbm, ⟨32, _⟩ => ⟨S8388608x1, .i32⟩
  | .hbm, ⟨33, _⟩ => ⟨S1, .i32⟩
  | .hbm, ⟨34, _⟩ => ⟨S_, .i32⟩
  | .hbm, ⟨35, _⟩ => ⟨S8388608x1, .i32⟩
  | .hbm, ⟨36, _⟩ => ⟨S8388608x1, .i1⟩
  | .hbm, ⟨37, _⟩ => ⟨S1x1, .i32⟩
  | .hbm, ⟨38, _⟩ => ⟨S8388608x1, .i32⟩
  | .hbm, ⟨39, _⟩ => ⟨S8388608x1, .i1⟩
  | .hbm, ⟨40, _⟩ => ⟨S8388608x1, .i1⟩
  | .hbm, ⟨41, _⟩ => ⟨S_, .i1⟩
  | .hbm, ⟨42, _⟩ => ⟨S8388608, .i1⟩
  | .hbm, ⟨43, _⟩ => ⟨S4x8388608, .f32⟩
  | .hbm, ⟨44, _⟩ => ⟨S4x8388608, .i1⟩
  | .hbm, ⟨45, _⟩ => ⟨S_, .f32⟩
  | .hbm, ⟨46, _⟩ => ⟨S4x8388608, .f32⟩
  | .hbm, ⟨47, _⟩ => ⟨S4x8388608, .f32⟩
  | .hbm, ⟨48, _⟩ => ⟨S_, .i32⟩
  | .hbm, ⟨49, _⟩ => ⟨S8388608, .i32⟩
  | .hbm, ⟨50, _⟩ => ⟨S8388608, .i1⟩
  | .hbm, ⟨51, _⟩ => ⟨S_, .i32⟩
  | .hbm, ⟨52, _⟩ => ⟨S8388608, .i32⟩
  | .hbm, ⟨53, _⟩ => ⟨S8388608, .i32⟩
  | .hbm, ⟨54, _⟩ => ⟨S8388608, .i32⟩
  | .hbm, ⟨55, _⟩ => ⟨S8388608x1, .i32⟩
  | .hbm, ⟨56, _⟩ => ⟨S1, .i32⟩
  | .hbm, ⟨57, _⟩ => ⟨S_, .i32⟩
  | .hbm, ⟨58, _⟩ => ⟨S8388608x1, .i32⟩
  | .hbm, ⟨59, _⟩ => ⟨S8388608x1, .i1⟩
  | .hbm, ⟨60, _⟩ => ⟨S1x1, .i32⟩
  | .hbm, ⟨61, _⟩ => ⟨S8388608x1, .i32⟩
  | .hbm, ⟨62, _⟩ => ⟨S8388608x1, .i1⟩
  | .hbm, ⟨63, _⟩ => ⟨S8388608x1, .i1⟩
  | .hbm, ⟨64, _⟩ => ⟨S_, .i1⟩
  | .hbm, ⟨65, _⟩ => ⟨S8388608, .i1⟩
  | .hbm, ⟨66, _⟩ => ⟨S4x8388608, .f32⟩
  | .hbm, ⟨67, _⟩ => ⟨S4x8388608, .i1⟩
  | .hbm, ⟨68, _⟩ => ⟨S_, .f32⟩
  | .hbm, ⟨69, _⟩ => ⟨S4x8388608, .f32⟩
  | .hbm, ⟨70, _⟩ => ⟨S4x8388608, .f32⟩
  | .hbm, ⟨71, _⟩ => ⟨S1x8388608, .i32⟩
  | .hbm, ⟨72, _⟩ => ⟨S2x32x1, .f32⟩
  | .hbm, ⟨73, _⟩ => ⟨S_, .f32⟩
  | .hbm, ⟨74, _⟩ => ⟨S32x1, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S32, .i1⟩
  | .hbm, ⟨79, _⟩ => ⟨S32, .f32⟩
  | .hbm, ⟨80, _⟩ => ⟨S_, .f32⟩
  | .hbm, ⟨81, _⟩ => ⟨S32, .f32⟩
  | .hbm, ⟨82, _⟩ => ⟨S32, .i1⟩
  | .hbm, ⟨83, _⟩ => ⟨S32, .i1⟩
  | .local _ .vmem, ⟨0, _⟩ => ⟨S32x32x128, .i32⟩
  | .local _ .vmem, ⟨1, _⟩ => ⟨S8, .f32⟩
  | .local _ .vmem, ⟨2, _⟩ => ⟨S8, .f32⟩
  | .local _ .vmem, ⟨3, _⟩ => ⟨S32x1, .f32⟩
  | .local _ .vmem, ⟨4, _⟩ => ⟨S32x1, .f32⟩
  | .local _ .vmem, ⟨5, _⟩ => ⟨S32x32x128, .f32⟩
  | .local _ .vmem, ⟨6, _⟩ => ⟨S4x32768, .f32⟩
  | .local _ .vmem, ⟨7, _⟩ => ⟨S4x32768, .f32⟩
  | .local _ .vmem, ⟨8, _⟩ => ⟨S4x32768, .f32⟩
  | .local _ .vmem, ⟨9, _⟩ => ⟨S4x32768, .f32⟩
  | .local _ .vmem, ⟨10, _⟩ => ⟨S1x32768, .i32⟩
  | .local _ .vmem, ⟨11, _⟩ => ⟨S1x32768, .i32⟩
  | .local _ .vmem, ⟨12, _⟩ => ⟨S1x32x1, .f32⟩
  | .local _ .vmem, ⟨13, _⟩ => ⟨S1x32x1, .f32⟩
  | _, _ => ⟨S32x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v14 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_cst : Ref sig .tc := ⟨.hbm, 73, rfl⟩
abbrev main_v18 : Ref sig .tc := ⟨.hbm, 74, rfl⟩
abbrev main_v19 : Ref sig .tc := ⟨.hbm, 75, rfl⟩
abbrev main_cst_1 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_cst_2 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x32x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 128], ![false, false]⟩

def cc1_transform_0 (i : grid1.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc1_transform_1 (i : grid1.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x32768 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x32x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S32_S32x1 : S32.ShapeCasts S32x1
  shapeCasts_S32x4096_S32x32x128 : S32x4096.ShapeCasts S32x32x128
  inb_S32x32x128_S32x32x128_0_0_0 : ∀ a, (![0, 0, 0] : Fin 3 → Nat) a + S32x32x128.size a ≤ S32x32x128.size a
  h_S32x32x128 : 0 < S32x32x128.numel
  shapeCasts_S32x32x128_S32x32x128 : S32x32x128.ShapeCasts S32x32x128
  natLt_1_32 : 1 < 32
  inb_S8_S1_0 : ∀ a, (![0] : Fin 1 → Nat) a + S1.size a ≤ S8.size a
  h_S1 : 0 < S1.numel
  inpos_S1_p0 : ∀ a, (![0] : Fin 1 → Nat) a < S1.size a
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  reduces_S32x32x128_S32x32 : S32x32x128.Reduces [2] S32x32
  reduces_S32x32_S32 : S32x32.Reduces [1] S32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  shapeCasts_S32x32x128_S32x4096 : S32x32x128.ShapeCasts S32x4096
  bcast_S32x4096_S32x4096x1_0_1 : S32x4096.BroadcastsInDim S32x4096x1 (![0, 1] : Fin 2 → Fin S32x4096x1.rank)
  concatenates_S32x4096x3_S32x4096x1_S32x4096x4_d2 : Shape.Concatenates [S32x4096x3, S32x4096x1] S32x4096x4 2
  shapeCasts_S32x4096x4_S131072x4 : S32x4096x4.ShapeCasts S131072x4
  transposes_S131072x4_S4x131072_1_0 : S131072x4.Transposes [1, 0] S4x131072
  bcast_S_S8388608 : S_.BroadcastsInDim S8388608 (![] : Fin 0 → Fin S8388608.rank)
  bcast_S8388608_S8388608x1_0 : S8388608.BroadcastsInDim S8388608x1 (![0] : Fin 1 → Fin S8388608x1.rank)
  bcast_S_S8388608x1 : S_.BroadcastsInDim S8388608x1 (![] : Fin 0 → Fin S8388608x1.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  reducesTo_S8388608x1_S8388608_d1 : S8388608x1.ReducesTo [1] S8388608
  h_S_ : 0 < S_.numel
  bcast_S8388608_S4x8388608_1 : S8388608.BroadcastsInDim S4x8388608 (![1] : Fin 1 → Fin S4x8388608.rank)
  bcast_S_S4x8388608 : S_.BroadcastsInDim S4x8388608 (![] : Fin 0 → Fin S4x8388608.rank)
  shapeCasts_S8388608_S1x8388608 : S8388608.ShapeCasts S1x8388608
  inb_S1x32x1_S1x32x1_0_0_0 : ∀ a, (![0, 0, 0] : Fin 3 → Nat) a + S1x32x1.size a ≤ S1x32x1.size a
  h_S1x32x1 : 0 < S1x32x1.numel
  inb_S4x32768_S4x32768_0_0 : ∀ a, (![0, 0] : Fin 2 → Nat) a + S4x32768.size a ≤ S4x32768.size a
  h_S4x32768 : 0 < S4x32768.numel
  shapeCasts_S4x32768_S4x32768 : S4x32768.ShapeCasts S4x32768
  slices_S4x32768_o0_0_S3x32768 : S4x32768.Slices ![0, 0] S3x32768
  reduces_S3x32768_S32768 : S3x32768.Reduces [0] S32768
  shapeCasts_S32768_S1x32768 : S32768.ShapeCasts S1x32768
  slices_S4x32768_o3_0_S1x32768 : S4x32768.Slices ![3, 0] S1x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  iota_S32x1_d0_w32 : S32x1.Iotas .tc 32 [0]
  broadcasts_S1x32768_S32x32768 : S1x32768.Broadcasts S32x32768
  broadcasts_S32x1_S32x32768 : S32x1.Broadcasts S32x32768
  reduces_S32x32768_S32 : S32x32768.Reduces [1] S32
  shapeCasts_S1x32x1_S1x32x1 : S1x32x1.ShapeCasts S1x32x1
  shapeCasts_S32x1_S1x32x1 : S32x1.ShapeCasts S1x32x1
  reducesTo_S2x32x1_S32x1_d0 : S2x32x1.ReducesTo [0] S32x1
  shapeCasts_S32x1_S32 : S32x1.ShapeCasts S32
  bcast_S_S32 : S_.BroadcastsInDim S32 (![] : Fin 0 → Fin S32.rank)
  gather_S4x131072_S8388608x1_S4x8388608_0_1_n_n_1_1_41_wf : GatherDims.WF S4x131072 S8388608x1 S4x8388608 [0] [1] [] [1] [] 1 ![4, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32x128.size a ≤ S32x32x128.size a
  hwx0_0 : ∀ i : grid0.Coords, EltTy.bits .i32 = 32 ∨ (Rect.block (s := S32x32x128) S32x32x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8.size a ≤ S8.size a
  hwx0_2 : ∀ i : grid0.Coords, EltTy.bits .f32 = 32 ∨ (Rect.block (s := S8) S8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32x128.size a ≤ S32x32x128.size a
  hwx0_5 : ∀ i : grid0.Coords, EltTy.bits .f32 = 32 ∨ (Rect.block (s := S32x32x128) S32x32x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x32768.size a ≤ S4x8388608.size a
  hwx1_0 : ∀ i : grid1.Coords, EltTy.bits .f32 = 32 ∨ (Rect.block (s := S4x8388608) S4x32768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x32768.size a ≤ S4x8388608.size a
  hwx1_1 : ∀ i : grid1.Coords, EltTy.bits .f32 = 32 ∨ (Rect.block (s := S4x8388608) S4x32768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32768.size a ≤ S1x8388608.size a
  hwx1_2 : ∀ i : grid1.Coords, EltTy.bits .i32 = 32 ∨ (Rect.block (s := S1x8388608) S1x32768.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x32x1.size a ≤ S2x32x1.size a
  hwx1_3 : ∀ i : grid1.Coords, EltTy.bits .f32 = 32 ∨ (Rect.block (s := S2x32x1) S1x32x1.size (cc1_transform_3 i) (hinb1_3 i)).WholeWords (EltTy.packing .f32)

variable [Facts₀]

def gather_S4x131072_S8388608x1_S4x8388608_0_1_n_n_1_1_41 : GatherDims S4x131072 S8388608x1 S4x8388608 where
  offsetDims := [0]
  collapsedSliceDims := [1]
  operandBatchingDims := []
  startIndicesBatchingDims := []
  startIndexMap := [1]
  indexVectorDim := 1
  sliceSizes := ![4, 1]
  wf := gather_S4x131072_S8388608x1_S4x8388608_0_1_n_n_1_1_41_wf

abbrev win0_0 : Pipeline.Window sig grid0 :=
  Pipeline.Window.ofSpec (Memref.whole main_v1) S32x32x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S32x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S32x32x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S4x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x32768.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x32x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x4096x3 : Shape := ⟨3, ![32, 4096, 3]⟩
abbrev S32 : Shape := ⟨1, ![32]⟩
abbrev S32x4096 : Shape := ⟨2, ![32, 4096]⟩
abbrev S8 : Shape := ⟨1, ![8]⟩
abbrev S8388608 : Shape := ⟨1, ![8388608]⟩
abbrev S_ : Shape := ⟨0, ![]⟩
abbrev S32x4096x1 : Shape := ⟨3, ![32, 4096, 1]⟩
abbrev S8388608x1 : Shape := ⟨2, ![8388608, 1]⟩
abbrev S8388608x2 : Shape := ⟨2, ![8388608, 2]⟩
abbrev S8388608x3 : Shape := ⟨2, ![8388608, 3]⟩

abbrev nBuf : Space → Nat
  | .hbm => 126
  | .vmem => 0
  | .smem => 0
  | _ => 0

abbrev bufTy : (tb : Table) → Fin (tcTables nBuf tb) → BufTy
  | .hbm, ⟨0, _⟩ => ⟨S32x4096x3, .f32⟩
  | .hbm, ⟨1, _⟩ => ⟨S32, .f32⟩
  | .hbm, ⟨2, _⟩ => ⟨S32x4096, .i32⟩
  | .hbm, ⟨3, _⟩ => ⟨S8, .f32⟩
  | .hbm, ⟨4, _⟩ => ⟨S8, .f32⟩
  | .hbm, ⟨5, _⟩ => ⟨S8388608, .i32⟩
  | .hbm, ⟨6, _⟩ => ⟨S8388608, .i32⟩
  | .hbm, ⟨7, _⟩ => ⟨S8388608, .i32⟩
  | .hbm, ⟨8, _⟩ => ⟨S_, .i32⟩
  | .hbm, ⟨9, _⟩ => ⟨S32x4096, .i32⟩
  | .hbm, ⟨10, _⟩ => ⟨S32x4096, .i1⟩
  | .hbm, ⟨11, _⟩ => ⟨S_, .i32⟩
  | .hbm, ⟨12, _⟩ => ⟨S32x4096, .i32⟩
  | .hbm, ⟨13, _⟩ => ⟨S32x4096, .i32⟩
  | .hbm, ⟨14, _⟩ => ⟨S32x4096, .i32⟩
  | .hbm, ⟨15, _⟩ => ⟨S32x4096x1, .i32⟩
  | .hbm, ⟨16, _⟩ => ⟨S32x4096, .f32⟩
  | .hbm, ⟨17, _⟩ => ⟨S_, .f32⟩
  | .hbm, ⟨18, _⟩ => ⟨S32, .f32⟩
  | .hbm, ⟨19, _⟩ => ⟨S32, .i1⟩
  | .hbm, ⟨20, _⟩ => ⟨S_, .i32⟩
  | .hbm, ⟨21, _⟩ => ⟨S8388608, .i32⟩
  | .hbm, ⟨22, _⟩ => ⟨S8388608, .i1⟩
  | .hbm, ⟨23, _⟩ => ⟨S_, .i32⟩
  | .hbm, ⟨24, _⟩ => ⟨S8388608, .i32⟩
  | .hbm, ⟨25, _⟩ => ⟨S8388608, .i32⟩
  | .hbm, ⟨26, _⟩ => ⟨S8388608, .i32⟩
  | .hbm, ⟨27, _⟩ => ⟨S_, .i32⟩
  | .hbm, ⟨28, _⟩ => ⟨S8388608, .i32⟩
  | .hbm, ⟨29, _⟩ => ⟨S8388608, .i1⟩
  | .hbm, ⟨30, _⟩ => ⟨S_, .i32⟩
  | .hbm, ⟨31, _⟩ => ⟨S8388608, .i32⟩
  | .hbm, ⟨32, _⟩ => ⟨S8388608, .i32⟩
  | .hbm, ⟨33, _⟩ => ⟨S8388608, .i32⟩
  | .hbm, ⟨34, _⟩ => ⟨S8388608x1, .i32⟩
  | .hbm, ⟨35, _⟩ => ⟨S8388608x1, .i32⟩
  | .hbm, ⟨36, _⟩ => ⟨S8388608x2, .i32⟩
  | .hbm, ⟨37, _⟩ => ⟨S8388608x3, .f32⟩
  | .hbm, ⟨38, _⟩ => ⟨S_, .i32⟩
  | .hbm, ⟨39, _⟩ => ⟨S8388608, .i32⟩
  | .hbm, ⟨40, _⟩ => ⟨S8388608, .i1⟩
  | .hbm, ⟨41, _⟩ => ⟨S_, .i32⟩
  | .hbm, ⟨42, _⟩ => ⟨S8388608, .i32⟩
  | .hbm, ⟨43, _⟩ => ⟨S8388608, .i32⟩
  | .hbm, ⟨44, _⟩ => ⟨S8388608, .i32⟩
  | .hbm, ⟨45, _⟩ => ⟨S_, .i32⟩
  | .hbm, ⟨46, _⟩ => ⟨S8388608, .i32⟩
  | .hbm, ⟨47, _⟩ => ⟨S8388608, .i1⟩
  | .hbm, ⟨48, _⟩ => ⟨S_, .i32⟩
  | .hbm, ⟨49, _⟩ => ⟨S8388608, .i32⟩
  | .hbm, ⟨50, _⟩ => ⟨S8388608, .i32⟩
  | .hbm, ⟨51, _⟩ => ⟨S8388608, .i32⟩
  | .hbm, ⟨52, _⟩ => ⟨S8388608x1, .i32⟩
  | .hbm, ⟨53, _⟩ => ⟨S8388608x1, .i32⟩
  | .hbm, ⟨54, _⟩ => ⟨S8388608x2, .i32⟩
  | .hbm, ⟨55, _⟩ => ⟨S8388608x3, .f32⟩
  | .hbm, ⟨56, _⟩ => ⟨S8388608x3, .f32⟩
  | .hbm, ⟨57, _⟩ => ⟨S8388608x3, .f32⟩
  | .hbm, ⟨58, _⟩ => ⟨S_, .f32⟩
  | .hbm, ⟨59, _⟩ => ⟨S8388608, .f32⟩
  | .hbm, ⟨60, _⟩ => ⟨S_, .i32⟩
  | .hbm, ⟨61, _⟩ => ⟨S8388608, .i32⟩
  | .hbm, ⟨62, _⟩ => ⟨S8388608, .i1⟩
  | .hbm, ⟨63, _⟩ => ⟨S_, .i32⟩
  | .hbm, ⟨64, _⟩ => ⟨S8388608, .i32⟩
  | .hbm, ⟨65, _⟩ => ⟨S8388608, .i32⟩
  | .hbm, ⟨66, _⟩ => ⟨S8388608, .i32⟩
  | .hbm, ⟨67, _⟩ => ⟨S_, .i32⟩
  | .hbm, ⟨68, _⟩ => ⟨S8388608, .i32⟩
  | .hbm, ⟨69, _⟩ => ⟨S8388608, .i1⟩
  | .hbm, ⟨70, _⟩ => ⟨S_, .i32⟩
  | .hbm, ⟨71, _⟩ => ⟨S8388608, .i32⟩
  | .hbm, ⟨72, _⟩ => ⟨S8388608, .i32⟩
  | .hbm, ⟨73, _⟩ => ⟨S8388608, .i32⟩
  | .hbm, ⟨74, _⟩ => ⟨S8388608x1, .i32⟩
  | .hbm, ⟨75, _⟩ => ⟨S8388608x1, .i32⟩
  | .hbm, ⟨76, _⟩ => ⟨S8388608x2, .i32⟩
  | .hbm, ⟨77, _⟩ => ⟨S8388608, .i32⟩
  | .hbm, ⟨78, _⟩ => ⟨S_, .i32⟩
  | .hbm, ⟨79, _⟩ => ⟨S8388608, .i32⟩
  | .hbm, ⟨80, _⟩ => ⟨S8388608, .i1⟩
  | .hbm, ⟨81, _⟩ => ⟨S_, .i32⟩
  | .hbm, ⟨82, _⟩ => ⟨S8388608, .i32⟩
  | .hbm, ⟨83, _⟩ => ⟨S8388608, .i32⟩
  | .hbm, ⟨84, _⟩ => ⟨S8388608, .i32⟩
  | .hbm, ⟨85, _⟩ => ⟨S_, .i32⟩
  | .hbm, ⟨86, _⟩ => ⟨S8388608, .i32⟩
  | .hbm, ⟨87, _⟩ => ⟨S8388608, .i1⟩
  | .hbm, ⟨88, _⟩ => ⟨S_, .i32⟩
  | .hbm, ⟨89, _⟩ => ⟨S8388608, .i32⟩
  | .hbm, ⟨90, _⟩ => ⟨S8388608, .i32⟩
  | .hbm, ⟨91, _⟩ => ⟨S8388608, .i32⟩
  | .hbm, ⟨92, _⟩ => ⟨S8388608x1, .i32⟩
  | .hbm, ⟨93, _⟩ => ⟨S8388608x1, .i32⟩
  | .hbm, ⟨94, _⟩ => ⟨S8388608x2, .i32⟩
  | .hbm, ⟨95, _⟩ => ⟨S8388608, .i32⟩
  | .hbm, ⟨96, _⟩ => ⟨S_, .i32⟩
  | .hbm, ⟨97, _⟩ => ⟨S8388608, .i32⟩
  | .hbm, ⟨98, _⟩ => ⟨S8388608, .i1⟩
  | .hbm, ⟨99, _⟩ => ⟨S_, .i32⟩
  | .hbm, ⟨100, _⟩ => ⟨S8388608, .i32⟩
  | .hbm, ⟨101, _⟩ => ⟨S8388608, .i32⟩
  | .hbm, ⟨102, _⟩ => ⟨S8388608, .i32⟩
  | .hbm, ⟨103, _⟩ => ⟨S8388608x1, .i32⟩
  | .hbm, ⟨104, _⟩ => ⟨S8388608, .f32⟩
  | .hbm, ⟨105, _⟩ => ⟨S_, .i32⟩
  | .hbm, ⟨106, _⟩ => ⟨S8388608, .i32⟩
  | .hbm, ⟨107, _⟩ => ⟨S8388608, .i1⟩
  | .hbm, ⟨108, _⟩ => ⟨S_, .i32⟩
  | .hbm, ⟨109, _⟩ => ⟨S8388608, .i32⟩
  | .hbm, ⟨110, _⟩ => ⟨S8388608, .i32⟩
  | .hbm, ⟨111, _⟩ => ⟨S8388608, .i32⟩
  | .hbm, ⟨112, _⟩ => ⟨S8388608x1, .i32⟩
  | .hbm, ⟨113, _⟩ => ⟨S8388608, .f32⟩
  | .hbm, ⟨114, _⟩ => ⟨S8388608, .f32⟩
  | .hbm, ⟨115, _⟩ => ⟨S8388608, .f32⟩
  | .hbm, ⟨116, _⟩ => ⟨S8388608, .i1⟩
  | .hbm, ⟨117, _⟩ => ⟨S8388608, .i32⟩
  | .hbm, ⟨118, _⟩ => ⟨S_, .i32⟩
  | .hbm, ⟨119, _⟩ => ⟨S32, .i32⟩
  | .hbm, ⟨120, _⟩ => ⟨S8388608x1, .i32⟩
  | .hbm, ⟨121, _⟩ => ⟨S32, .i32⟩
  | .hbm, ⟨122, _⟩ => ⟨S_, .i32⟩
  | .hbm, ⟨123, _⟩ => ⟨S32, .i32⟩
  | .hbm, ⟨124, _⟩ => ⟨S32, .i1⟩
  | .hbm, ⟨125, _⟩ => ⟨S32, .i1⟩
  | _, _ => ⟨S32x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_c_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_12 : Ref sig .tc := ⟨.hbm, 67, rfl⟩
abbrev main_v45 : Ref sig .tc := ⟨.hbm, 68, rfl⟩
abbrev main_v46 : Ref sig .tc := ⟨.hbm, 69, rfl⟩
abbrev main_c_13 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_14 : Ref sig .tc := ⟨.hbm, 78, rfl⟩
abbrev main_v54 : Ref sig .tc := ⟨.hbm, 79, rfl⟩
abbrev main_v55 : Ref sig .tc := ⟨.hbm, 80, rfl⟩
abbrev main_c_15 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_16 : Ref sig .tc := ⟨.hbm, 85, rfl⟩
abbrev main_v59 : Ref sig .tc := ⟨.hbm, 86, rfl⟩
abbrev main_v60 : Ref sig .tc := ⟨.hbm, 87, rfl⟩
abbrev main_c_17 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_18 : Ref sig .tc := ⟨.hbm, 96, rfl⟩
abbrev main_v68 : Ref sig .tc := ⟨.hbm, 97, rfl⟩
abbrev main_v69 : Ref sig .tc := ⟨.hbm, 98, rfl⟩
abbrev main_c_19 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_20 : Ref sig .tc := ⟨.hbm, 105, rfl⟩
abbrev main_v75 : Ref sig .tc := ⟨.hbm, 106, rfl⟩
abbrev main_v76 : Ref sig .tc := ⟨.hbm, 107, rfl⟩
abbrev main_c_21 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_22 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_23 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩

abbrev nD : Nat := 1
abbrev τ : Topo := Topo.v7x

variable {F : FTy → Type} [FloatOps F]

class Facts₀ : Prop where
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  reducesTo_S32x4096_S32_d1 : S32x4096.ReducesTo [1] S32
  h_S_ : 0 < S_.numel
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  reducesTo_S8388608x3_S8388608_d1 : S8388608x3.ReducesTo [1] S8388608
  natLt_1_32 : 1 < 32
  bcast_S_S32 : S_.BroadcastsInDim S32 (![] : Fin 0 → Fin S32.rank)
  gather_S8_S32x4096x1_S32x4096_n_0_n_n_0_2_1_wf : GatherDims.WF S8 S32x4096x1 S32x4096 [] [0] [] [0] [] 2 ![1]
  gather_S32x4096x3_S8388608x2_S8388608x3_1_01_n_n_01_1_113_wf : GatherDims.WF S32x4096x3 S8388608x2 S8388608x3 [1] [0, 1] [] [0, 1] [] 1 ![1, 1, 3]
  gather_S32x4096_S8388608x2_S8388608_n_01_n_n_01_1_11_wf : GatherDims.WF S32x4096 S8388608x2 S8388608 [] [0, 1] [] [0, 1] [] 1 ![1, 1]
  gather_S8_S8388608x1_S8388608_n_0_n_n_0_1_1_wf : GatherDims.WF S8 S8388608x1 S8388608 [] [0] [] [0] [] 1 ![1]
  scatter_S32_S8388608x1_S8388608_n_0_0_1_wf : ScatterDims.WF S32 S8388608x1 S8388608 [] [0] [0] 1

variable [Facts₀]

def gather_S8_S32x4096x1_S32x4096_n_0_n_n_0_2_1 : GatherDims S8 S32x4096x1 S32x4096 where
  offsetDims := []
  collapsedSliceDims := [0]
  operandBatchingDims := []
  startIndicesBatchingDims := []
  startIndexMap := [0]
  indexVectorDim := 2
  sliceSizes := ![1]
  wf := gather_S8_S32x4096x1_S32x4096_n_0_n_n_0_2_1_wf
def gather_S32x4096x3_S8388608x2_S8388608x3_1_01_n_n_01_1_113 : GatherDims S32x4096x3 S8388608x2 S8388608x3 where
  offsetDims := [1]
  collapsedSliceDims := [0, 1]
  operandBatchingDims := []
  startIndicesBatchingDims := []
  startIndexMap := [0, 1]
  indexVectorDim := 1
  sliceSizes := ![1, 1, 3]
  wf := gather_S32x4096x3_S8388608x2_S8388608x3_1_01_n_n_01_1_113_wf
def gather_S32x4096_S8388608x2_S8388608_n_01_n_n_01_1_11 : GatherDims S32x4096 S8388608x2 S8388608 where
  offsetDims := []
  collapsedSliceDims := [0, 1]
  operandBatchingDims := []
  startIndicesBatchingDims := []
  startIndexMap := [0, 1]
  indexVectorDim := 1
  sliceSizes := ![1, 1]
  wf := gather_S32x4096_S8388608x2_S8388608_n_01_n_n_01_1_11_wf
def gather_S8_S8388608x1_S8388608_n_0_n_n_0_1_1 : GatherDims S8 S8388608x1 S8388608 where
  offsetDims := []
  collapsedSliceDims := [0]
  operandBatchingDims := []
  startIndicesBatchingDims := []
  startIndexMap := [0]
  indexVectorDim := 1
  sliceSizes := ![1]
  wf := gather_S8_S8388608x1_S8388608_n_0_n_n_0_1_1_wf
def scatter_S32_S8388608x1_S8388608_n_0_0_1 : ScatterDims S32 S8388608x1 S8388608 where
  updateWindowDims := []
  insertedWindowDims := [0]
  scatterDimsToOperandDims := [0]
  indexVectorDim := 1
  wf := scatter_S32_S8388608x1_S8388608_n_0_0_1_wf

class Facts : Prop extends Facts₀ where

variable [Facts]
-- ==== Proof.Spec.lean ====
/-
  The mathematics both programs compute, stated once over the argument arrays.

  Inputs: atom positions `pos[b, a, ·]`, a per-structure energy `eng[b]`, an element class `elm[b, a]` in `0 … 7`,
  a per-class radius and reference energy, and a neighbour list of pairs `(n[p], i[p], j[p])`: structure, first atom,
  second atom.

  Structure `b` is flagged when its energy is at least the sum of its atoms' reference energies (`engMax`), or when
  some pair of structure `b` has its two atoms closer than the sum of their class radii: squared distance `sod` at
  most the squared radius sum `rsq`.  The result is the disjunction of the two one-bit answers.
-/
import Idealize.ShloMosaic.PureOps.Ideal
import Idealize.ShloMosaic.Lib.ValueIdx

noncomputable section

open scoped BigOperators

namespace Cert.Spec

open Idealize.ShloMosaic Idealize.ShloMosaic.ValueIdx

/-- The eight argument arrays, floats as extended reals and integers as 32-bit words. -/
structure Inputs where
  pos : (⟨3, ![32, 4096, 3]⟩ : Shape).Idx → EReal
  eng : (⟨1, ![32]⟩ : Shape).Idx → EReal
  elm : (⟨2, ![32, 4096]⟩ : Shape).Idx → BitVec 32
  radius : (⟨1, ![8]⟩ : Shape).Idx → EReal
  engAtm : (⟨1, ![8]⟩ : Shape).Idx → EReal
  n : (⟨1, ![8388608]⟩ : Shape).Idx → BitVec 32
  i : (⟨1, ![8388608]⟩ : Shape).Idx → BitVec 32
  j : (⟨1, ![8388608]⟩ : Shape).Idx → BitVec 32

variable (X : Inputs)

/-- The element class of atom `a` of structure `b`, as a class number. -/
def cls (b : Fin 32) (a : Fin 4096) : Fin 8 := ⟨(X.elm (ix2 b a)).toNat % 8, Nat.mod_lt _ (by decide)⟩
/-- The first atom of pair `p`. -/
def atomI (p : Fin 8388608) : Fin 4096 := ⟨(X.i (ix1 p)).toNat % 4096, Nat.mod_lt _ (by decide)⟩
/-- The second atom of pair `p`. -/
def atomJ (p : Fin 8388608) : Fin 4096 := ⟨(X.j (ix1 p)).toNat % 4096, Nat.mod_lt _ (by decide)⟩

/-- The sum of the reference energies of structure `b`'s atoms. -/
def engMax (b : Fin 32) : EReal := ∑ a : Fin 4096, X.engAtm (ix1 (cls X b a))
/-- The radius of atom `a` of structure `b`: its class's radius. -/
def rad (b : Fin 32) (a : Fin 4096) : EReal := X.radius (ix1 (cls X b a))
/-- The squared distance between atoms `ai` and `aj` of structure `b`. -/
def sod (b : Fin 32) (ai aj : Fin 4096) : EReal :=
  ∑ d : Fin 3, (X.pos (ix3 b aj d) - X.pos (ix3 b ai d)) * (X.pos (ix3 b aj d) - X.pos (ix3 b ai d))
/-- The square of the sum of the two atoms' radii. -/
def rsq (b : Fin 32) (ai aj : Fin 4096) : EReal := (rad X b ai + rad X b aj) * (rad X b ai + rad X b aj)
/-- The one-bit answer "atoms `ai`, `aj` of structure `b` are in contact": `rsq ≥ sod`. -/
def pairBit (b : Fin 32) (ai aj : Fin 4096) : BitVec 1 := Ideal.cmp .oge (rsq X b ai aj) (sod X b ai aj)
/-- Pair `p` belongs to structure `b` and its atoms are in contact. -/
def hit (b : Fin 32) (p : Fin 8388608) : Prop :=
  X.n (ix1 p) = BitVec.ofNat 32 b.val ∧ pairBit X b (atomI X p) (atomJ X p) = 1#1
/-- Structure `b` has a pair in contact. -/
def close (b : Fin 32) : Prop := ∃ p : Fin 8388608, hit X b p

open Classical in
/-- `close` as a bit. -/
def closeBit (b : Fin 32) : BitVec 1 := if close X b then 1#1 else 0#1

/-- The flag of each structure: energy at least the reference sum, or a pair in contact. -/
def result : (⟨1, ![32]⟩ : Shape).Idx → BitVec 1 :=
  fun k => IntOp.ori (Ideal.cmp .oge (X.eng (ix1 (k 0))) (engMax X (k 0))) (closeBit X (k 0))

/-- What the precondition says of the inputs, as far as the proof uses it: the class radii and reference energies are
    real numbers, every class number is below 8, every atom number of a pair below 4096. -/
structure Dom : Prop where
  rad_fin : ∀ e : Fin 8, ∃ r : ℝ, X.radius (ix1 e) = (r : EReal)
  atm_fin : ∀ e : Fin 8, ∃ r : ℝ, X.engAtm (ix1 e) = (r : EReal)
  elm_rng : ∀ (b : Fin 32) (a : Fin 4096), (X.elm (ix2 b a)).toNat < 8
  i_rng : ∀ p : Fin 8388608, (X.i (ix1 p)).toNat < 4096
  j_rng : ∀ p : Fin 8388608, (X.j (ix1 p)).toNat < 4096

/-- A one-bit answer as the number 0 or 1 (what widening the bit to a word and converting the word gives). -/
def bitReal (x : BitVec 1) : EReal := (((x.setWidth 32).toInt : ℝ) : EReal)

theorem bitReal_one : bitReal 1#1 = 1 := by
  unfold bitReal
  norm_num [show ((1#1 : BitVec 1).setWidth 32).toInt = 1 from by decide]

theorem bitReal_zero : bitReal 0#1 = 0 := by
  unfold bitReal
  norm_num [show ((0#1 : BitVec 1).setWidth 32).toInt = 0 from by decide]

theorem closeBit_eq_one_iff (b : Fin 32) : closeBit X b = 1#1 ↔ close X b := by
  unfold closeBit
  split
  · simp [*]
  · simp [*]

end Cert.Spec

end
-- ==== Proof.KTail.lean ====
/- The host operations after region 1: the result bit of each structure from the two regions' result arrays. -/
import proofs.«427218_j89653147337010_1_alg».proof.Proof.Gen.KernelIdeal.Frame
import proofs.«427218_j89653147337010_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen Cert.Spec
variable (m : (ℓ : Loc nD τ sig) → Buf (Elt Ideal) ℓ) (ρ : Dev nD → PrngReg)

/-- The energy-flag array after region 0 (a [32, 1] array of 0/1 numbers). -/
abbrev flagArr (c : Dev nD) : Vec Ideal S32x1 .f32 := (dat0 (V1 m ρ) c).arrAt 4 cfg0.N
/-- The per-half contact counts after region 1 (a [2, 32, 1] array). -/
abbrev cntArr (c : Dev nD) : Vec Ideal S2x32x1 .f32 := (dat1 (V6 m ρ) c).arrAt 3 cfg1.N

/-- The contact-count array is region 1's fourth window, read at the region's exit. -/
private theorem W7_cnt (c : Dev nD) : W7 m ρ c (Proc.devRef .tc main_v17) = cntArr m ρ c := W7_arr m ρ c 3

/-- The side condition "no operation of the stretch writes this buffer", by the list of the stretch's result buffers. -/
local macro "not_written " l:ident : tactic =>
  `(tactic| (
    simp only [$l:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The energy-flag array is region 0's fifth window; no later host stretch and no window of region 1 writes it, so at
    region 1's exit it still holds what region 0 left. -/
private theorem W7_flag (c : Dev nD) : W7 m ρ c (Proc.devRef .tc main_v2_0) = flagArr m ρ c :=
  calc W7 m ρ c (Proc.devRef .tc main_v2_0)
    _ = W6 m ρ c (Proc.devRef .tc main_v2_0) := W7_of_ne m ρ c main_v2_0 (by decide)
    _ = W5 m ρ c (Proc.devRef .tc main_v2_0) :=
        StableHlo.after_of_forall_not_mem (b := Proc.devRef .tc main_v2_0) _ _
          (List.forall_iff_forall_mem.mp (by not_written hostOps1_3))
    _ = W4 m ρ c (Proc.devRef .tc main_v2_0) :=
        StableHlo.after_of_forall_not_mem (b := Proc.devRef .tc main_v2_0) _ _
          (List.forall_iff_forall_mem.mp (by not_written hostOps1_2))
    _ = W3 m ρ c (Proc.devRef .tc main_v2_0) :=
        StableHlo.after_of_forall_not_mem (b := Proc.devRef .tc main_v2_0) _ _
          (List.forall_iff_forall_mem.mp (by not_written hostOps1_1))
    _ = W2 m ρ c (Proc.devRef .tc main_v2_0) :=
        StableHlo.after_of_forall_not_mem (b := Proc.devRef .tc main_v2_0) _ _
          (List.forall_iff_forall_mem.mp (by not_written hostOps1))
    _ = flagArr m ρ c := W2_arr m ρ c 4

/-- The last host stretch as a term over the two result arrays. -/
private def tailTerm (fl : Vec Ideal S32x1 .f32) (cn : Vec Ideal S2x32x1 .f32) : IVec S32 1 :=
  ori
    (cmpf .ogt (fun i => shapeCast S32 fl shapeCasts_S32x1_S32 i)
      (broadcastInDim S32 ![] bcast_S_S32 (constant (F := Ideal) S_ .f32 0x3F000000#32)))
    (cmpf .ogt
      (fun i => shapeCast S32
        (Host.reduceAdd (F := Ideal) cn (constant (F := Ideal) S_ .f32 0x00000000#32) reducesTo_S2x32x1_S32x1_d0 h_S_)
        shapeCasts_S32x1_S32 i)
      (broadcastInDim S32 ![] bcast_S_S32 (constant (F := Ideal) S_ .f32 0x00000000#32)))

private theorem W8_v25 (c : Dev nD) :
    (W8 m ρ c (Proc.devRef .tc main_v25) : IVec S32 1) = tailTerm (flagArr m ρ c) (cntArr m ρ c) := by
  show StableHlo.after hostOps2 (W7 m ρ c) (Proc.devRef .tc main_v25) = _
  after_results
  rw [W7_cnt, W7_flag]
  rfl

/-- A [32, 1] array read as a [32] vector: element k is the array's (k, 0). -/
private theorem shapeCast_col_apply {α : Type} (x : S32x1.Idx → α) (k : S32.Idx) :
    shapeCast S32 x shapeCasts_S32x1_S32 k = x (ix2 (k 0) (0 : Fin 1)) :=
  shapeCast_apply x shapeCasts_S32x1_S32 k _ (by
    rw [Shape.rowMajor_val_two, Shape.rowMajor_val_one]
    show (k 0).val * 1 + 0 = (k 0).val
    omega)

/-- The host's sum over the leading axis of a [2, 32, 1] array, from the initial value zero: the two halves' terms
    in order. -/
private theorem reduce_apply (cn : Vec Ideal S2x32x1 .f32) (b : Fin 32) (u : Fin 1) :
    Host.reduceAdd (F := Ideal) cn (constant (F := Ideal) S_ .f32 0x00000000#32) reducesTo_S2x32x1_S32x1_d0 h_S_ (ix2 b u)
      = Ideal.ofBits .f32 0x00000000#32 + (cn (ix3 (0 : Fin 2) b u) + cn (ix3 (1 : Fin 2) b u)) := by
  have hr : S2x32x1.Reduces [(0 : Fin S2x32x1.rank)] S32x1 := by decide
  simp only [Host.reduceAdd, Ideal.hostReduceAdd_def]
  rw [Ideal.hostReduceAdd_single reducesTo_S2x32x1_S32x1_d0 hr]
  refine congrArg (Ideal.ofBits .f32 0x00000000#32 + ·) ?_
  refine (Fin.sum_univ_two (fun k : Fin 2 => cn (hr.lift (ix2 b u) k))).trans ?_
  refine congrArg₂ (· + ·) (congrArg cn (funext fun a => Fin.ext ?_)) (congrArg cn (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

/-- The term read at an index: the two comparisons pointwise, the constants broadcast, the reshapes at (k, 0), the
    sum as its two terms. -/
private theorem tailTerm_apply (fl : Vec Ideal S32x1 .f32) (cn : Vec Ideal S2x32x1 .f32) (k : S32.Idx) :
    tailTerm fl cn k
      = IntOp.ori
          (Ideal.cmp .ogt (fl (ix2 (k 0) (0 : Fin 1))) (Ideal.ofBits .f32 0x3F000000#32))
          (Ideal.cmp .ogt
            (Ideal.ofBits .f32 0x00000000#32 + (cn (ix3 (0 : Fin 2) (k 0) (0 : Fin 1)) + cn (ix3 (1 : Fin 2) (k 0) (0 : Fin 1))))
            (Ideal.ofBits .f32 0x00000000#32)) := by
  have h1 := shapeCast_col_apply fl k
  have h2 := (shapeCast_col_apply
    (Host.reduceAdd (F := Ideal) cn (constant (F := Ideal) S_ .f32 0x00000000#32) reducesTo_S2x32x1_S32x1_d0 h_S_) k).trans
    (reduce_apply cn (k 0) (0 : Fin 1))
  have hb : ∀ w : BitVec 32,
      broadcastInDim S32 ![] bcast_S_S32 (constant (F := Ideal) S_ .f32 w) k = Ideal.ofBits .f32 w :=
    fun w => broadcastInDim_apply _ bcast_S_S32 _ k (fun a => a.elim0) (fun a => a.elim0)
  exact congrArg₂ IntOp.ori (congrArg₂ (Ideal.cmp .ogt) h1 (hb _)) (congrArg₂ (Ideal.cmp .ogt) h2 (hb _))

theorem v25_apply (c : Dev nD) (k : S32.Idx) :
    (W8 m ρ c (Proc.devRef .tc main_v25) : IVec S32 1) k
      = IntOp.ori
          (Ideal.cmp .ogt (flagArr m ρ c (ix2 (k 0) (0 : Fin 1))) (Ideal.ofBits .f32 0x3F000000#32))
          (Ideal.cmp .ogt
            (Ideal.ofBits .f32 0x00000000#32
              + (cntArr m ρ c (ix3 (0 : Fin 2) (k 0) (0 : Fin 1)) + cntArr m ρ c (ix3 (1 : Fin 2) (k 0) (0 : Fin 1))))
            (Ideal.ofBits .f32 0x00000000#32)) := by
  rw [W8_v25]
  exact tailTerm_apply (flagArr m ρ c) (cntArr m ρ c) k

end Cert.KernelIdeal.KV

end
-- ==== Proof.KPay0.lean ====
/- Region 0's body as values: what it stores into its two output blocks, read at an index.
   The body builds, for each atom, the sum over the eight classes of (class indicator) × (class value); with the class
   number below 8 and the class values real numbers that sum is the atom's own class value. -/
import proofs.«427218_j89653147337010_1_alg».proof.Proof.Gen.KernelIdeal.Frame
import proofs.«427218_j89653147337010_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen Cert.Spec

namespace Pay0

/-- The class indicator: the number 1 when the word `w` is the class word `e`, else 0. -/
def ind (w e : BitVec 32) : EReal := ((((IntOp.cmpi .eq w e).setWidth 32).toInt : ℝ) : EReal)

/-- The body's eight-term sum for one atom: zero, then for each class in turn the class indicator times the class value,
    added left to right. -/
def cs (w : BitVec 32) (t0 t1 t2 t3 t4 t5 t6 t7 : EReal) : EReal :=
  Ideal.ofBits .f32 0x00000000#32 + ind w 0#32 * t0 + ind w 1#32 * t1 + ind w 2#32 * t2 + ind w 3#32 * t3
    + ind w 4#32 * t4 + ind w 5#32 * t5 + ind w 6#32 * t6 + ind w 7#32 * t7

theorem ind_self (w : BitVec 32) : ind w w = 1 := by
  have h : BitVec.ofBool (w == w) = 1#1 := by simp
  show ((((BitVec.ofBool (w == w)).setWidth 32).toInt : ℝ) : EReal) = 1
  rw [h, show ((1#1 : BitVec 1).setWidth 32).toInt = 1 from by decide]
  norm_num

theorem ind_ne (w e : BitVec 32) (hne : w ≠ e) : ind w e = 0 := by
  have hb : (w == e) = false := beq_eq_false_iff_ne.mpr hne
  show ((((BitVec.ofBool (w == e)).setWidth 32).toInt : ℝ) : EReal) = 0
  rw [hb, show ((BitVec.ofBool false).setWidth 32).toInt = 0 from by decide]
  norm_num

theorem ind_eq (w e : BitVec 32) : ind w e = if w = e then 1 else 0 := by
  split
  · next h => rw [h]; exact ind_self e
  · next h => exact ind_ne w e h

/-- At the class word of class `n` only the `n`-th indicator is 1, so the sum is the `n`-th class value (in the extended
    reals `0 * x = 0` and `0 + x = x` for every `x`). -/
theorem classSum' (n : Fin 8) (t : Fin 8 → EReal) :
    cs (BitVec.ofNat 32 n.val) (t 0) (t 1) (t 2) (t 3) (t 4) (t 5) (t 6) (t 7) = t n := by
  fin_cases n <;> simp [cs, ind_eq]

/-- A word below 8 is the class word of its own value: the sum is the value of the atom's class. -/
theorem classSum (w : BitVec 32) (hw : w.toNat < 8) (t : Fin 8 → EReal) :
    cs w (t 0) (t 1) (t 2) (t 3) (t 4) (t 5) (t 6) (t 7) = t ⟨w.toNat % 8, Nat.mod_lt _ (by decide)⟩ := by
  have e1 : (⟨w.toNat % 8, Nat.mod_lt _ (by decide)⟩ : Fin 8) = ⟨w.toNat, hw⟩ := Fin.ext (Nat.mod_eq_of_lt hw)
  have h := classSum' ⟨w.toNat, hw⟩ t
  have hw2 : BitVec.ofNat 32 (⟨w.toNat, hw⟩ : Fin 8).val = w := by simp
  rw [hw2] at h
  rw [e1]
  exact h

theorem hz3 : (![0, 0, 0] : Fin 3 → Nat) = fun _ => 0 := by funext a; fin_cases a <;> rfl
theorem hz2 : (![0, 0] : Fin 2 → Nat) = fun _ => 0 := by funext a; fin_cases a <;> rfl

/-! The eight one-element loads of the class table, read at their one index: the table's entries 0 … 7. -/

theorem ld1_0 (x : Vec Ideal S8 .f32) : extractAt ![0] (View.ld x r0_1) inpos_S1_p0 = x (ix1 (0 : Fin 8)) := by
  unfold extractAt View.ld
  refine congrArg x (funext fun a => ?_)
  match a with | ⟨0, _⟩ => exact Fin.ext rfl

theorem ld1_1 (x : Vec Ideal S8 .f32) : extractAt ![0] (View.ld x r0_2) inpos_S1_p0 = x (ix1 (1 : Fin 8)) := by
  unfold extractAt View.ld
  refine congrArg x (funext fun a => ?_)
  match a with | ⟨0, _⟩ => exact Fin.ext rfl

theorem ld1_2 (x : Vec Ideal S8 .f32) : extractAt ![0] (View.ld x r0_3) inpos_S1_p0 = x (ix1 (2 : Fin 8)) := by
  unfold extractAt View.ld
  refine congrArg x (funext fun a => ?_)
  match a with | ⟨0, _⟩ => exact Fin.ext rfl

theorem ld1_3 (x : Vec Ideal S8 .f32) : extractAt ![0] (View.ld x r0_4) inpos_S1_p0 = x (ix1 (3 : Fin 8)) := by
  unfold extractAt View.ld
  refine congrArg x (funext fun a => ?_)
  match a with | ⟨0, _⟩ => exact Fin.ext rfl

theorem ld1_4 (x : Vec Ideal S8 .f32) : extractAt ![0] (View.ld x r0_5) inpos_S1_p0 = x (ix1 (4 : Fin 8)) := by
  unfold extractAt View.ld
  refine congrArg x (funext fun a => ?_)
  match a with | ⟨0, _⟩ => exact Fin.ext rfl

theorem ld1_5 (x : Vec Ideal S8 .f32) : extractAt ![0] (View.ld x r0_6) inpos_S1_p0 = x (ix1 (5 : Fin 8)) := by
  unfold extractAt View.ld
  refine congrArg x (funext fun a => ?_)
  match a with | ⟨0, _⟩ => exact Fin.ext rfl

theorem ld1_6 (x : Vec Ideal S8 .f32) : extractAt ![0] (View.ld x r0_7) inpos_S1_p0 = x (ix1 (6 : Fin 8)) := by
  unfold extractAt View.ld
  refine congrArg x (funext fun a => ?_)
  match a with | ⟨0, _⟩ => exact Fin.ext rfl

theorem ld1_7 (x : Vec Ideal S8 .f32) : extractAt ![0] (View.ld x r0_8) inpos_S1_p0 = x (ix1 (7 : Fin 8)) := by
  unfold extractAt View.ld
  refine congrArg x (funext fun a => ?_)
  match a with | ⟨0, _⟩ => exact Fin.ext rfl

/-! The body's pointwise payloads read at an index. -/

theorem pay4_eq (v0 : Vec Ideal S32x32x128 .i32) : k0_pay4 (F := Ideal) v0 = v0 := shapeCast_self _ _

theorem pay5_apply (v0 : Vec Ideal S32x32x128 .i32) (i : S32x32x128.Idx) :
    k0_pay5 (F := Ideal) v0 i = ind (v0 i) 0#32 := by
  unfold k0_pay5; rw [pay4_eq]; rfl
theorem pay6_apply (v0 : Vec Ideal S32x32x128 .i32) (i : S32x32x128.Idx) :
    k0_pay6 (F := Ideal) v0 i = ind (v0 i) 1#32 := by
  unfold k0_pay6; rw [pay4_eq]; rfl
theorem pay8_apply (v0 : Vec Ideal S32x32x128 .i32) (i : S32x32x128.Idx) :
    k0_pay8 (F := Ideal) v0 i = ind (v0 i) 2#32 := by
  unfold k0_pay8; rw [pay4_eq]; rfl

theorem pay7_apply (v0 : Vec Ideal S32x32x128 .i32) (v13 v27 : Vec Ideal S1 .f32) (i : S32x32x128.Idx) :
    k0_pay7 (F := Ideal) v0 v13 v27 i
      = Ideal.ofBits .f32 0x00000000#32 + ind (v0 i) 0#32 * extractAt ![0] v13 inpos_S1_p0
          + ind (v0 i) 1#32 * extractAt ![0] v27 inpos_S1_p0 := by
  show Ideal.ofBits .f32 0x00000000#32 + k0_pay5 (F := Ideal) v0 i * _ + k0_pay6 (F := Ideal) v0 i * _ = _
  rw [pay5_apply, pay6_apply]
  rfl

theorem pay10_apply (v0 : Vec Ideal S32x32x128 .i32) (v41 : Vec Ideal S1 .f32) (i : S32x32x128.Idx) :
    k0_pay10 (F := Ideal) v0 v41 i = ind (v0 i) 2#32 * extractAt ![0] v41 inpos_S1_p0 := by
  show k0_pay8 (F := Ideal) v0 i * _ = _
  rw [pay8_apply]
  rfl

theorem pay9_apply (v0 : Vec Ideal S32x32x128 .i32) (v8 v22 v36 : Vec Ideal S1 .f32) (i : S32x32x128.Idx) :
    k0_pay9 (F := Ideal) v0 v8 v22 v36 i
      = Ideal.ofBits .f32 0x00000000#32 + ind (v0 i) 0#32 * extractAt ![0] v8 inpos_S1_p0
          + ind (v0 i) 1#32 * extractAt ![0] v22 inpos_S1_p0 + ind (v0 i) 2#32 * extractAt ![0] v36 inpos_S1_p0 := by
  show Ideal.ofBits .f32 0x00000000#32 + k0_pay5 (F := Ideal) v0 i * _ + k0_pay6 (F := Ideal) v0 i * _
    + k0_pay8 (F := Ideal) v0 i * _ = _
  rw [pay5_apply, pay6_apply, pay8_apply]
  rfl

theorem pay15_apply (v1 : IVec S32x32x128 32) (v31 v44 : FVec Ideal S32x32x128 .f32) (v55 v69 v83 : Vec Ideal S1 .f32)
    (i : S32x32x128.Idx) :
    k0_pay15 (F := Ideal) v1 v31 v44 v55 v69 v83 i
      = v31 i + v44 i + ind (v1 i) 3#32 * extractAt ![0] v55 inpos_S1_p0 + ind (v1 i) 4#32 * extractAt ![0] v69 inpos_S1_p0
          + ind (v1 i) 5#32 * extractAt ![0] v83 inpos_S1_p0 := rfl

theorem pay14_apply (v1 : IVec S32x32x128 32) (v40 : FVec Ideal S32x32x128 .f32) (v50 v64 v78 : Vec Ideal S1 .f32)
    (i : S32x32x128.Idx) :
    k0_pay14 (F := Ideal) v1 v40 v50 v64 v78 i
      = v40 i + ind (v1 i) 3#32 * extractAt ![0] v50 inpos_S1_p0 + ind (v1 i) 4#32 * extractAt ![0] v64 inpos_S1_p0
          + ind (v1 i) 5#32 * extractAt ![0] v78 inpos_S1_p0 := rfl

theorem pay16_apply (v1 : IVec S32x32x128 32) (i : S32x32x128.Idx) : k0_pay16 (F := Ideal) v1 i = ind (v1 i) 6#32 := rfl

theorem pay2_apply (v1 : IVec S32x32x128 32) (v87 v91 : FVec Ideal S32x32x128 .f32) (v97 v111 : Vec Ideal S1 .f32)
    (i : S32x32x128.Idx) :
    k0_pay2 (F := Ideal) v1 v87 v91 v97 v111 i
      = v87 i + v91 i * extractAt ![0] v97 inpos_S1_p0 + ind (v1 i) 7#32 * extractAt ![0] v111 inpos_S1_p0 := rfl

/-- A column cast: a `[a]` array cast to `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The per-structure sum as the body forms it: the per-atom summands, summed over the lanes and then over the rows. -/
def esum (v1 : IVec S32x32x128 32) (v82 v91 : FVec Ideal S32x32x128 .f32) (v93 : Ideal .f32) (v106 : Vec Ideal S1 .f32) :
    FVec Ideal S32 .f32 :=
  multiReduction .add [1] S32
    (multiReduction .add [2] S32x32
      (addf (addf v82 (mulf v91 (broadcast S32x32x128 v93)))
        (mulf (k0_pay1 (F := Ideal) v1) (broadcast S32x32x128 (extractAt ![0] v106 inpos_S1_p0))))
      0x00000000#32 reduces_S32x32x128_S32x32 (.inl rfl) rfl)
    0x00000000#32 reduces_S32x32_S32 (.inl rfl) rfl

theorem pay3_apply (v1 : IVec S32x32x128 32) (v82 v91 : FVec Ideal S32x32x128 .f32) (v93 : Ideal .f32)
    (v106 : Vec Ideal S1 .f32) (v120 : Vec Ideal S32x1 .f32) (j : S32x1.Idx) :
    k0_pay3 (F := Ideal) v1 v82 v91 v93 v106 v120 j
      = bitReal (Ideal.cmp .oge (shapeCast S32x1 v120 shapeCasts_S32x1_S32x1 j)
          (shapeCast S32x1 (esum v1 v82 v91 v93 v106) shapeCasts_S32_S32x1 j)) := rfl

/-- The reduced index (b) with the row coordinate and then the lane coordinate put back is (b, r, l). -/
theorem lift3 (b r : Fin 32) (l : Fin 128) :
    reduces_S32x32x128_S32x32.lift (reduces_S32x32_S32.lift (ix1 b) r) l = ix3 b r l := by
  funext a
  match a with
  | ⟨0, _⟩ => exact Fin.ext rfl
  | ⟨1, _⟩ => exact Fin.ext rfl
  | ⟨2, _⟩ => exact Fin.ext rfl

theorem esum_apply (v1 : IVec S32x32x128 32) (v82 v91 : FVec Ideal S32x32x128 .f32) (v93 : Ideal .f32)
    (v106 : Vec Ideal S1 .f32) (b : Fin 32) :
    esum v1 v82 v91 v93 v106 (ix1 b)
      = ∑ r : Fin 32, ∑ l : Fin 128, (v82 (ix3 b r l) + v91 (ix3 b r l) * v93
          + ind (v1 (ix3 b r l)) 7#32 * extractAt ![0] v106 inpos_S1_p0) := by
  unfold esum
  refine (Ideal.multiReduction_add_single _ _ reduces_S32x32_S32 _ _ (ix1 b)).trans ?_
  refine Finset.sum_congr rfl fun (r : Fin 32) _ => ?_
  refine (Ideal.multiReduction_add_single _ _ reduces_S32x32x128_S32x32 _ _ (reduces_S32x32_S32.lift (ix1 b) r)).trans ?_
  refine Finset.sum_congr rfl fun (l : Fin 128) _ => ?_
  rw [lift3 b r l]
  rfl

end Pay0

open Pay0

/-- The per-atom radius block: at atom (b, r, l) the radius of the atom's class. -/
theorem out0_5_apply (x0 : Vec Ideal S32x32x128 .i32) (x1 x2 : Vec Ideal S8 .f32) (x3 : Vec Ideal S32x1 .f32)
    (h0 : ∀ i, (x0 i).toNat < 8) (h1 : ∀ e : Fin 8, ∃ r : ℝ, x1 (ix1 e) = (r : EReal))
    (b : Fin 32) (r : Fin 32) (l : Fin 128) :
    out0_5 (F := Ideal) x0 x1 x2 x3 (ix3 b r l)
      = x1 (ix1 (⟨(x0 (ix3 b r l)).toNat % 8, Nat.mod_lt _ (by decide)⟩ : Fin 8)) := by
  unfold out0_5
  rw [View.canon_unit_zero hz3, View.ld_unit_zero (S := S32x32x128) hz3, pay4_eq]
  rw [pay2_apply, pay15_apply, pay7_apply, pay10_apply, pay16_apply]
  rw [ld1_0, ld1_1, ld1_2, ld1_3, ld1_4, ld1_5, ld1_6, ld1_7]
  exact classSum (x0 (ix3 b r l)) (h0 _) (fun e => x1 (ix1 e))

/-- The energy flag block: at structure b, "the structure's energy is at least the sum over its atoms of the class
    reference energies", as the number 0 or 1. -/
theorem out0_4_apply (x0 : Vec Ideal S32x32x128 .i32) (x1 x2 : Vec Ideal S8 .f32) (x3 : Vec Ideal S32x1 .f32)
    (h0 : ∀ i, (x0 i).toNat < 8) (h2 : ∀ e : Fin 8, ∃ r : ℝ, x2 (ix1 e) = (r : EReal))
    (b : Fin 32) :
    out0_4 (F := Ideal) x0 x1 x2 x3 (ix2 b 0)
      = bitReal (Ideal.cmp .oge (x3 (ix2 b 0))
          (∑ r : Fin 32, ∑ l : Fin 128, x2 (ix1 (⟨(x0 (ix3 b r l)).toNat % 8, Nat.mod_lt _ (by decide)⟩ : Fin 8)))) := by
  unfold out0_4
  rw [View.canon_unit_zero hz2, View.ld_unit_zero (S := S32x32x128) hz3, View.ld_unit_zero (S := S32x1) hz2, pay4_eq]
  rw [pay3_apply, shapeCast_self]
  refine congrArg (fun s => bitReal (Ideal.cmp .oge (x3 (ix2 b 0)) s)) ?_
  refine (shapeCast_a_a1_apply (a := 32) _ _ b 0).trans ?_
  rw [esum_apply]
  refine Finset.sum_congr rfl fun (r : Fin 32) _ => Finset.sum_congr rfl fun (l : Fin 128) _ => ?_
  rw [pay14_apply, pay9_apply, pay16_apply]
  show cs (x0 (ix3 b r l)) (extractAt ![0] (View.ld x2 r0_1) inpos_S1_p0) (extractAt ![0] (View.ld x2 r0_2) inpos_S1_p0)
    (extractAt ![0] (View.ld x2 r0_3) inpos_S1_p0) (extractAt ![0] (View.ld x2 r0_4) inpos_S1_p0)
    (extractAt ![0] (View.ld x2 r0_5) inpos_S1_p0) (extractAt ![0] (View.ld x2 r0_6) inpos_S1_p0)
    (extractAt ![0] (View.ld x2 r0_7) inpos_S1_p0) (extractAt ![0] (View.ld x2 r0_8) inpos_S1_p0) = _
  rw [ld1_0, ld1_1, ld1_2, ld1_3, ld1_4, ld1_5, ld1_6, ld1_7]
  exact classSum (x0 (ix3 b r l)) (h0 _) (fun e => x2 (ix1 e))

end Cert.KernelIdeal.KV

end
-- ==== Proof.KInputs.lean ====
/- The idealized kernel's argument arrays, as launched, gathered into the specification's `Inputs`. -/
import proofs.«427218_j89653147337010_1_alg».proof.KernelIdeal
import proofs.«427218_j89653147337010_1_alg».proof.Proof.Spec

noncomputable section

open scoped BigOperators

namespace Cert.KernelIdeal.KV

open Idealize.ShloMosaic Idealize.ShloMosaic.TcCoe Idealize.ShloMosaic.ValueIdx Idealize.SL.Sem
open Cert.KernelIdeal
/-- Core `c`'s eight argument arrays at launch. -/
def inputs (m : (ℓ : Loc nD τ sig) → Buf (Elt Ideal) ℓ) (c : Dev nD) : Cert.Spec.Inputs where
  pos := m ((c.tc : Thread nD τ).loc main_arg0)
  eng := m ((c.tc : Thread nD τ).loc main_arg1)
  elm := m ((c.tc : Thread nD τ).loc main_arg2)
  radius := m ((c.tc : Thread nD τ).loc main_arg3)
  engAtm := m ((c.tc : Thread nD τ).loc main_arg4)
  n := m ((c.tc : Thread nD τ).loc main_arg5)
  i := m ((c.tc : Thread nD τ).loc main_arg6)
  j := m ((c.tc : Thread nD τ).loc main_arg7)

end Cert.KernelIdeal.KV

end
-- ==== Proof.KReg0.lean ====
/- Region 0's two result arrays after the region, in terms of the launch arguments. -/
import proofs.«427218_j89653147337010_1_alg».proof.Proof.KPay0
import proofs.«427218_j89653147337010_1_alg».proof.Proof.KInputs
import Idealize.ShloMosaic.Lib.StableHlo.Run

noncomputable section

open scoped BigOperators

namespace Cert.KernelIdeal.KV

open Idealize.ShloMosaic Idealize.ShloMosaic.TcCoe Idealize.ShloMosaic.ValueIdx Idealize.SL.Sem
open Idealize.ShloMosaic.Pipeline (Dat)
open Cert.KernelIdeal Cert.KernelIdeal.Gen Cert.Spec

namespace Reg0

section Blocks
variable (V : (c : Dev nD) → (b : Ref sig .tc) → Buf (Elt Ideal) ((c : Thread nD τ).loc b))

/-- The one point's block of each input is the whole input array: block 0 read through zero offsets. -/
theorem iblk0_0_eq (c : Dev nD) : (iblk0 V c 0 t0_0 : Vec Ideal S32x32x128 .i32) = V c main_v1 := by
  have hz' : (fun a => win0_0.index t0_0 a * main_v1.ty.shape.size a) = fun _ => 0 := funext fun a => by fin_cases a <;> decide
  exact Memref.read_access_unit_zero (Elt Ideal) main_v1 hz' (fun a => by rw [congrFun hz' a]; simp) (V c main_v1)
theorem iblk0_1_eq (c : Dev nD) : (iblk0 V c 1 t0_0 : Vec Ideal S8 .f32) = V c main_arg3 := by
  have hz' : (fun a => win0_1.index t0_0 a * main_arg3.ty.shape.size a) = fun _ => 0 := funext fun a => by fin_cases a <;> decide
  exact Memref.read_access_unit_zero (Elt Ideal) main_arg3 hz' (fun a => by rw [congrFun hz' a]; simp) (V c main_arg3)
theorem iblk0_2_eq (c : Dev nD) : (iblk0 V c 2 t0_0 : Vec Ideal S8 .f32) = V c main_arg4 := by
  have hz' : (fun a => win0_2.index t0_0 a * main_arg4.ty.shape.size a) = fun _ => 0 := funext fun a => by fin_cases a <;> decide
  exact Memref.read_access_unit_zero (Elt Ideal) main_arg4 hz' (fun a => by rw [congrFun hz' a]; simp) (V c main_arg4)
theorem iblk0_3_eq (c : Dev nD) : (iblk0 V c 3 t0_0 : Vec Ideal S32x1 .f32) = V c main_v0 := by
  have hz' : (fun a => win0_3.index t0_0 a * main_v0.ty.shape.size a) = fun _ => 0 := funext fun a => by fin_cases a <;> decide
  exact Memref.read_access_unit_zero (Elt Ideal) main_v0 hz' (fun a => by rw [congrFun hz' a]; simp) (V c main_v0)

/-- The body's two results on the whole input arrays, as contents of the two result arrays. -/
abbrev res4 (c : Dev nD) : Buf (Elt Ideal) ((c : Thread nD τ).loc main_v2_0) :=
  out0_4 (F := Ideal) (V c main_v1) (V c main_arg3) (V c main_arg4) (V c main_v0)
abbrev res5 (c : Dev nD) : Buf (Elt Ideal) ((c : Thread nD τ).loc main_v2_1) :=
  out0_5 (F := Ideal) (V c main_v1) (V c main_arg3) (V c main_arg4) (V c main_v0)

/-- The one write-back of each result writes the body's result: the block is the whole array. -/
theorem flushed0_4_eq (c : Dev nD) (t : Fin cfg0.N) (hf : (cfg0.win 4).flush t = true) :
    (dat0 V c).flushed 4 t = ((cfg0.win 4).blk t).view.read (Elt Ideal) (res4 V c) := by
  obtain rfl : t = t0_0 := fin_N0 t
  show (cfg0.win 4).cut (grid0.coords t0_0) ((dat0 V c).after 4 t0_0) = _
  rw [after0_4, iblk0_0_eq, iblk0_1_eq, iblk0_2_eq, iblk0_3_eq]
  have hz' : (fun a => win0_4.index t0_0 a * main_v2_0.ty.shape.size a) = fun _ => 0 := funext fun a => by fin_cases a <;> decide
  exact (Memref.read_access_unit_zero (Elt Ideal) main_v2_0 hz' (fun a => by rw [congrFun hz' a]; simp) (res4 V c)).symm
theorem flushed0_5_eq (c : Dev nD) (t : Fin cfg0.N) (hf : (cfg0.win 5).flush t = true) :
    (dat0 V c).flushed 5 t = ((cfg0.win 5).blk t).view.read (Elt Ideal) (res5 V c) := by
  obtain rfl : t = t0_0 := fin_N0 t
  show (cfg0.win 5).cut (grid0.coords t0_0) ((dat0 V c).after 5 t0_0) = _
  rw [after0_5, iblk0_0_eq, iblk0_1_eq, iblk0_2_eq, iblk0_3_eq]
  have hz' : (fun a => win0_5.index t0_0 a * main_v2_1.ty.shape.size a) = fun _ => 0 := funext fun a => by fin_cases a <;> decide
  exact (Memref.read_access_unit_zero (Elt Ideal) main_v2_1 hz' (fun a => by rw [congrFun hz' a]; simp) (res5 V c)).symm

/-- So each result array ends holding the body's result on the whole input arrays: the one point covers it. -/
theorem final0_4 (c : Dev nD) : (dat0 V c).arrAt 4 cfg0.N = res4 V c :=
  (dat0 V c).arrAt_eq_of_cover 4 (res4 V c) (flushed0_4_eq V c) fun i =>
    ⟨t0_0, flush0_4 t0_0, by
      show i ∈ ((View.whole main_v2_0).slice (win0_4.rect t0_0)).set
      rw [View.set_slice_whole, Rect.mem_set_unit]
      intro a
      have h0 : (i 0 : Nat) < 32 := (i 0).isLt
      have h1 : (i 1 : Nat) < 1 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 32 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 1 from by decide +kernel]; omega⟩
theorem final0_5 (c : Dev nD) : (dat0 V c).arrAt 5 cfg0.N = res5 V c :=
  (dat0 V c).arrAt_eq_of_cover 5 (res5 V c) (flushed0_5_eq V c) fun i =>
    ⟨t0_0, flush0_5 t0_0, by
      show i ∈ ((View.whole main_v2_1).slice (win0_5.rect t0_0)).set
      rw [View.set_slice_whole, Rect.mem_set_unit]
      intro a
      have h0 : (i 0 : Nat) < 32 := (i 0).isLt
      have h1 : (i 1 : Nat) < 32 := (i 1).isLt
      have h2 : (i 2 : Nat) < 128 := (i 2).isLt
      match a with
      | ⟨0, _⟩ => show win0_5.index t0_0 0 * win0_5.size 0 ≤ (i 0 : Nat) ∧ (i 0 : Nat) < win0_5.index t0_0 0 * win0_5.size 0 + win0_5.xsize (grid0.coords t0_0) 0
                  rw [show win0_5.index t0_0 0 * win0_5.size 0 = 0 from by decide +kernel, show win0_5.xsize (grid0.coords t0_0) 0 = 32 from by decide +kernel]; omega
      | ⟨1, _⟩ => show win0_5.index t0_0 1 * win0_5.size 1 ≤ (i 1 : Nat) ∧ (i 1 : Nat) < win0_5.index t0_0 1 * win0_5.size 1 + win0_5.xsize (grid0.coords t0_0) 1
                  rw [show win0_5.index t0_0 1 * win0_5.size 1 = 0 from by decide +kernel, show win0_5.xsize (grid0.coords t0_0) 1 = 32 from by decide +kernel]; omega
      | ⟨2, _⟩ => show win0_5.index t0_0 2 * win0_5.size 2 ≤ (i 2 : Nat) ∧ (i 2 : Nat) < win0_5.index t0_0 2 * win0_5.size 2 + win0_5.xsize (grid0.coords t0_0) 2
                  rw [show win0_5.index t0_0 2 * win0_5.size 2 = 0 from by decide +kernel, show win0_5.xsize (grid0.coords t0_0) 2 = 128 from by decide +kernel]; omega⟩

end Blocks

section Entry
variable (m : (ℓ : Loc nD τ sig) → Buf (Elt Ideal) ℓ) (ρ : Dev nD → PrngReg)

/-- Region 0's four input arrays as it is entered, by literal type. -/
abbrev elm3 (c : Dev nD) : Vec Ideal S32x32x128 .i32 := V1 m ρ c main_v1
abbrev radA (c : Dev nD) : Vec Ideal S8 .f32 := V1 m ρ c main_arg3
abbrev atmA (c : Dev nD) : Vec Ideal S8 .f32 := V1 m ρ c main_arg4
abbrev eng2 (c : Dev nD) : Vec Ideal S32x1 .f32 := V1 m ρ c main_v0

/-- The class array entered is the launch's class array reshaped to [32, 32, 128]. -/
theorem elm3_eq (c : Dev nD) : (elm3 m ρ c : S32x32x128.Idx → BitVec 32)
    = shapeCast S32x32x128 (m ((c.tc : Thread nD τ).loc main_arg2)) shapeCasts_S32x4096_S32x32x128 := by
  dsimp only [elm3, V1, W1, hostOps0]; after_results; rfl
/-- The energy array entered is the launch's energy array reshaped to [32, 1]. -/
theorem eng2_eq (c : Dev nD) : (eng2 m ρ c : S32x1.Idx → EReal)
    = shapeCast S32x1 (m ((c.tc : Thread nD τ).loc main_arg1)) shapeCasts_S32_S32x1 := by
  dsimp only [eng2, V1, W1, hostOps0]; after_results; rfl
/-- The two class tables are entered as launched. -/
theorem radA_eq (c : Dev nD) : (radA m ρ c : S8.Idx → EReal) = m ((c.tc : Thread nD τ).loc main_arg3) := by
  dsimp only [radA, V1, W1, hostOps0]; after_results
theorem atmA_eq (c : Dev nD) : (atmA m ρ c : S8.Idx → EReal) = m ((c.tc : Thread nD τ).loc main_arg4) := by
  dsimp only [atmA, V1, W1, hostOps0]; after_results

/-- Element (b, r, l) of the reshaped class array is element (b, 128 r + l) of the launch's. -/
theorem elm3_apply (c : Dev nD) (b : Fin 32) (r : Fin 32) (l : Fin 128) :
    elm3 m ρ c (ix3 b r l) = (inputs m c).elm (ix2 b ⟨r.val * 128 + l.val, by have := r.isLt; have := l.isLt; omega⟩) := by
  rw [elm3_eq]
  exact shapeCast_apply _ _ _ _ (by
    show (S32x4096.rowMajor (ix2 b _)).val = (S32x32x128.rowMajor (ix3 b r l)).val
    rw [Shape.rowMajor_val_two, Shape.rowMajor_val_three]
    show b.val * 4096 + (r.val * 128 + l.val) = (b.val * 32 + r.val) * 128 + l.val
    omega)
/-- Element (b, 0) of the reshaped energy array is element b of the launch's. -/
theorem eng2_apply (c : Dev nD) (b : Fin 32) :
    eng2 m ρ c (ix2 b 0) = (inputs m c).eng (ix1 b) := by
  rw [eng2_eq]
  exact shapeCast_apply _ _ _ _ (by
    show (S32.rowMajor (ix1 b)).val = (S32x1.rowMajor (ix2 b 0)).val
    rw [Shape.rowMajor_val_one, Shape.rowMajor_val_two]
    show b.val = b.val * 1 + 0
    omega)
theorem radA_apply (c : Dev nD) (e : Fin 8) : radA m ρ c (ix1 e) = (inputs m c).radius (ix1 e) := by
  rw [radA_eq]; rfl
theorem atmA_apply (c : Dev nD) (e : Fin 8) : atmA m ρ c (ix1 e) = (inputs m c).engAtm (ix1 e) := by
  rw [atmA_eq]; rfl

end Entry

section Combine
variable (m : (ℓ : Loc nD τ sig) → Buf (Elt Ideal) ℓ) (ρ : Dev nD → PrngReg)

/-- A sum over the 4096 atoms of a structure, taken row by row over the [32, 128] layout: atom 128 r + l is lane l of
    row r. -/
theorem sum_atoms {M : Type} [AddCommMonoid M] (g : Fin 4096 → M) :
    ∑ a : Fin 4096, g a
      = ∑ r : Fin 32, ∑ l : Fin 128, g ⟨r.val * 128 + l.val, by have := r.isLt; have := l.isLt; omega⟩ :=
  calc ∑ a : Fin 4096, g a
    _ = ∑ p : Fin 32 × Fin 128, g (finProdFinEquiv p) := (Equiv.sum_comp (finProdFinEquiv (m := 32) (n := 128)) g).symm
    _ = ∑ r : Fin 32, ∑ l : Fin 128, g (finProdFinEquiv (r, l)) := Fintype.sum_prod_type _
    _ = _ := by
      refine Finset.sum_congr rfl fun r _ => Finset.sum_congr rfl fun l _ => congrArg g (Fin.ext ?_)
      show l.val + 128 * r.val = r.val * 128 + l.val
      omega

/-- The precondition, read at region 0's entry arrays. -/
theorem elm3_rng (c : Dev nD) (hD : Dom (inputs m c)) (i : S32x32x128.Idx) : (elm3 m ρ c i).toNat < 8 := by
  obtain ⟨b, r, l, rfl⟩ : ∃ (b : Fin 32) (r : Fin 32) (l : Fin 128), i = ix3 b r l := ⟨i 0, i 1, i 2, eq_ix3 i⟩
  rw [elm3_apply]; exact hD.elm_rng _ _
theorem radA_fin (c : Dev nD) (hD : Dom (inputs m c)) (e : Fin 8) : ∃ r : ℝ, radA m ρ c (ix1 e) = (r : EReal) := by
  rw [radA_apply]; exact hD.rad_fin e
theorem atmA_fin (c : Dev nD) (hD : Dom (inputs m c)) (e : Fin 8) : ∃ r : ℝ, atmA m ρ c (ix1 e) = (r : EReal) := by
  rw [atmA_apply]; exact hD.atm_fin e

end Combine

end Reg0

open Reg0

variable (m : (ℓ : Loc nD τ sig) → Buf (Elt Ideal) ℓ) (ρ : Dev nD → PrngReg)

/-- The energy-flag array after region 0. -/
abbrev EB (c : Dev nD) : Vec Ideal S32x1 .f32 := (dat0 (V1 m ρ) c).arrAt 4 cfg0.N
/-- The per-atom radius array after region 0. -/
abbrev RA (c : Dev nD) : Vec Ideal S32x32x128 .f32 := (dat0 (V1 m ρ) c).arrAt 5 cfg0.N

theorem eb_eq (c : Dev nD) (hD : Dom (inputs m c)) (b : Fin 32) :
    EB m ρ c (ix2 b 0) = bitReal (Ideal.cmp .oge ((inputs m c).eng (ix1 b)) (engMax (inputs m c) b)) := by
  show (dat0 (V1 m ρ) c).arrAt 4 cfg0.N (ix2 b 0) = _
  rw [final0_4]
  show out0_4 (F := Ideal) (elm3 m ρ c) (radA m ρ c) (atmA m ρ c) (eng2 m ρ c) (ix2 b 0) = _
  rw [out0_4_apply _ _ _ _ (elm3_rng m ρ c hD) (atmA_fin m ρ c hD) b, eng2_apply]
  congr 2
  unfold engMax
  rw [sum_atoms]
  refine Finset.sum_congr rfl fun r _ => Finset.sum_congr rfl fun l _ => ?_
  rw [atmA_apply]
  unfold cls
  rw [elm3_apply]

theorem ra_eq (c : Dev nD) (hD : Dom (inputs m c)) (b : Fin 32) (r : Fin 32) (l : Fin 128) :
    RA m ρ c (ix3 b r l) = rad (inputs m c) b ⟨r.val * 128 + l.val, by have := r.isLt; have := l.isLt; omega⟩ := by
  show (dat0 (V1 m ρ) c).arrAt 5 cfg0.N (ix3 b r l) = _
  rw [final0_5]
  show out0_5 (F := Ideal) (elm3 m ρ c) (radA m ρ c) (atmA m ρ c) (eng2 m ρ c) (ix3 b r l) = _
  rw [out0_5_apply _ _ _ _ (elm3_rng m ρ c hD) (radA_fin m ρ c hD) b r l, radA_apply]
  unfold rad cls
  rw [elm3_apply]

end Cert.KernelIdeal.KV

end
-- ==== Proof.KHost1.lean ====
/- The host stretch between the two regions: the gathered per-pair tables region 1 is entered with. -/
import proofs.«427218_j89653147337010_1_alg».proof.Proof.KReg0
import Idealize.ShloMosaic.Lib.StableHlo.Run

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen Cert.Spec
variable (m : (ℓ : Loc nD τ sig) → Buf (Elt Ideal) ℓ) (ρ : Dev nD → PrngReg)

/-- The first atoms' table (x, y, z, radius by pair) at region 1's entry. -/
abbrev CI (c : Dev nD) : Vec Ideal S4x8388608 .f32 := V6 m ρ c main_v14
/-- The second atoms' table at region 1's entry. -/
abbrev CJ (c : Dev nD) : Vec Ideal S4x8388608 .f32 := V6 m ρ c main_v15
/-- The pairs' structure numbers, as a row, at region 1's entry. -/
abbrev NI (c : Dev nD) : Vec Ideal S1x8388608 .i32 := V6 m ρ c main_v16

/-! ## The operations between the regions, as functions of the arrays they read

The stretch builds one table of all atoms (coordinates and radius, atoms numbered structure-major), the flat number of
each pair's two atoms, and reads the table at those numbers: a gather whose indices are first wrapped (a negative index
counts from the end), then masked (an index out of range reads a fill value). -/

namespace KH1

/-- The flat atom number of each pair: structure number times 4096 plus the atom number. -/
def flat (n a : IVec S8388608 32) : IVec S8388608 32 :=
  addi (muli n (broadcastInDim S8388608 ![] bcast_S_S8388608 (constantI S_ 32 4096#32))) a

/-- The table the pairs' atoms are read from: row `d` holds coordinate `d` (or, for `d = 3`, the radius) of every
    atom of every structure, atoms numbered structure-major. -/
def table (pos : Vec Ideal S32x4096x3 .f32) (ra : Vec Ideal S32x32x128 .f32) : Vec Ideal S4x131072 .f32 :=
  transpose S4x131072 [1, 0]
    (shapeCast S131072x4
      (concatenate S32x4096x4 2
        [⟨S32x4096x3, pos⟩,
         ⟨S32x4096x1, broadcastInDim S32x4096x1 ![0, 1] bcast_S32x4096_S32x4096x1_0_1
            (shapeCast S32x4096 ra shapeCasts_S32x32x128_S32x4096)⟩]
        concatenates_S32x4096x3_S32x4096x1_S32x4096x4_d2)
      shapeCasts_S32x4096x4_S131072x4)
    transposes_S131072x4_S4x131072_1_0

/-- A negative index counts from the end. -/
def wrap (idx : IVec S8388608 32) : IVec S8388608 32 :=
  select (cmpi .slt idx (broadcastInDim S8388608 ![] bcast_S_S8388608 (constantI S_ 32 0#32)))
    (addi idx (broadcastInDim S8388608 ![] bcast_S_S8388608 (constantI S_ 32 131072#32))) idx

/-- Indices as a column. -/
def colOf (w : IVec S8388608 32) : IVec S8388608x1 32 :=
  broadcastInDim S8388608x1 ![0] bcast_S8388608_S8388608x1_0 w

/-- Which entries of a column of indices are in range. -/
def maskOf (c : IVec S8388608x1 32) : IVec S8388608 1 :=
  Host.reduce IntOp.andi
    (andi
      (cmpi .sge c (broadcastInDim S8388608x1 ![] bcast_S_S8388608x1 (constantI S_ 32 0#32)))
      (cmpi .sle c
        (broadcastInDim S8388608x1 ![0, 1] bcast_S1x1_S8388608x1_0_1
          (broadcastInDim S1x1 ![1] bcast_S1_S1x1_1 (constantI S1 32 131071#32)))))
    (constantI S_ 1 1#1) reducesTo_S8388608x1_S8388608_d1 h_S_

/-- The table's columns at a column of indices, a fill value where the mask is clear. -/
def takeOf (tbl : Vec Ideal S4x131072 .f32) (c : IVec S8388608x1 32) (mk : IVec S8388608 1) : Vec Ideal S4x8388608 .f32 :=
  select (broadcastInDim S4x8388608 ![1] bcast_S8388608_S4x8388608_1 mk)
    (Host.gather gather_S4x131072_S8388608x1_S4x8388608_0_1_n_n_1_1_41 tbl c)
    (broadcastInDim S4x8388608 ![] bcast_S_S4x8388608 (constant (F := Ideal) S_ .f32 0x7FC00000#32))

/-- The wrapped indices as a column. -/
def col (idx : IVec S8388608 32) : IVec S8388608x1 32 := colOf (wrap idx)
/-- Which indices are in range. -/
def mask (idx : IVec S8388608 32) : IVec S8388608 1 := maskOf (col idx)
/-- The table's columns at the given indices, a fill value where the index is out of range. -/
def take (tbl : Vec Ideal S4x131072 .f32) (idx : IVec S8388608 32) : Vec Ideal S4x8388608 .f32 :=
  takeOf tbl (col idx) (mask idx)

/-! ### The table read at an entry -/

theorem table_pos (pos : Vec Ideal S32x4096x3 .f32) (ra : Vec Ideal S32x32x128 .f32) (b : Fin 32) (a : Fin 4096) (d : Fin 3)
    (q : Fin 131072) (hq : q.val = b.val * 4096 + a.val) :
    table pos ra (ix2 (⟨d.val, by have := d.isLt; omega⟩ : Fin 4) q) = pos (ix3 b a d) := by
  unfold table
  refine (transpose_apply [1, 0] _ transposes_S131072x4_S4x131072_1_0 _
    (ix2 q (⟨d.val, by have := d.isLt; omega⟩ : Fin 4)) (fun e => by
      match e with
      | ⟨0, _⟩ => rfl
      | ⟨1, _⟩ => rfl)).trans ?_
  refine (shapeCast_apply _ shapeCasts_S32x4096x4_S131072x4 _
    (ix3 b a (⟨d.val, by have := d.isLt; omega⟩ : Fin 4)) (by
      rw [Shape.rowMajor_val_three, Shape.rowMajor_val_two]
      show (b.val * 4096 + a.val) * 4 + d.val = q.val * 4 + d.val
      rw [hq])).trans ?_
  exact concatenate_pair_apply_left 2 _ _ concatenates_S32x4096x3_S32x4096x1_S32x4096x4_d2 _ rfl (ix3 b a d) (fun e => by
      match e with
      | ⟨0, _⟩ => rfl
      | ⟨1, _⟩ => rfl
      | ⟨2, _⟩ => rfl)

theorem table_rad (pos : Vec Ideal S32x4096x3 .f32) (ra : Vec Ideal S32x32x128 .f32) (b : Fin 32) (a : Fin 4096)
    (q : Fin 131072) (hq : q.val = b.val * 4096 + a.val) :
    table pos ra (ix2 (3 : Fin 4) q)
      = ra (ix3 b (⟨a.val / 128, by have := a.isLt; omega⟩ : Fin 32) (⟨a.val % 128, Nat.mod_lt _ (by decide)⟩ : Fin 128)) := by
  unfold table
  refine (transpose_apply [1, 0] _ transposes_S131072x4_S4x131072_1_0 _
    (ix2 q (3 : Fin 4)) (fun e => by
      match e with
      | ⟨0, _⟩ => rfl
      | ⟨1, _⟩ => rfl)).trans ?_
  refine (shapeCast_apply _ shapeCasts_S32x4096x4_S131072x4 _
    (ix3 b a (3 : Fin 4)) (by
      rw [Shape.rowMajor_val_three, Shape.rowMajor_val_two]
      show (b.val * 4096 + a.val) * 4 + 3 = q.val * 4 + 3
      rw [hq])).trans ?_
  refine (concatenate_pair_apply_right 2 _ _ concatenates_S32x4096x3_S32x4096x1_S32x4096x4_d2 _ rfl rfl
    (ix3 b a (0 : Fin 1)) (fun e he => by
      match e with
      | ⟨0, _⟩ => rfl
      | ⟨1, _⟩ => rfl
      | ⟨2, _⟩ => exact absurd rfl he) rfl).trans ?_
  refine (broadcastInDim_apply ![0, 1] bcast_S32x4096_S32x4096x1_0_1 _ (ix3 b a (0 : Fin 1)) (ix2 b a) (fun e => by
      match e with
      | ⟨0, _⟩ => rfl
      | ⟨1, _⟩ => rfl)).trans ?_
  exact shapeCast_apply _ shapeCasts_S32x32x128_S32x4096 _ _ (by
      rw [Shape.rowMajor_val_three, Shape.rowMajor_val_two]
      show (b.val * 32 + a.val / 128) * 128 + a.val % 128 = b.val * 4096 + a.val
      omega)

/-! ### The gather read at an entry -/

theorem gather_apply (tbl : S4x131072.Idx → EReal) (cidx : IVec S8388608x1 32) (d : Fin 4) (p : Fin 8388608) :
    Host.gather gather_S4x131072_S8388608x1_S4x8388608_0_1_n_n_1_1_41 tbl cidx (ix2 d p)
      = tbl (ix2 d (⟨min (cidx (ix2 p (0 : Fin 1))).toInt.toNat 131071, by omega⟩ : Fin 131072)) := by
  unfold Host.gather
  congr 1
  funext a
  refine Fin.ext ?_
  match a with
  | ⟨0, _⟩ =>
    show GatherDims.start _ (ix2 d p) cidx 0 + GatherDims.batchCoord _ (ix2 d p) 0 + GatherDims.offCoord _ (ix2 d p) 0 = d.val
    rw [GatherDims.batchCoord_eq_zero _ _ _ List.not_mem_nil]
    have hs : GatherDims.start gather_S4x131072_S8388608x1_S4x8388608_0_1_n_n_1_1_41 (ix2 d p) cidx 0 = 0 := by
      unfold GatherDims.start
      rw [dif_neg (by decide)]
    rw [hs]
    have ho : GatherDims.offCoord gather_S4x131072_S8388608x1_S4x8388608_0_1_n_n_1_1_41 (ix2 d p) 0 = d.val := by
      unfold GatherDims.offCoord
      rw [dif_pos (by decide)]
      rfl
    rw [ho]; omega
  | ⟨1, _⟩ =>
    show GatherDims.start _ (ix2 d p) cidx 1 + GatherDims.batchCoord _ (ix2 d p) 1 + GatherDims.offCoord _ (ix2 d p) 1
      = min (cidx (ix2 p (0 : Fin 1))).toInt.toNat 131071
    rw [GatherDims.batchCoord_eq_zero _ _ _ List.not_mem_nil,
      GatherDims.offCoord_eq_zero _ _ _ (by decide)]
    simp only [Nat.add_zero]
    unfold GatherDims.start
    rw [dif_pos (by decide)]
    have hsi : GatherDims.siIdx gather_S4x131072_S8388608x1_S4x8388608_0_1_n_n_1_1_41 (ix2 d p)
        ⟨List.idxOf (1 : Fin 2) (gather_S4x131072_S8388608x1_S4x8388608_0_1_n_n_1_1_41).startIndexMap,
          List.idxOf_lt_length_iff.2 (by decide)⟩ = ix2 p (0 : Fin 1) := by
      funext e; refine Fin.ext ?_
      match e with
      | ⟨0, _⟩ => rfl
      | ⟨1, _⟩ => rfl
    rw [hsi]
    rfl

/-! ### The index words -/

theorem toInt_small (k : Nat) (hk : k < 131072) : (BitVec.ofNat 32 k).toInt = (k : Int) := by
  rw [BitVec.toInt_eq_toNat_cond, BitVec.toNat_ofNat]
  have e : k % 2 ^ 32 = k := Nat.mod_eq_of_lt (by omega)
  rw [e]
  split <;> omega

theorem flat_word (n a : BitVec 32) (b : Fin 32) (hn : n = BitVec.ofNat 32 b.val) (ha : a.toNat < 4096) :
    IntOp.addi (IntOp.muli n 4096#32) a = BitVec.ofNat 32 (b.val * 4096 + a.toNat) := by
  subst hn
  apply BitVec.eq_of_toNat_eq
  have hb := b.isLt
  show ((BitVec.ofNat 32 b.val * BitVec.ofNat 32 4096 + a).toNat) = _
  simp only [BitVec.toNat_add, BitVec.toNat_mul, BitVec.toNat_ofNat]
  have e1 : b.val % 2 ^ 32 = b.val := Nat.mod_eq_of_lt (by omega)
  have e2 : 4096 % 2 ^ 32 = 4096 := by norm_num
  rw [e1, e2]
  omega

theorem flat_apply (n a : IVec S8388608 32) (p : Fin 8388608) (b : Fin 32) (hn : n (ix1 p) = BitVec.ofNat 32 b.val)
    (ha : (a (ix1 p)).toNat < 4096) :
    flat n a (ix1 p) = BitVec.ofNat 32 (b.val * 4096 + (a (ix1 p)).toNat) :=
  flat_word _ _ b hn ha

theorem wrap_apply (idx : IVec S8388608 32) (p : Fin 8388608) (k : Nat) (hk : k < 131072)
    (h : idx (ix1 p) = BitVec.ofNat 32 k) : wrap idx (ix1 p) = BitVec.ofNat 32 k := by
  have hc : IntOp.cmpi .slt (idx (ix1 p)) 0#32 = 0#1 := by
    refine eq_zero_of_ne_one (fun h1 => ?_)
    rw [IntOp.cmpi_slt, h, toInt_small k hk] at h1
    have h0 : (0#32 : BitVec 32).toInt = 0 := by decide
    omega
  show Scalar.select (IntOp.cmpi .slt (idx (ix1 p)) 0#32) _ (idx (ix1 p)) = _
  rw [hc, select_zero, h]

/-- An axis of extent 8388608 is no unit axis. -/
theorem big_ne_one : ¬ (8388608 : Nat) = 1 := by omega

theorem colOf_apply (w : IVec S8388608 32) (p : Fin 8388608) : colOf w (ix2 p (0 : Fin 1)) = w (ix1 p) := by
  unfold colOf
  refine broadcastInDim_apply _ _ w _ (ix1 p) (fun a => ?_)
  match a with
  | ⟨0, _⟩ =>
    show p.val = if (8388608 : Nat) = 1 then 0 else p.val
    rw [if_neg big_ne_one]

theorem bcast_row (x : IVec S8388608 1) (d : Fin 4) (p : Fin 8388608) :
    broadcastInDim S4x8388608 ![1] bcast_S8388608_S4x8388608_1 x (ix2 d p) = x (ix1 p) := by
  refine broadcastInDim_apply _ _ x _ (ix1 p) (fun a => ?_)
  match a with
  | ⟨0, _⟩ =>
    show p.val = if (8388608 : Nat) = 1 then 0 else p.val
    rw [if_neg big_ne_one]

theorem foldl_andi_one {ι : Type} (f : ι → BitVec 1) : ∀ (l : List ι) (init : BitVec 1), init = 1#1 → (∀ n ∈ l, f n = 1#1) →
    l.foldl (fun r n => IntOp.andi r (f n)) init = 1#1
  | [], init, h, _ => h
  | a :: l, init, h, hl => by
    rw [List.foldl_cons]
    refine foldl_andi_one f l _ ?_ (fun n hn => hl n (List.mem_cons_of_mem _ hn))
    rw [h, hl a List.mem_cons_self]; rfl

theorem maskOf_apply (c : IVec S8388608x1 32) (p : Fin 8388608) (k : Nat) (hk : k < 131072)
    (h : c (ix2 p (0 : Fin 1)) = BitVec.ofNat 32 k) : maskOf c (ix1 p) = 1#1 := by
  unfold maskOf
  rw [Host.reduce_eq_foldl]
  refine foldl_andi_one _ _ _ rfl (fun i hi => ?_)
  have hd : reducesTo_S8388608x1_S8388608_d1.drop i = ix1 p := of_decide_eq_true (List.mem_filter.1 hi).2
  have h0 : (i 0).val = p.val := congrArg (fun f : S8388608.Idx => (f 0).val) hd
  have hi2 : i = ix2 p (0 : Fin 1) := by
    funext a
    match a with
    | ⟨0, _⟩ => exact Fin.ext h0
    | ⟨1, _⟩ => exact Fin.ext (by have := idx2_lt1 i; show (i 1).val = 0; omega)
  rw [hi2]
  show IntOp.andi (IntOp.cmpi .sge (c (ix2 p (0 : Fin 1))) 0#32)
    (IntOp.cmpi .sle (c (ix2 p (0 : Fin 1))) 131071#32) = 1#1
  rw [h, IntOp.andi_eq_one, IntOp.cmpi_sge, IntOp.cmpi_sle, toInt_small k hk]
  have h0 : (0#32 : BitVec 32).toInt = 0 := by decide
  have h1 : (131071#32 : BitVec 32).toInt = 131071 := by decide
  rw [h0, h1]
  constructor <;> omega

theorem take_apply (tbl : Vec Ideal S4x131072 .f32) (idx : IVec S8388608 32) (d : Fin 4) (p : Fin 8388608) (k : Nat)
    (hk : k < 131072) (h : idx (ix1 p) = BitVec.ofNat 32 k) :
    take tbl idx (ix2 d p) = tbl (ix2 d (⟨k, hk⟩ : Fin 131072)) := by
  have hcol : col idx (ix2 p (0 : Fin 1)) = BitVec.ofNat 32 k := (colOf_apply (wrap idx) p).trans (wrap_apply idx p k hk h)
  unfold take takeOf
  rw [select_apply]
  have hm : broadcastInDim S4x8388608 ![1] bcast_S8388608_S4x8388608_1 (mask idx) (ix2 d p) = 1#1 :=
    (bcast_row (mask idx) d p).trans (maskOf_apply (col idx) p k hk hcol)
  rw [hm, select_one, gather_apply]
  refine congrArg tbl (congrArg (ix2 d) (Fin.ext ?_))
  show min (col idx (ix2 p (0 : Fin 1))).toInt.toNat 131071 = k
  rw [hcol, toInt_small k hk]
  simp only [Int.toNat_natCast]
  omega

/-! ### The stretches of operations around the two gathers -/

section Stretches
variable (V : Valuation τ sig (Elt Ideal))

/-! ### The first gather's operations, in three stretches -/

abbrev opsA0 : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S8388608, .i32⟩) (broadcastInDim S8388608 ![] bcast_S_S8388608),
    StableHlo.TRef.binary (.of main_v10 : StableHlo.TRef sig ⟨S8388608, .i32⟩) (.of main_call0_v0 : StableHlo.TRef sig ⟨S8388608, .i32⟩) (.of main_call0_v1 : StableHlo.TRef sig ⟨S8388608, .i1⟩) (cmpi .slt),
    StableHlo.TRef.nullary (.of main_call0_c_0 : StableHlo.TRef sig ⟨S_, .i32⟩) (constantI S_ 32 131072#32),
    StableHlo.TRef.unary (.of main_call0_c_0 : StableHlo.TRef sig ⟨S_, .i32⟩) (.of main_call0_v2 : StableHlo.TRef sig ⟨S8388608, .i32⟩) (broadcastInDim S8388608 ![] bcast_S_S8388608),
    StableHlo.TRef.binary (.of main_v10 : StableHlo.TRef sig ⟨S8388608, .i32⟩) (.of main_call0_v2 : StableHlo.TRef sig ⟨S8388608, .i32⟩) (.of main_call0_v3 : StableHlo.TRef sig ⟨S8388608, .i32⟩) addi,
    StableHlo.TRef.ternary (.of main_call0_v1 : StableHlo.TRef sig ⟨S8388608, .i1⟩) (.of main_call0_v3 : StableHlo.TRef sig ⟨S8388608, .i32⟩) (.of main_v10 : StableHlo.TRef sig ⟨S8388608, .i32⟩) (.of main_call0_v4 : StableHlo.TRef sig ⟨S8388608, .i32⟩) select ]
abbrev opsB0 : List (HloOp τ sig (Elt Ideal)) :=
  [ StableHlo.TRef.unary main_call0_call0.v0 (.of main_call0_v5 : StableHlo.TRef sig ⟨S8388608x1, .i32⟩) (broadcastInDim S8388608x1 ![0] bcast_S8388608_S8388608x1_0),
    StableHlo.TRef.nullary (.of main_call0_c_1 : StableHlo.TRef sig ⟨S1, .i32⟩) (constantI S1 32 131071#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S8388608x1, .i32⟩) (broadcastInDim S8388608x1 ![] bcast_S_S8388608x1),
    StableHlo.TRef.binary (.of main_call0_v5 : StableHlo.TRef sig ⟨S8388608x1, .i32⟩) (.of main_call0_v6 : StableHlo.TRef sig ⟨S8388608x1, .i32⟩) (.of main_call0_v7 : StableHlo.TRef sig ⟨S8388608x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S8388608x1, .i32⟩) (broadcastInDim S8388608x1 ![0, 1] bcast_S1x1_S8388608x1_0_1),
    StableHlo.TRef.binary (.of main_call0_v5 : StableHlo.TRef sig ⟨S8388608x1, .i32⟩) (.of main_call0_v9 : StableHlo.TRef sig ⟨S8388608x1, .i32⟩) (.of main_call0_v10 : StableHlo.TRef sig ⟨S8388608x1, .i1⟩) (cmpi .sle),
    StableHlo.TRef.binary (.of main_call0_v7 : StableHlo.TRef sig ⟨S8388608x1, .i1⟩) (.of main_call0_v10 : StableHlo.TRef sig ⟨S8388608x1, .i1⟩) (.of main_call0_v11 : StableHlo.TRef sig ⟨S8388608x1, .i1⟩) andi,
    StableHlo.TRef.nullary (.of main_call0_c_3 : StableHlo.TRef sig ⟨S_, .i1⟩) (constantI S_ 1 1#1),
    StableHlo.TRef.binary (.of main_call0_v11 : StableHlo.TRef sig ⟨S8388608x1, .i1⟩) (.of main_call0_c_3 : StableHlo.TRef sig ⟨S_, .i1⟩) (.of main_call0_v12 : StableHlo.TRef sig ⟨S8388608, .i1⟩) (fun x v => Host.reduce IntOp.andi x v reducesTo_S8388608x1_S8388608_d1 h_S_) ]
abbrev opsC0 : List (HloOp τ sig (Elt Ideal)) :=
  [ StableHlo.TRef.binary (.of main_v7 : StableHlo.TRef sig ⟨S4x131072, .f32⟩) (.of main_call0_v5 : StableHlo.TRef sig ⟨S8388608x1, .i32⟩) (.of main_call0_v13 : StableHlo.TRef sig ⟨S4x8388608, .f32⟩) (fun x i => Host.gather gather_S4x131072_S8388608x1_S4x8388608_0_1_n_n_1_1_41 x i),
    StableHlo.TRef.unary (.of main_call0_v12 : StableHlo.TRef sig ⟨S8388608, .i1⟩) (.of main_call0_v14 : StableHlo.TRef sig ⟨S4x8388608, .i1⟩) (broadcastInDim S4x8388608 ![1] bcast_S8388608_S4x8388608_1),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S4x8388608, .f32⟩) (broadcastInDim S4x8388608 ![] bcast_S_S4x8388608),
    StableHlo.TRef.ternary (.of main_call0_v14 : StableHlo.TRef sig ⟨S4x8388608, .i1⟩) (.of main_call0_v13 : StableHlo.TRef sig ⟨S4x8388608, .f32⟩) (.of main_call0_v15 : StableHlo.TRef sig ⟨S4x8388608, .f32⟩) (.of main_v14 : StableHlo.TRef sig ⟨S4x8388608, .f32⟩) select ]

theorem ops0_split : (hostOps1_1 : List (HloOp τ sig (Elt Ideal))) = opsA0 ++ (opsB0 ++ opsC0) := rfl

theorem a0_v4 : (StableHlo.after opsA0 V (Proc.devRef .tc main_call0_v4) : S8388608.Idx → BitVec 32)
    = wrap (V (Proc.devRef .tc main_v10)) := by
  unfold wrap
  after_results_simp
  simp only [StableHlo.TRef.ofBuf, StableHlo.TRef.toBuf, cast_eq]

theorem a0_v7 : StableHlo.after opsA0 V (Proc.devRef .tc main_v7) = V (Proc.devRef .tc main_v7) := by
  after_results_simp

theorem b0_v5 : (StableHlo.after opsB0 V (Proc.devRef .tc main_call0_v5) : S8388608x1.Idx → BitVec 32)
    = colOf (V (Proc.devRef .tc main_call0_v4)) := by
  unfold colOf
  after_results_simp
  simp only [StableHlo.TRef.ofBuf, StableHlo.TRef.toBuf, cast_eq]

theorem b0_v12 : (StableHlo.after opsB0 V (Proc.devRef .tc main_call0_v12) : S8388608.Idx → BitVec 1)
    = maskOf (colOf (V (Proc.devRef .tc main_call0_v4))) := by
  unfold maskOf colOf
  after_results_simp
  simp only [StableHlo.TRef.ofBuf, StableHlo.TRef.toBuf, cast_eq]

theorem b0_v7 : StableHlo.after opsB0 V (Proc.devRef .tc main_v7) = V (Proc.devRef .tc main_v7) := by
  after_results_simp

theorem c0_out : (StableHlo.after opsC0 V (Proc.devRef .tc main_v14) : S4x8388608.Idx → EReal)
    = takeOf (V (Proc.devRef .tc main_v7)) (V (Proc.devRef .tc main_call0_v5)) (V (Proc.devRef .tc main_call0_v12)) := by
  unfold takeOf
  after_results_simp
  simp only [StableHlo.TRef.ofBuf, StableHlo.TRef.toBuf, cast_eq]

theorem take0_term : (StableHlo.after hostOps1_1 V (Proc.devRef .tc main_v14) : S4x8388608.Idx → EReal)
    = take (V (Proc.devRef .tc main_v7)) (V (Proc.devRef .tc main_v10)) := by
  rw [ops0_split, StableHlo.after_append, StableHlo.after_append, c0_out, b0_v12, b0_v5, b0_v7, a0_v4, a0_v7]
  rfl

/-! ### The second gather's operations, in three stretches -/

abbrev opsA1 : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S8388608, .i32⟩) (broadcastInDim S8388608 ![] bcast_S_S8388608),
    StableHlo.TRef.binary (.of main_v13 : StableHlo.TRef sig ⟨S8388608, .i32⟩) (.of main_call1_v0 : StableHlo.TRef sig ⟨S8388608, .i32⟩) (.of main_call1_v1 : StableHlo.TRef sig ⟨S8388608, .i1⟩) (cmpi .slt),
    StableHlo.TRef.nullary (.of main_call1_c_0 : StableHlo.TRef sig ⟨S_, .i32⟩) (constantI S_ 32 131072#32),
    StableHlo.TRef.unary (.of main_call1_c_0 : StableHlo.TRef sig ⟨S_, .i32⟩) (.of main_call1_v2 : StableHlo.TRef sig ⟨S8388608, .i32⟩) (broadcastInDim S8388608 ![] bcast_S_S8388608),
    StableHlo.TRef.binary (.of main_v13 : StableHlo.TRef sig ⟨S8388608, .i32⟩) (.of main_call1_v2 : StableHlo.TRef sig ⟨S8388608, .i32⟩) (.of main_call1_v3 : StableHlo.TRef sig ⟨S8388608, .i32⟩) addi,
    StableHlo.TRef.ternary (.of main_call1_v1 : StableHlo.TRef sig ⟨S8388608, .i1⟩) (.of main_call1_v3 : StableHlo.TRef sig ⟨S8388608, .i32⟩) (.of main_v13 : StableHlo.TRef sig ⟨S8388608, .i32⟩) (.of main_call1_v4 : StableHlo.TRef sig ⟨S8388608, .i32⟩) select ]
abbrev opsB1 : List (HloOp τ sig (Elt Ideal)) :=
  [ StableHlo.TRef.unary main_call1_call0.v0 (.of main_call1_v5 : StableHlo.TRef sig ⟨S8388608x1, .i32⟩) (broadcastInDim S8388608x1 ![0] bcast_S8388608_S8388608x1_0),
    StableHlo.TRef.nullary (.of main_call1_c_1 : StableHlo.TRef sig ⟨S1, .i32⟩) (constantI S1 32 131071#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S8388608x1, .i32⟩) (broadcastInDim S8388608x1 ![] bcast_S_S8388608x1),
    StableHlo.TRef.binary (.of main_call1_v5 : StableHlo.TRef sig ⟨S8388608x1, .i32⟩) (.of main_call1_v6 : StableHlo.TRef sig ⟨S8388608x1, .i32⟩) (.of main_call1_v7 : StableHlo.TRef sig ⟨S8388608x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S8388608x1, .i32⟩) (broadcastInDim S8388608x1 ![0, 1] bcast_S1x1_S8388608x1_0_1),
    StableHlo.TRef.binary (.of main_call1_v5 : StableHlo.TRef sig ⟨S8388608x1, .i32⟩) (.of main_call1_v9 : StableHlo.TRef sig ⟨S8388608x1, .i32⟩) (.of main_call1_v10 : StableHlo.TRef sig ⟨S8388608x1, .i1⟩) (cmpi .sle),
    StableHlo.TRef.binary (.of main_call1_v7 : StableHlo.TRef sig ⟨S8388608x1, .i1⟩) (.of main_call1_v10 : StableHlo.TRef sig ⟨S8388608x1, .i1⟩) (.of main_call1_v11 : StableHlo.TRef sig ⟨S8388608x1, .i1⟩) andi,
    StableHlo.TRef.nullary (.of main_call1_c_3 : StableHlo.TRef sig ⟨S_, .i1⟩) (constantI S_ 1 1#1),
    StableHlo.TRef.binary (.of main_call1_v11 : StableHlo.TRef sig ⟨S8388608x1, .i1⟩) (.of main_call1_c_3 : StableHlo.TRef sig ⟨S_, .i1⟩) (.of main_call1_v12 : StableHlo.TRef sig ⟨S8388608, .i1⟩) (fun x v => Host.reduce IntOp.andi x v reducesTo_S8388608x1_S8388608_d1 h_S_) ]
abbrev opsC1 : List (HloOp τ sig (Elt Ideal)) :=
  [ StableHlo.TRef.binary (.of main_v7 : StableHlo.TRef sig ⟨S4x131072, .f32⟩) (.of main_call1_v5 : StableHlo.TRef sig ⟨S8388608x1, .i32⟩) (.of main_call1_v13 : StableHlo.TRef sig ⟨S4x8388608, .f32⟩) (fun x i => Host.gather gather_S4x131072_S8388608x1_S4x8388608_0_1_n_n_1_1_41 x i),
    StableHlo.TRef.unary (.of main_call1_v12 : StableHlo.TRef sig ⟨S8388608, .i1⟩) (.of main_call1_v14 : StableHlo.TRef sig ⟨S4x8388608, .i1⟩) (broadcastInDim S4x8388608 ![1] bcast_S8388608_S4x8388608_1),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S4x8388608, .f32⟩) (broadcastInDim S4x8388608 ![] bcast_S_S4x8388608),
    StableHlo.TRef.ternary (.of main_call1_v14 : StableHlo.TRef sig ⟨S4x8388608, .i1⟩) (.of main_call1_v13 : StableHlo.TRef sig ⟨S4x8388608, .f32⟩) (.of main_call1_v15 : StableHlo.TRef sig ⟨S4x8388608, .f32⟩) (.of main_v15 : StableHlo.TRef sig ⟨S4x8388608, .f32⟩) select ]

theorem ops1_split : (hostOps1_2 : List (HloOp τ sig (Elt Ideal))) = opsA1 ++ (opsB1 ++ opsC1) := rfl

theorem a1_v4 : (StableHlo.after opsA1 V (Proc.devRef .tc main_call1_v4) : S8388608.Idx → BitVec 32)
    = wrap (V (Proc.devRef .tc main_v13)) := by
  unfold wrap
  after_results_simp
  simp only [StableHlo.TRef.ofBuf, StableHlo.TRef.toBuf, cast_eq]

theorem a1_v7 : StableHlo.after opsA1 V (Proc.devRef .tc main_v7) = V (Proc.devRef .tc main_v7) := by
  after_results_simp

theorem b1_v5 : (StableHlo.after opsB1 V (Proc.devRef .tc main_call1_v5) : S8388608x1.Idx → BitVec 32)
    = colOf (V (Proc.devRef .tc main_call1_v4)) := by
  unfold colOf
  after_results_simp
  simp only [StableHlo.TRef.ofBuf, StableHlo.TRef.toBuf, cast_eq]

theorem b1_v12 : (StableHlo.after opsB1 V (Proc.devRef .tc main_call1_v12) : S8388608.Idx → BitVec 1)
    = maskOf (colOf (V (Proc.devRef .tc main_call1_v4))) := by
  unfold maskOf colOf
  after_results_simp
  simp only [StableHlo.TRef.ofBuf, StableHlo.TRef.toBuf, cast_eq]

theorem b1_v7 : StableHlo.after opsB1 V (Proc.devRef .tc main_v7) = V (Proc.devRef .tc main_v7) := by
  after_results_simp

theorem c1_out : (StableHlo.after opsC1 V (Proc.devRef .tc main_v15) : S4x8388608.Idx → EReal)
    = takeOf (V (Proc.devRef .tc main_v7)) (V (Proc.devRef .tc main_call1_v5)) (V (Proc.devRef .tc main_call1_v12)) := by
  unfold takeOf
  after_results_simp
  simp only [StableHlo.TRef.ofBuf, StableHlo.TRef.toBuf, cast_eq]

theorem take1_term : (StableHlo.after hostOps1_2 V (Proc.devRef .tc main_v15) : S4x8388608.Idx → EReal)
    = take (V (Proc.devRef .tc main_v7)) (V (Proc.devRef .tc main_v13)) := by
  rw [ops1_split, StableHlo.after_append, StableHlo.after_append, c1_out, b1_v12, b1_v5, b1_v7, a1_v4, a1_v7]
  rfl

/-- The table of all atoms, as the first stretch builds it. -/
theorem tbl_term : (StableHlo.after hostOps1 V (Proc.devRef .tc main_v7) : S4x131072.Idx → EReal)
    = table (V (Proc.devRef .tc main_arg0)) (V (Proc.devRef .tc main_v2_1)) := by
  after_results
  rfl

/-- The first atoms' flat numbers. -/
theorem flat_i_term : (StableHlo.after hostOps1 V (Proc.devRef .tc main_v10) : S8388608.Idx → BitVec 32)
    = flat (V (Proc.devRef .tc main_arg5)) (V (Proc.devRef .tc main_arg6)) := by
  after_results
  rfl

/-- The second atoms' flat numbers. -/
theorem flat_j_term : (StableHlo.after hostOps1 V (Proc.devRef .tc main_v13) : S8388608.Idx → BitVec 32)
    = flat (V (Proc.devRef .tc main_arg5)) (V (Proc.devRef .tc main_arg7)) := by
  after_results
  rfl

/-- The first gather's operations leave the table and the second atoms' numbers alone. -/
theorem h1_keep7 : StableHlo.after hostOps1_1 V (Proc.devRef .tc main_v7) = V (Proc.devRef .tc main_v7) := by
  after_results_simp
theorem h1_keep13 : StableHlo.after hostOps1_1 V (Proc.devRef .tc main_v13) = V (Proc.devRef .tc main_v13) := by
  after_results_simp
/-- The second gather's operations leave the first gather's result alone, and so does the last reshape. -/
theorem h2_keep14 : StableHlo.after hostOps1_2 V (Proc.devRef .tc main_v14) = V (Proc.devRef .tc main_v14) := by
  after_results_simp
theorem h3_keep14 : StableHlo.after hostOps1_3 V (Proc.devRef .tc main_v14) = V (Proc.devRef .tc main_v14) := by
  after_results
theorem h3_keep15 : StableHlo.after hostOps1_3 V (Proc.devRef .tc main_v15) = V (Proc.devRef .tc main_v15) := by
  after_results

end Stretches

/-! ### Region 0's exit contents at the buffers the stretch reads -/

theorem w2_arg0 (c : Dev nD) : W2 m ρ c (Proc.devRef .tc main_arg0) = m ((c : Thread nD τ).loc main_arg0) := by
  rw [W2_of_ne m ρ c main_arg0 (by decide)]
  dsimp only [W1, W0]
  after_results
theorem w2_arg5 (c : Dev nD) : W2 m ρ c (Proc.devRef .tc main_arg5) = m ((c : Thread nD τ).loc main_arg5) := by
  rw [W2_of_ne m ρ c main_arg5 (by decide)]
  dsimp only [W1, W0]
  after_results
theorem w2_arg6 (c : Dev nD) : W2 m ρ c (Proc.devRef .tc main_arg6) = m ((c : Thread nD τ).loc main_arg6) := by
  rw [W2_of_ne m ρ c main_arg6 (by decide)]
  dsimp only [W1, W0]
  after_results
theorem w2_arg7 (c : Dev nD) : W2 m ρ c (Proc.devRef .tc main_arg7) = m ((c : Thread nD τ).loc main_arg7) := by
  rw [W2_of_ne m ρ c main_arg7 (by decide)]
  dsimp only [W1, W0]
  after_results
/-- The per-atom radius array is region 0's sixth window. -/
theorem w2_ra (c : Dev nD) : (W2 m ρ c (Proc.devRef .tc main_v2_1) : S32x32x128.Idx → EReal) = RA m ρ c :=
  W2_arr m ρ c 5

/-! ### The three arrays region 1 is entered with, as terms over the launch arguments -/

theorem ci_term (c : Dev nD) :
    CI m ρ c = take (table (inputs m c).pos (RA m ρ c)) (flat (inputs m c).n (inputs m c).i) := by
  show (StableHlo.after hostOps1_3 (StableHlo.after hostOps1_2 (StableHlo.after hostOps1_1
    (StableHlo.after hostOps1 (W2 m ρ c)))) (Proc.devRef .tc main_v14) : S4x8388608.Idx → EReal) = _
  rw [h3_keep14, h2_keep14, take0_term, tbl_term, flat_i_term, w2_arg0, w2_arg5, w2_arg6, w2_ra]
  rfl

theorem cj_term (c : Dev nD) :
    CJ m ρ c = take (table (inputs m c).pos (RA m ρ c)) (flat (inputs m c).n (inputs m c).j) := by
  show (StableHlo.after hostOps1_3 (StableHlo.after hostOps1_2 (StableHlo.after hostOps1_1
    (StableHlo.after hostOps1 (W2 m ρ c)))) (Proc.devRef .tc main_v15) : S4x8388608.Idx → EReal) = _
  rw [h3_keep15, take1_term, h1_keep7, h1_keep13, tbl_term, flat_j_term, w2_arg0, w2_arg5, w2_arg7, w2_ra]
  rfl

theorem ni_term (c : Dev nD) :
    NI m ρ c = shapeCast S1x8388608 (inputs m c).n shapeCasts_S8388608_S1x8388608 := by
  show (V6 m ρ c main_v16 : S1x8388608.Idx → BitVec 32) = _
  dsimp only [V6, W6, W5, W4, W3]
  after_results
  rw [w2_arg5]
  rfl

end KH1

open KH1

theorem ci_pos (c : Dev nD) (hD : Dom (inputs m c)) (p : Fin 8388608) (b : Fin 32)
    (hn : (inputs m c).n (ix1 p) = BitVec.ofNat 32 b.val) (d : Fin 3) :
    CI m ρ c (ix2 (⟨d.val, by have := d.isLt; omega⟩ : Fin 4) p) = (inputs m c).pos (ix3 b (atomI (inputs m c) p) d) := by
  have hi := hD.i_rng p
  have hf := flat_apply (inputs m c).n (inputs m c).i p b hn hi
  have hlt : b.val * 4096 + ((inputs m c).i (ix1 p)).toNat < 131072 := by have := b.isLt; omega
  rw [ci_term, take_apply _ _ _ p _ hlt hf]
  refine table_pos _ _ b (atomI (inputs m c) p) d ⟨_, hlt⟩ ?_
  show b.val * 4096 + ((inputs m c).i (ix1 p)).toNat = b.val * 4096 + ((inputs m c).i (ix1 p)).toNat % 4096
  rw [Nat.mod_eq_of_lt hi]

theorem ci_rad (c : Dev nD) (hD : Dom (inputs m c)) (p : Fin 8388608) (b : Fin 32)
    (hn : (inputs m c).n (ix1 p) = BitVec.ofNat 32 b.val) :
    CI m ρ c (ix2 (3 : Fin 4) p) = rad (inputs m c) b (atomI (inputs m c) p) := by
  have hi := hD.i_rng p
  have hf := flat_apply (inputs m c).n (inputs m c).i p b hn hi
  have hlt : b.val * 4096 + ((inputs m c).i (ix1 p)).toNat < 131072 := by have := b.isLt; omega
  rw [ci_term, take_apply _ _ _ p _ hlt hf]
  have hq : (⟨b.val * 4096 + ((inputs m c).i (ix1 p)).toNat, hlt⟩ : Fin 131072).val
      = b.val * 4096 + (atomI (inputs m c) p).val := by
    show b.val * 4096 + ((inputs m c).i (ix1 p)).toNat = b.val * 4096 + ((inputs m c).i (ix1 p)).toNat % 4096
    rw [Nat.mod_eq_of_lt hi]
  rw [table_rad _ _ b (atomI (inputs m c) p) ⟨_, hlt⟩ hq, ra_eq m ρ c hD b]
  refine congrArg (rad (inputs m c) b) (Fin.ext ?_)
  show (atomI (inputs m c) p).val / 128 * 128 + (atomI (inputs m c) p).val % 128 = (atomI (inputs m c) p).val
  omega

theorem cj_pos (c : Dev nD) (hD : Dom (inputs m c)) (p : Fin 8388608) (b : Fin 32)
    (hn : (inputs m c).n (ix1 p) = BitVec.ofNat 32 b.val) (d : Fin 3) :
    CJ m ρ c (ix2 (⟨d.val, by have := d.isLt; omega⟩ : Fin 4) p) = (inputs m c).pos (ix3 b (atomJ (inputs m c) p) d) := by
  have hj := hD.j_rng p
  have hf := flat_apply (inputs m c).n (inputs m c).j p b hn hj
  have hlt : b.val * 4096 + ((inputs m c).j (ix1 p)).toNat < 131072 := by have := b.isLt; omega
  rw [cj_term, take_apply _ _ _ p _ hlt hf]
  refine table_pos _ _ b (atomJ (inputs m c) p) d ⟨_, hlt⟩ ?_
  show b.val * 4096 + ((inputs m c).j (ix1 p)).toNat = b.val * 4096 + ((inputs m c).j (ix1 p)).toNat % 4096
  rw [Nat.mod_eq_of_lt hj]

theorem cj_rad (c : Dev nD) (hD : Dom (inputs m c)) (p : Fin 8388608) (b : Fin 32)
    (hn : (inputs m c).n (ix1 p) = BitVec.ofNat 32 b.val) :
    CJ m ρ c (ix2 (3 : Fin 4) p) = rad (inputs m c) b (atomJ (inputs m c) p) := by
  have hj := hD.j_rng p
  have hf := flat_apply (inputs m c).n (inputs m c).j p b hn hj
  have hlt : b.val * 4096 + ((inputs m c).j (ix1 p)).toNat < 131072 := by have := b.isLt; omega
  rw [cj_term, take_apply _ _ _ p _ hlt hf]
  have hq : (⟨b.val * 4096 + ((inputs m c).j (ix1 p)).toNat, hlt⟩ : Fin 131072).val
      = b.val * 4096 + (atomJ (inputs m c) p).val := by
    show b.val * 4096 + ((inputs m c).j (ix1 p)).toNat = b.val * 4096 + ((inputs m c).j (ix1 p)).toNat % 4096
    rw [Nat.mod_eq_of_lt hj]
  rw [table_rad _ _ b (atomJ (inputs m c) p) ⟨_, hlt⟩ hq, ra_eq m ρ c hD b]
  refine congrArg (rad (inputs m c) b) (Fin.ext ?_)
  show (atomJ (inputs m c) p).val / 128 * 128 + (atomJ (inputs m c) p).val % 128 = (atomJ (inputs m c) p).val
  omega

theorem ni_eq (c : Dev nD) (p : Fin 8388608) :
    NI m ρ c (ix2 (0 : Fin 1) p) = (inputs m c).n (ix1 p) := by
  rw [ni_term]
  refine shapeCast_apply _ shapeCasts_S8388608_S1x8388608 _ (ix1 p) ?_
  rw [Shape.rowMajor_val_one, Shape.rowMajor_val_two]
  show p.val = 0 * 8388608 + p.val
  omega

end Cert.KernelIdeal.KV

end
-- ==== Proof.KPay1.lean ====
/- Region 1's body as values: one grid point adds, to each structure's running count, the number of the block's pairs
   that belong to the structure and are in contact. -/
import proofs.«427218_j89653147337010_1_alg».proof.Proof.Gen.KernelIdeal.Frame
import proofs.«427218_j89653147337010_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen Cert.Spec
/-- Lane `l` of a block: the contact bit of its pair (squared radius sum at least the squared distance). -/
def laneBit (x0 x1 : Vec Ideal S4x32768 .f32) (l : Fin 32768) : BitVec 1 :=
  Ideal.cmp .oge ((x0 (ix2 (3 : Fin 4) l) + x1 (ix2 (3 : Fin 4) l)) * (x0 (ix2 (3 : Fin 4) l) + x1 (ix2 (3 : Fin 4) l)))
    (∑ d : Fin 3, (x1 (ix2 (⟨d.val, by have := d.isLt; omega⟩ : Fin 4) l) - x0 (ix2 (⟨d.val, by have := d.isLt; omega⟩ : Fin 4) l))
      * (x1 (ix2 (⟨d.val, by have := d.isLt; omega⟩ : Fin 4) l) - x0 (ix2 (⟨d.val, by have := d.isLt; omega⟩ : Fin 4) l)))

/-- What lane `l` adds to structure `b`'s count: its contact bit when the pair is of structure `b`, else nothing. -/
def laneTerm (x0 x1 : Vec Ideal S4x32768 .f32) (x2 : Vec Ideal S1x32768 .i32) (b : Fin 32) (l : Fin 32768) : EReal :=
  if x2 (ix2 (0 : Fin 1) l) = BitVec.ofNat 32 b.val then bitReal (laneBit x0 x1 l) else 0

/-- Rows 0 to 2 of a block. -/
private def rows (x : Vec Ideal S4x32768 .f32) : FVec Ideal S3x32768 .f32 :=
  extractStridedSlice S3x32768 ![0, 0] (shapeCast S4x32768 x shapeCasts_S4x32768_S4x32768) slices_S4x32768_o0_0_S3x32768

/-- Row 3 of a block. -/
private def row3 (x : Vec Ideal S4x32768 .f32) : FVec Ideal S1x32768 .f32 :=
  extractStridedSlice S1x32768 ![3, 0] (shapeCast S4x32768 x shapeCasts_S4x32768_S4x32768) slices_S4x32768_o3_0_S1x32768

/-- Rows 0 to 2 of a block, read at `(d, l)`. -/
private theorem rows_apply (x : Vec Ideal S4x32768 .f32) (d : Fin 3) (l : Fin 32768) :
    rows x (ix2 d l) = x (ix2 (⟨d.val, by have := d.isLt; omega⟩ : Fin 4) l) := by
  unfold rows
  rw [shapeCast_self]
  exact slice2_axis0_apply 0 x _ d l _ (Nat.zero_add _).symm

/-- Row 3 of a block, read at `(0, l)`. -/
private theorem row3_apply (x : Vec Ideal S4x32768 .f32) (l : Fin 32768) :
    row3 x (ix2 (0 : Fin 1) l) = x (ix2 (3 : Fin 4) l) := by
  unfold row3
  rw [shapeCast_self]
  exact slice2_axis0_apply 3 x _ (0 : Fin 1) l (3 : Fin 4) rfl

/-- The sum over the three rows of a `[3, 32768]` vector, read at lane `l`. -/
private theorem sum3_apply (v : FVec Ideal S3x32768 .f32) (hφ : FKind.Formats .f32)
    (hacc : (0x00000000#32 : BitVec 32) = 0x00000000#32) (l : Fin 32768) :
    multiReduction .add [0] S32768 v 0x00000000#32 reduces_S3x32768_S32768 hφ hacc (ix1 l)
      = ∑ d : Fin 3, v (ix2 d l) := by
  refine (Ideal.multiReduction_add_single v _ reduces_S3x32768_S32768 hφ hacc (ix1 l)).trans ?_
  refine Finset.sum_congr rfl fun d _ => congrArg v ?_
  funext a
  match a with
  | ⟨0, _⟩ => rfl
  | ⟨1, _⟩ => rfl

/-- The sum over the lanes of a `[32, 32768]` vector, read at row `b`. -/
private theorem sumLanes_apply (v : FVec Ideal S32x32768 .f32) (hφ : FKind.Formats .f32)
    (hacc : (0x00000000#32 : BitVec 32) = 0x00000000#32) (b : Fin 32) :
    multiReduction .add [1] S32 v 0x00000000#32 reduces_S32x32768_S32 hφ hacc (ix1 b)
      = ∑ l : Fin 32768, v (ix2 b l) := by
  refine (Ideal.multiReduction_add_single v _ reduces_S32x32768_S32 hφ hacc (ix1 b)).trans ?_
  refine Finset.sum_congr rfl fun l _ => congrArg v ?_
  funext a
  match a with
  | ⟨0, _⟩ => rfl
  | ⟨1, _⟩ => rfl

/-- A `[32]` vector cast to a `[32, 1]` column reads, at `(b, 0)`, the vector at `b`. -/
private theorem col_apply {α : Type} (v : S32.Idx → α) (b : Fin 32) :
    shapeCast S32x1 v shapeCasts_S32_S32x1 (ix2 b (0 : Fin 1)) = v (ix1 b) :=
  shapeCast_apply v _ _ _ (by
    rw [Shape.rowMajor_val_two, Shape.rowMajor_val_one]
    show b.val = b.val * 1 + 0
    omega)

/-- A `[32, 1]` column broadcast over the lanes reads, at `(b, l)`, the column at `(b, 0)`. -/
private theorem bcastCol_apply {α : Type} (v : S32x1.Idx → α) (b : Fin 32) (l : Fin 32768) :
    broadcastTo S32x32768 v broadcasts_S32x1_S32x32768 (ix2 b l) = v (ix2 b (0 : Fin 1)) := by
  refine broadcastTo_apply v _ (ix2 b l) (ix2 b (0 : Fin 1)) fun ax => ?_
  match ax with
  | ⟨0, _⟩ => rfl
  | ⟨1, _⟩ => rfl

/-- The row-number column read at `(b, 0)`: the word `b`. -/
private theorem iotaCol_apply (b : Fin 32) :
    iota .tc S32x1 32 [0] iota_S32x1_d0_w32 (ix2 b (0 : Fin 1)) = BitVec.ofNat 32 b.val :=
  iota_single_apply .tc S32x1 32 0 iota_S32x1_d0_w32 (ix2 b (0 : Fin 1))

/-- A select on "the two words are equal" is the `if` on their equality. -/
private theorem select_cmpi_eq {α : Type} (a c : BitVec 32) (A B : α) :
    Scalar.select (IntOp.cmpi .eq a c) A B = if a = c then A else B := by
  by_cases h : a = c
  · rw [if_pos h, h]
    show Scalar.select (BitVec.ofBool (c == c)) A B = A
    rw [beq_self_eq_true]
    exact select_one A B
  · rw [if_neg h]
    show Scalar.select (BitVec.ofBool (a == c)) A B = B
    rw [show (a == c) = false from beq_eq_false_iff_ne.2 h]
    exact select_zero A B

/-- The contact bits of a block's lanes, as the body computes them. -/
private def bitV (x0 x1 : Vec Ideal S4x32768 .f32) : IVec S1x32768 1 :=
  cmpf .oge
    (mulf (addf (row3 x0) (row3 x1)) (addf (row3 x0) (row3 x1)))
    (shapeCast S1x32768
      (multiReduction .add [0] S32768
        (mulf (subf (rows x1) (rows x0)) (subf (rows x1) (rows x0)))
        0x00000000#32 reduces_S3x32768_S32768 (.inl rfl) rfl)
      shapeCasts_S32768_S1x32768)

/-- The body's contact bit at lane `l` is `laneBit`. -/
private theorem bitV_apply (x0 x1 : Vec Ideal S4x32768 .f32) (l : Fin 32768) :
    bitV x0 x1 (ix2 (0 : Fin 1) l) = laneBit x0 x1 l := by
  unfold bitV laneBit
  rw [cmpf_apply, mulf_apply, addf_apply, row3_apply, row3_apply, shapeCast_a_1a_apply]
  show Ideal.cmp .oge _ _ = Ideal.cmp .oge _ _
  refine congrArg (Ideal.cmp .oge _) ?_
  refine (sum3_apply _ _ _ l).trans (Finset.sum_congr rfl fun d _ => ?_)
  rw [mulf_apply, subf_apply, rows_apply, rows_apply]

/-- What each lane adds to each structure's count, as the body computes it. -/
private def termV (x0 x1 : Vec Ideal S4x32768 .f32) (x2 : Vec Ideal S1x32768 .i32) : FVec Ideal S32x32768 .f32 :=
  select
    (cmpi .eq
      (broadcastTo S32x32768 (shapeCast S1x32768 x2 shapeCasts_S1x32768_S1x32768) broadcasts_S1x32768_S32x32768)
      (broadcastTo S32x32768 (iota .tc S32x1 32 [0] iota_S32x1_d0_w32) broadcasts_S32x1_S32x32768))
    (broadcastTo S32x32768
      (shapeCast S1x32768 (sitofp .f32 (extui 32 (bitV x0 x1) natLt_1_32)) shapeCasts_S1x32768_S1x32768)
      broadcasts_S1x32768_S32x32768)
    (broadcast S32x32768 (FloatOps.ofBits .f32 0x00000000#32))

/-- The body's term at `(b, l)` is `laneTerm`. -/
private theorem termV_apply (x0 x1 : Vec Ideal S4x32768 .f32) (x2 : Vec Ideal S1x32768 .i32) (b : Fin 32) (l : Fin 32768) :
    termV x0 x1 x2 (ix2 b l) = laneTerm x0 x1 x2 b l := by
  unfold termV laneTerm
  rw [select_apply, broadcast_apply, broadcastTo_1b_ab_apply, shapeCast_self, shapeCast_self, sitofp_apply, extui_apply,
    bitV_apply]
  have hc : cmpi .eq (broadcastTo S32x32768 x2 broadcasts_S1x32768_S32x32768)
      (broadcastTo S32x32768 (iota .tc S32x1 32 [0] iota_S32x1_d0_w32) broadcasts_S32x1_S32x32768) (ix2 b l)
        = IntOp.cmpi .eq (x2 (ix2 (0 : Fin 1) l)) (BitVec.ofNat 32 b.val) := by
    show IntOp.cmpi .eq (broadcastTo S32x32768 x2 broadcasts_S1x32768_S32x32768 (ix2 b l))
      (broadcastTo S32x32768 (iota .tc S32x1 32 [0] iota_S32x1_d0_w32) broadcasts_S32x1_S32x32768 (ix2 b l)) = _
    rw [broadcastTo_1b_ab_apply, bcastCol_apply, iotaCol_apply]
  rw [hc, select_cmpi_eq]
  show (if x2 (ix2 (0 : Fin 1) l) = BitVec.ofNat 32 b.val then bitReal (laneBit x0 x1 l) else Ideal.ofBits .f32 0x00000000#32) = _
  rw [Ideal.ofBits_zero_f32]

theorem k1_pay2_apply (x0 x1 : Vec Ideal S4x32768 .f32) (x2 : Vec Ideal S1x32768 .i32) (xo : Vec Ideal S1x32x1 .f32)
    (b : Fin 32) :
    k1_pay2 (F := Ideal) x0 x1 x2 xo (ix3 (0 : Fin 1) b (0 : Fin 1))
      = xo (ix3 (0 : Fin 1) b (0 : Fin 1)) + ∑ l : Fin 32768, laneTerm x0 x1 x2 b l := by
  unfold k1_pay2
  rw [addf_apply, shapeCast_ab_1ab_apply, col_apply, shapeCast_self xo]
  refine congrArg (xo (ix3 (0 : Fin 1) b (0 : Fin 1)) + ·) ?_
  refine (sumLanes_apply _ _ _ b).trans (Finset.sum_congr rfl fun l _ => ?_)
  exact termV_apply x0 x1 x2 b l

theorem k1_pay1_apply (b : Fin 32) : k1_pay1 (F := Ideal) (ix3 (0 : Fin 1) b (0 : Fin 1)) = 0 := by
  show Ideal.ofBits .f32 0x00000000#32 = 0
  exact Ideal.ofBits_zero_f32

end Cert.KernelIdeal.KV

end
-- ==== Proof.KAcc1.lean ====
/- Region 1's running counts, in closed form: after grid point n the staging block holds, for each structure, the sum of
   the per-block counts of the points of n's own half of the grid so far (a half begins at a multiple of 128, where the
   body resets the block to zero before adding). -/
import proofs.«427218_j89653147337010_1_alg».proof.Proof.KPay1

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen Cert.Spec

private theorem hz3 : (![0, 0, 0] : Fin 3 → Nat) = fun _ => 0 := funext fun a => by fin_cases a <;> rfl
private theorem hz2 : (![0, 0] : Fin 2 → Nat) = fun _ => 0 := funext fun a => by fin_cases a <;> rfl

/-- A point that does not begin a half: the body leaves, in the output's staging block holding `xo`, the one covering
    store's payload over `xo` and the three input blocks (its loads read the whole buffers). -/
private theorem out1_B_val (c : Dev nD) (i : grid1.Coords) (a2 : Memref sig .tc .vmem S4x32768 .f32) (h2 : a2.IsWhole)
    (a3 : Memref sig .tc .vmem S4x32768 .f32) (h3 : a3.IsWhole) (a4 : Memref sig .tc .vmem S1x32768 .i32) (h4 : a4.IsWhole)
    (a5 : Memref sig .tc .vmem S1x32x1 .f32) (h5 : a5.IsWhole) (hc : ¬cond1_0 i)
    (x0 x1 : Vec Ideal S4x32768 .f32) (x2 : Vec Ideal S1x32768 .i32) (xo : Vec Ideal S1x32x1 .f32) :
    out1_B_3 (F := Ideal) c i a2 h2 a3 h3 a4 h4 a5 h5 hc x0 x1 x2 xo = k1_pay2 (F := Ideal) x0 x1 x2 xo := by
  unfold out1_B_3
  rw [View.read_writes_eq_canon _ _ _ (cover1_B_3 c i a2 h2 a3 h3 a4 h4 a5 h5 hc x0 x1 x2 xo)]
  unfold kernelRun1_B
  dsimp only
  rw [View.canon_unit_zero hz3]
  simp only [View.readAt_eq_ld, h2.read_unread, h3.read_unread, h4.read_unread, h5.read_unread,
    View.ld_unit_zero (S := S4x32768) hz2, View.ld_unit_zero (S := S1x32768) hz2, View.ld_unit_zero (S := S1x32x1) hz3,
    shapeCast_self]

/-- A point that begins a half: the body stores the zero block, reads it back, and leaves the payload over the zero
    block and the three input blocks. -/
private theorem out1_A_val (c : Dev nD) (i : grid1.Coords) (a2 : Memref sig .tc .vmem S4x32768 .f32) (h2 : a2.IsWhole)
    (a3 : Memref sig .tc .vmem S4x32768 .f32) (h3 : a3.IsWhole) (a4 : Memref sig .tc .vmem S1x32768 .i32) (h4 : a4.IsWhole)
    (a5 : Memref sig .tc .vmem S1x32x1 .f32) (h5 : a5.IsWhole) (hc : cond1_0 i)
    (x0 x1 : Vec Ideal S4x32768 .f32) (x2 : Vec Ideal S1x32768 .i32) :
    out1_A_3 (F := Ideal) c i a2 h2 a3 h3 a4 h4 a5 h5 hc x0 x1 x2 = k1_pay2 (F := Ideal) x0 x1 x2 (k1_pay1 (F := Ideal)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x32x1) hz3, View.readCov_unit_zero (S := S1x32x1) _ hz3]
  simp only [View.readAt_eq_ld, h2.read_unread, h3.read_unread, h4.read_unread,
    View.ld_unit_zero (S := S4x32768) hz2, View.ld_unit_zero (S := S1x32768) hz2, shapeCast_self]

variable (V : (c : Dev nD) → (b : Ref sig .tc) → Buf (Elt Ideal) ((c : Thread nD τ).loc b))

/-- What grid point `t` adds to structure `b`'s count: the number of its block's pairs that belong to `b` and are
    in contact. -/
def blockCount (c : Dev nD) (t : Fin cfg1.N) (b : Fin 32) : EReal :=
  ∑ l : Fin 32768, laneTerm (iblk1 V c 0 t) (iblk1 V c 1 t) (iblk1 V c 2 t) b l

/-- At a point that begins a half the block is reset first: the count after it is the point's own. -/
private theorem outsAt1_stepA (c : Dev nD) (t : Fin cfg1.N) (h0 : t.val % 128 = 0) (b : Fin 32) :
    outsAt1 V c t.val t.isLt (ix3 (0 : Fin 1) b (0 : Fin 1)) = blockCount V c t b := by
  rw [outsAt1_A V c t h0]
  refine (congrFun (out1_A_val c (grid1.coords t) (ms1_0 t) (hs1_0 t) (ms1_1 t) (hs1_1 t) (ms1_2 t) (hs1_2 t) (ms1_3 t) (hs1_3 t)
    ((hcond1_0 t).mpr h0) (iblk1 V c 0 t) (iblk1 V c 1 t) (iblk1 V c 2 t)) (ix3 (0 : Fin 1) b (0 : Fin 1))).trans ?_
  rw [k1_pay2_apply, k1_pay1_apply, zero_add]
  rfl

/-- At any other point the count after it is the count after the point before plus the point's own. -/
private theorem outsAt1_stepB (c : Dev nD) (t : Fin cfg1.N) (h0 : ¬t.val % 128 = 0) (b : Fin 32) :
    outsAt1 V c t.val t.isLt (ix3 (0 : Fin 1) b (0 : Fin 1))
      = outsAt1 V c (t.val - 1) (Nat.lt_of_le_of_lt (Nat.sub_le _ _) t.isLt) (ix3 (0 : Fin 1) b (0 : Fin 1)) + blockCount V c t b := by
  rw [outsAt1_B V c t h0]
  refine (congrFun (out1_B_val c (grid1.coords t) (ms1_0 t) (hs1_0 t) (ms1_1 t) (hs1_1 t) (ms1_2 t) (hs1_2 t) (ms1_3 t) (hs1_3 t)
    (fun h => h0 ((hcond1_0 t).mp h)) (iblk1 V c 0 t) (iblk1 V c 1 t) (iblk1 V c 2 t)
    (outsAt1 V c (t.val - 1) (Nat.lt_of_le_of_lt (Nat.sub_le _ _) t.isLt))) (ix3 (0 : Fin 1) b (0 : Fin 1))).trans ?_
  rw [k1_pay2_apply]
  rfl

/-- The closed form at a point that begins a half: the half so far is that one point. -/
private theorem outsAt1_eq_A (c : Dev nD) (n : ℕ) (hn : n < cfg1.N) (h0 : n % 128 = 0) (b : Fin 32) :
    outsAt1 V c n hn (ix3 (0 : Fin 1) b (0 : Fin 1))
      = ∑ t ∈ (Finset.univ.filter fun t : Fin cfg1.N => n / 128 * 128 ≤ t.val ∧ t.val ≤ n), blockCount V c t b := by
  refine (outsAt1_stepA V c ⟨n, hn⟩ h0 b).trans ?_
  have hs : (Finset.univ.filter fun t : Fin cfg1.N => n / 128 * 128 ≤ t.val ∧ t.val ≤ n) = {⟨n, hn⟩} := by
    ext t
    simp only [Finset.mem_filter, Finset.mem_univ, true_and, Finset.mem_singleton, Fin.ext_iff, Fin.val_mk]
    omega
  rw [hs, Finset.sum_singleton]

theorem outsAt1_eq (c : Dev nD) (n : ℕ) (hn : n < cfg1.N) (b : Fin 32) :
    outsAt1 V c n hn (ix3 (0 : Fin 1) b (0 : Fin 1))
      = ∑ t ∈ (Finset.univ.filter fun t : Fin cfg1.N => n / 128 * 128 ≤ t.val ∧ t.val ≤ n), blockCount V c t b := by
  induction n with
  | zero => exact outsAt1_eq_A V c 0 hn rfl b
  | succ m ih =>
    by_cases h0 : (m + 1) % 128 = 0
    · exact outsAt1_eq_A V c (m + 1) hn h0 b
    · have hm : m < cfg1.N := Nat.lt_of_succ_lt hn
      refine (outsAt1_stepB V c ⟨m + 1, hn⟩ h0 b).trans ?_
      show outsAt1 V c m hm (ix3 (0 : Fin 1) b (0 : Fin 1)) + blockCount V c ⟨m + 1, hn⟩ b = _
      rw [ih hm]
      have hs : (Finset.univ.filter fun t : Fin cfg1.N => (m + 1) / 128 * 128 ≤ t.val ∧ t.val ≤ m + 1)
          = insert (⟨m + 1, hn⟩ : Fin cfg1.N) (Finset.univ.filter fun t : Fin cfg1.N => m / 128 * 128 ≤ t.val ∧ t.val ≤ m) := by
        ext t
        simp only [Finset.mem_filter, Finset.mem_univ, true_and, Finset.mem_insert, Fin.ext_iff, Fin.val_mk]
        omega
      have hnot : (⟨m + 1, hn⟩ : Fin cfg1.N) ∉ (Finset.univ.filter fun t : Fin cfg1.N => m / 128 * 128 ≤ t.val ∧ t.val ≤ m) := by
        simp only [Finset.mem_filter, Finset.mem_univ, true_and, Fin.val_mk]
        omega
      rw [hs, Finset.sum_insert hnot, add_comm]

end Cert.KernelIdeal.KV

end
-- ==== Proof.SumBits.lean ====
/- A finite sum of terms each 0 or 1, over the extended reals: it is a non-negative real number, and it is positive exactly
   when some term is 1. -/
import Mathlib.Data.EReal.Basic
import Mathlib.Algebra.BigOperators.Group.Finset.Basic
import Mathlib.Algebra.Order.BigOperators.Group.Finset

open scoped BigOperators

namespace Cert.Spec

theorem sum_bits {ι : Type*} (s : Finset ι) (f : ι → EReal) (h : ∀ i ∈ s, f i = 0 ∨ f i = 1) :
    ∃ r : ℝ, 0 ≤ r ∧ ∑ i ∈ s, f i = (r : EReal) ∧ (0 < r ↔ ∃ i ∈ s, f i = 1) := by
  classical
  induction s using Finset.induction_on with
  | empty => exact ⟨0, le_refl _, by simp, by simp⟩
  | insert a s ha ih =>
    obtain ⟨r, hr0, hr, hiff⟩ := ih (fun i hi => h i (Finset.mem_insert_of_mem hi))
    rw [Finset.sum_insert ha, hr]
    rcases h a (Finset.mem_insert_self a s) with h0 | h1
    · refine ⟨r, hr0, by rw [h0, zero_add], ?_⟩
      rw [hiff]
      constructor
      · rintro ⟨i, hi, h1⟩; exact ⟨i, Finset.mem_insert_of_mem hi, h1⟩
      · rintro ⟨i, hi, h1⟩
        rcases Finset.mem_insert.mp hi with rfl | hi
        · rw [h0] at h1; exact absurd h1 (by norm_num)
        · exact ⟨i, hi, h1⟩
    · refine ⟨1 + r, by linarith, by rw [h1]; norm_cast, ?_⟩
      constructor
      · intro _; exact ⟨a, Finset.mem_insert_self a s, h1⟩
      · intro _; linarith

end Cert.Spec
-- ==== Proof.KReg1.lean ====
/- Region 1's result array after the region: per core half and structure, a count that is positive exactly when some
   pair of that half belongs to the structure and is in contact. -/
import proofs.«427218_j89653147337010_1_alg».proof.Proof.KAcc1
import proofs.«427218_j89653147337010_1_alg».proof.Proof.SumBits

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen Cert.Spec
variable (V : (c : Dev nD) → (b : Ref sig .tc) → Buf (Elt Ideal) ((c : Thread nD τ).loc b))

/-- The first atoms' table (x, y, z, radius by pair) the region is entered with. -/
abbrev tabI (c : Dev nD) : Vec Ideal S4x8388608 .f32 := V c main_v14
/-- The second atoms' table. -/
abbrev tabJ (c : Dev nD) : Vec Ideal S4x8388608 .f32 := V c main_v15
/-- The pairs' structure numbers, as a row. -/
abbrev rowN (c : Dev nD) : Vec Ideal S1x8388608 .i32 := V c main_v16

/-- Pair `p`'s contact bit, read off the two gathered tables the region is entered with. -/
def pairBitK (c : Dev nD) (p : Fin 8388608) : BitVec 1 :=
  Ideal.cmp .oge
    ((tabI V c (ix2 (3 : Fin 4) p) + tabJ V c (ix2 (3 : Fin 4) p)) * (tabI V c (ix2 (3 : Fin 4) p) + tabJ V c (ix2 (3 : Fin 4) p)))
    (∑ d : Fin 3,
      (tabJ V c (ix2 (⟨d.val, by have := d.isLt; omega⟩ : Fin 4) p) - tabI V c (ix2 (⟨d.val, by have := d.isLt; omega⟩ : Fin 4) p))
      * (tabJ V c (ix2 (⟨d.val, by have := d.isLt; omega⟩ : Fin 4) p) - tabI V c (ix2 (⟨d.val, by have := d.isLt; omega⟩ : Fin 4) p)))

/-- The count array after region 1 (entered at contents `V`). -/
abbrev CN (c : Dev nD) : Vec Ideal S2x32x1 .f32 := (dat1 V c).arrAt 3 cfg1.N

/-- The pair a block's lane is: block `t`, lane `l`. -/
private def pairOf (t : Fin cfg1.N) (l : Fin 32768) : Fin 8388608 :=
  ⟨t.val * 32768 + l.val, by have := t.isLt; have hN : cfg1.N = 256 := N_1; have := l.isLt; omega⟩

/-- Block `t` of the first table reads the table at the block's own pairs. -/
private theorem blk0_apply (c : Dev nD) (t : Fin cfg1.N) (d : Fin 4) (l : Fin 32768) :
    (iblk1 V c 0 t : Vec Ideal S4x32768 .f32) (ix2 d l) = tabI V c (ix2 d (pairOf t l)) := by
  have hi : win1_0.index t 0 = 0 ∧ win1_0.index t 1 = t.val :=
    (by decide +kernel : ∀ t : Fin grid1.N, win1_0.index t 0 = 0 ∧ win1_0.index t 1 = t.val) t
  unfold iblk1
  rw [View.read_apply]
  show V c main_v14 _ = V c main_v14 _
  congr 1
  funext a
  apply Fin.ext
  match a with
  | ⟨0, _⟩ => show win1_0.index t 0 * 4 + 1 * d.val = d.val; rw [hi.1]; omega
  | ⟨1, _⟩ => show win1_0.index t 1 * 32768 + 1 * l.val = t.val * 32768 + l.val; rw [hi.2]; omega

/-- Block `t` of the second table reads the table at the block's own pairs. -/
private theorem blk1_apply (c : Dev nD) (t : Fin cfg1.N) (d : Fin 4) (l : Fin 32768) :
    (iblk1 V c 1 t : Vec Ideal S4x32768 .f32) (ix2 d l) = tabJ V c (ix2 d (pairOf t l)) := by
  have hi : win1_1.index t 0 = 0 ∧ win1_1.index t 1 = t.val :=
    (by decide +kernel : ∀ t : Fin grid1.N, win1_1.index t 0 = 0 ∧ win1_1.index t 1 = t.val) t
  unfold iblk1
  rw [View.read_apply]
  show V c main_v15 _ = V c main_v15 _
  congr 1
  funext a
  apply Fin.ext
  match a with
  | ⟨0, _⟩ => show win1_1.index t 0 * 4 + 1 * d.val = d.val; rw [hi.1]; omega
  | ⟨1, _⟩ => show win1_1.index t 1 * 32768 + 1 * l.val = t.val * 32768 + l.val; rw [hi.2]; omega

/-- Block `t` of the structure row reads the row at the block's own pairs. -/
private theorem blk2_apply (c : Dev nD) (t : Fin cfg1.N) (l : Fin 32768) :
    (iblk1 V c 2 t : Vec Ideal S1x32768 .i32) (ix2 (0 : Fin 1) l) = rowN V c (ix2 (0 : Fin 1) (pairOf t l)) := by
  have hi : win1_2.index t 0 = 0 ∧ win1_2.index t 1 = t.val :=
    (by decide +kernel : ∀ t : Fin grid1.N, win1_2.index t 0 = 0 ∧ win1_2.index t 1 = t.val) t
  unfold iblk1
  rw [View.read_apply]
  show V c main_v16 _ = V c main_v16 _
  congr 1
  funext a
  apply Fin.ext
  match a with
  | ⟨0, _⟩ => show win1_2.index t 0 * 1 + 1 * 0 = 0; rw [hi.1]
  | ⟨1, _⟩ => show win1_2.index t 1 * 32768 + 1 * l.val = t.val * 32768 + l.val; rw [hi.2]; omega

/-- A lane's contact bit is its pair's. -/
private theorem laneBit_eq (c : Dev nD) (t : Fin cfg1.N) (l : Fin 32768) :
    laneBit (iblk1 V c 0 t) (iblk1 V c 1 t) l = pairBitK V c (pairOf t l) := by
  unfold laneBit pairBitK
  simp only [blk0_apply, blk1_apply]

/-- What a lane adds to structure `b`'s count, in terms of its pair. -/
private def pairTerm (c : Dev nD) (b : Fin 32) (p : Fin 8388608) : EReal :=
  if rowN V c (ix2 (0 : Fin 1) p) = BitVec.ofNat 32 b.val then bitReal (pairBitK V c p) else 0

private theorem laneTerm_eq (c : Dev nD) (t : Fin cfg1.N) (b : Fin 32) (l : Fin 32768) :
    laneTerm (iblk1 V c 0 t) (iblk1 V c 1 t) (iblk1 V c 2 t) b l = pairTerm V c b (pairOf t l) := by
  unfold laneTerm pairTerm
  rw [blk2_apply, laneBit_eq]

/-- A one-bit word is 0 or 1. -/
private theorem bit01 : ∀ x : BitVec 1, x = 0#1 ∨ x = 1#1 := by decide

/-- A pair's term is 0 or 1. -/
private theorem pairTerm_01 (c : Dev nD) (b : Fin 32) (p : Fin 8388608) : pairTerm V c b p = 0 ∨ pairTerm V c b p = 1 := by
  unfold pairTerm
  split
  · rcases bit01 (pairBitK V c p) with h | h
    · left; rw [h, bitReal_zero]
    · right; rw [h, bitReal_one]
  · left; rfl

/-- A pair's term is 1 exactly when the pair is of structure `b` and in contact. -/
private theorem pairTerm_eq_one_iff (c : Dev nD) (b : Fin 32) (p : Fin 8388608) :
    pairTerm V c b p = 1 ↔ rowN V c (ix2 (0 : Fin 1) p) = BitVec.ofNat 32 b.val ∧ pairBitK V c p = 1#1 := by
  unfold pairTerm
  constructor
  · intro h
    split at h
    · rename_i hr
      refine ⟨hr, ?_⟩
      rcases bit01 (pairBitK V c p) with h0 | h1
      · rw [h0, bitReal_zero] at h; exact absurd h (by norm_num)
      · exact h1
    · exact absurd h (by norm_num)
  · rintro ⟨hr, h1⟩
    rw [if_pos hr, h1, bitReal_one]

/-- The points of half `q` of the grid. -/
private def halfSet (q : ℕ) : Finset (Fin cfg1.N) :=
  Finset.univ.filter fun t : Fin cfg1.N => q * 128 ≤ t.val ∧ t.val ≤ q * 128 + 127

/-- Structure `b`'s count over half `q`: the sum of the half's per-block counts. -/
private def halfSum (c : Dev nD) (q : ℕ) (b : Fin 32) : EReal := ∑ t ∈ halfSet q, blockCount V c t b

/-- The half's count is a non-negative real, positive exactly when some pair of the half is of the structure and in
    contact: the double sum over (block, lane) is one sum of terms 0 or 1 over the half's pairs. -/
private theorem halfSum_spec (c : Dev nD) (cc : Fin 2) (b : Fin 32) :
    ∃ r : ℝ, 0 ≤ r ∧ halfSum V c cc.val b = (r : EReal)
      ∧ (0 < r ↔ ∃ p : Fin 8388608, p.val / 4194304 = cc.val
            ∧ rowN V c (ix2 (0 : Fin 1) p) = BitVec.ofNat 32 b.val
            ∧ pairBitK V c p = 1#1) := by
  have hN : cfg1.N = 256 := N_1
  have hcc := cc.isLt
  have hsum : halfSum V c cc.val b
      = ∑ x ∈ halfSet cc.val ×ˢ (Finset.univ : Finset (Fin 32768)), pairTerm V c b (pairOf x.1 x.2) := by
    unfold halfSum blockCount
    rw [Finset.sum_product' (halfSet cc.val) (Finset.univ : Finset (Fin 32768)) (fun t l => pairTerm V c b (pairOf t l))]
    exact Finset.sum_congr rfl fun t _ => Finset.sum_congr rfl fun l _ => laneTerm_eq V c t b l
  obtain ⟨r, hr0, hr, hiff⟩ := sum_bits (halfSet cc.val ×ˢ (Finset.univ : Finset (Fin 32768)))
    (fun x => pairTerm V c b (pairOf x.1 x.2)) (fun x _ => pairTerm_01 V c b _)
  refine ⟨r, hr0, hsum.trans hr, hiff.trans ?_⟩
  constructor
  · rintro ⟨⟨t, l⟩, hmem, h1⟩
    have ht : cc.val * 128 ≤ t.val ∧ t.val ≤ cc.val * 128 + 127 :=
      (Finset.mem_filter.mp (Finset.mem_product.mp hmem).1).2
    refine ⟨pairOf t l, ?_, (pairTerm_eq_one_iff V c b _).mp h1⟩
    show (t.val * 32768 + l.val) / 4194304 = cc.val
    have := l.isLt
    omega
  · rintro ⟨p, hp, hrow, hbit⟩
    have hpl := p.isLt
    have h1 : p.val / 32768 < cfg1.N := by omega
    have h2 : p.val % 32768 < 32768 := Nat.mod_lt _ (by norm_num)
    have hp' : pairOf ⟨p.val / 32768, h1⟩ ⟨p.val % 32768, h2⟩ = p :=
      Fin.ext (by show p.val / 32768 * 32768 + p.val % 32768 = p.val; omega)
    refine ⟨(⟨p.val / 32768, h1⟩, ⟨p.val % 32768, h2⟩), ?_, ?_⟩
    · refine Finset.mem_product.mpr ⟨Finset.mem_filter.mpr ⟨Finset.mem_univ _, ?_⟩, Finset.mem_univ _⟩
      show cc.val * 128 ≤ p.val / 32768 ∧ p.val / 32768 ≤ cc.val * 128 + 127
      omega
    · show pairTerm V c b (pairOf ⟨p.val / 32768, h1⟩ ⟨p.val % 32768, h2⟩) = 1
      rw [hp']
      exact (pairTerm_eq_one_iff V c b p).mpr ⟨hrow, hbit⟩

/-- The whole count array: entry (q, b, ·) is half `q`'s count of structure `b`. -/
private def G (c : Dev nD) : Vec Ideal S2x32x1 .f32 := fun i => halfSum V c (i 0).val (i 1)

/-- The result's block at point `t` is block (t / 128, 0, 0). -/
private theorem idx3 : ∀ t : Fin grid1.N, win1_3.index t 0 = t.val / 128 ∧ win1_3.index t 1 = 0 ∧ win1_3.index t 2 = 0 := by
  decide +kernel

/-- and it is a full [1, 32, 1] block. -/
private theorem xs3 : ∀ t : Fin grid1.N, win1_3.xsize (grid1.coords t) 0 = 1 ∧ win1_3.xsize (grid1.coords t) 1 = 32
    ∧ win1_3.xsize (grid1.coords t) 2 = 1 := by
  decide +kernel

/-- What the last point of a half writes back is that half's block of the count array: the running count there is the
    sum over the whole half. -/
private theorem flushed_eq (c : Dev nD) (t : Fin cfg1.N) (hf : (cfg1.win 3).flush t = true) :
    (dat1 V c).flushed 3 t = ((cfg1.win 3).blk t).view.read (Elt Ideal) (G V c) := by
  have hN : cfg1.N = 256 := N_1
  have h127 : t.val % 128 = 127 := (flush1_3 t).mp hf
  have hi := idx3 t
  show (cfg1.win 3).cut (grid1.coords t) ((dat1 V c).after 3 t) = _
  rw [after1_3]
  refine funext fun (y : S1x32x1.Idx) => ?_
  obtain ⟨b, rfl⟩ : ∃ b : Fin 32, y = ix3 (0 : Fin 1) b (0 : Fin 1) :=
    ⟨y 1, (eq_ix3 y).trans (by rw [Fin.eq_zero (y 0), Fin.eq_zero (y 2)]; rfl)⟩
  rw [View.read_apply]
  have e0 : ((((cfg1.win 3).blk t).view.emb (ix3 (0 : Fin 1) b (0 : Fin 1))) 0).val = t.val / 128 := by
    show win1_3.index t 0 * 1 + 1 * 0 = t.val / 128
    rw [hi.1]; omega
  have e1 : (((cfg1.win 3).blk t).view.emb (ix3 (0 : Fin 1) b (0 : Fin 1))) 1 = b :=
    Fin.ext (by show win1_3.index t 1 * 32 + 1 * b.val = b.val; rw [hi.2.1]; omega)
  show outsAt1 V c t.val t.isLt (ix3 (0 : Fin 1) b (0 : Fin 1))
    = halfSum V c ((((cfg1.win 3).blk t).view.emb (ix3 (0 : Fin 1) b (0 : Fin 1))) 0).val
        ((((cfg1.win 3).blk t).view.emb (ix3 (0 : Fin 1) b (0 : Fin 1))) 1)
  rw [e0, e1, outsAt1_eq]
  unfold halfSum halfSet
  refine Finset.sum_congr ?_ fun _ _ => rfl
  ext t'
  simp only [Finset.mem_filter, Finset.mem_univ, true_and]
  omega

theorem cnt_spec (c : Dev nD) (cc : Fin 2) (b : Fin 32) :
    ∃ r : ℝ, 0 ≤ r ∧ CN V c (ix3 cc b (0 : Fin 1)) = (r : EReal)
      ∧ (0 < r ↔ ∃ p : Fin 8388608, p.val / 4194304 = cc.val
            ∧ rowN V c (ix2 (0 : Fin 1) p) = BitVec.ofNat 32 b.val
            ∧ pairBitK V c p = 1#1) := by
  have hN : cfg1.N = 256 := N_1
  have hcc := cc.isLt
  have ht : cc.val * 128 + 127 < cfg1.N := by omega
  have hf : (cfg1.win 3).flush ⟨cc.val * 128 + 127, ht⟩ = true :=
    (flush1_3 _).mpr (by show (cc.val * 128 + 127) % 128 = 127; omega)
  have hi := idx3 ⟨cc.val * 128 + 127, ht⟩
  have hx := xs3 ⟨cc.val * 128 + 127, ht⟩
  have hCN : CN V c (ix3 cc b (0 : Fin 1)) = halfSum V c cc.val b := by
    refine ((dat1 V c).arrAt_apply_of_mem 3 (G V c) (flushed_eq V c) cfg1.N ⟨cc.val * 128 + 127, ht⟩
      (ix3 cc b (0 : Fin 1)) ht hf ?_).trans rfl
    show (ix3 cc b (0 : Fin 1) : S2x32x1.Idx) ∈ ((View.whole main_v17).slice (win1_3.rect ⟨cc.val * 128 + 127, ht⟩)).set
    rw [View.set_slice_whole, Rect.mem_set_unit]
    intro a
    match a with
    | ⟨0, _⟩ =>
      show win1_3.index ⟨cc.val * 128 + 127, ht⟩ 0 * win1_3.size 0 ≤ cc.val
        ∧ cc.val < win1_3.index ⟨cc.val * 128 + 127, ht⟩ 0 * win1_3.size 0 + win1_3.xsize (grid1.coords ⟨cc.val * 128 + 127, ht⟩) 0
      rw [hi.1, hx.1, show win1_3.size 0 = 1 from rfl]
      dsimp only
      omega
    | ⟨1, _⟩ =>
      show win1_3.index ⟨cc.val * 128 + 127, ht⟩ 1 * win1_3.size 1 ≤ b.val
        ∧ b.val < win1_3.index ⟨cc.val * 128 + 127, ht⟩ 1 * win1_3.size 1 + win1_3.xsize (grid1.coords ⟨cc.val * 128 + 127, ht⟩) 1
      rw [hi.2.1, hx.2.1]
      have := b.isLt
      omega
    | ⟨2, _⟩ =>
      show win1_3.index ⟨cc.val * 128 + 127, ht⟩ 2 * win1_3.size 2 ≤ 0
        ∧ 0 < win1_3.index ⟨cc.val * 128 + 127, ht⟩ 2 * win1_3.size 2 + win1_3.xsize (grid1.coords ⟨cc.val * 128 + 127, ht⟩) 2
      rw [hi.2.2, hx.2.2]
      omega
  rw [hCN]
  exact halfSum_spec V c cc b

end Cert.KernelIdeal.KV

end
-- ==== Proof.KValue.lean ====
/- The idealized kernel's result array is the specification's flag array.
   First bit: region 0 leaves the energy comparison as the number 0 or 1, and "that number exceeds one half" is the
   comparison's own bit. Second bit: region 1 leaves, per half of the pair list, a count of 0/1 terms; the sum of the two
   halves is positive exactly when some pair of the structure is in contact, the pair's tables being the gathered
   positions and class radii of its two atoms. -/
import proofs.«427218_j89653147337010_1_alg».proof.Proof.KRun
import proofs.«427218_j89653147337010_1_alg».proof.Proof.KTail
import proofs.«427218_j89653147337010_1_alg».proof.Proof.KHost1
import proofs.«427218_j89653147337010_1_alg».proof.Proof.KReg1

noncomputable section

open scoped BigOperators

namespace Cert.KernelIdeal.KV

open Idealize.ShloMosaic Idealize.ShloMosaic.TcCoe Idealize.ShloMosaic.ValueIdx Idealize.SL.Sem
open Cert.KernelIdeal Cert.KernelIdeal.Gen Cert.Spec
variable (m : (ℓ : Loc nD τ sig) → Buf (Elt Ideal) ℓ) (ρ : Dev nD → PrngReg)

namespace Fin1

/-- A bit is 0 or 1. -/
theorem bit_cases : ∀ x : BitVec 1, x = 0#1 ∨ x = 1#1 := by decide

/-- Two bits with the same "is 1" are equal. -/
theorem bit_ext (x y : BitVec 1) (h : x = 1#1 ↔ y = 1#1) : x = y := by
  rcases bit_cases x with rfl | rfl <;> rcases bit_cases y with rfl | rfl
  · rfl
  · exact absurd (h.mpr rfl) (by decide)
  · exact absurd (h.mp rfl) (by decide)
  · rfl

/-- The pattern 0x3F000000 denotes one half. -/
theorem ofBits_half : Ideal.ofBits .f32 0x3F000000#32 = (((1 : ℝ) / 2 : ℝ) : EReal) := by
  simp [Ideal.ofBits, Ideal.ieee, -EReal.coe_mul]; norm_num

/-- A decided proposition's bit is 1 exactly when the proposition holds. -/
theorem ofBool_decide_eq_one (P : Prop) [Decidable P] : BitVec.ofBool (decide P) = 1#1 ↔ P := by
  by_cases h : P <;> simp [h]

/-- "x exceeds y", as the comparison's bit. -/
theorem cmp_ogt_eq_one (x y : EReal) : Ideal.cmp .ogt x y = 1#1 ↔ y < x := by
  show BitVec.ofBool (decide (y < x)) = 1#1 ↔ y < x
  exact ofBool_decide_eq_one _

/-- "The number of a bit exceeds one half" is the bit. -/
theorem ogt_half_bitReal (x : BitVec 1) : Ideal.cmp .ogt (bitReal x) (Ideal.ofBits .f32 0x3F000000#32) = x := by
  apply bit_ext
  rw [cmp_ogt_eq_one, ofBits_half]
  rcases bit_cases x with rfl | rfl
  · rw [bitReal_zero]
    constructor
    · intro h
      have h' : ((1 : ℝ) / 2) < 0 := by exact_mod_cast h
      norm_num at h'
    · intro h; exact absurd h (by decide)
  · rw [bitReal_one]
    constructor
    · intro _; rfl
    · intro _
      have h' : ((1 : ℝ) / 2) < 1 := by norm_num
      exact_mod_cast h'

/-- "A real number exceeds zero", as the comparison's bit. -/
theorem ogt_zero_coe (r : ℝ) : Ideal.cmp .ogt (r : EReal) 0 = 1#1 ↔ 0 < r := by
  rw [cmp_ogt_eq_one]
  exact EReal.coe_pos

end Fin1

/-- For a pair of structure `b`, the contact bit read off the gathered tables is the specification's. -/
theorem pairBitK_eq (c : Dev nD) (hD : Dom (inputs m c)) (p : Fin 8388608) (b : Fin 32)
    (hn : (inputs m c).n (ix1 p) = BitVec.ofNat 32 b.val) :
    pairBitK (V6 m ρ) c p = pairBit (inputs m c) b (atomI (inputs m c) p) (atomJ (inputs m c) p) := by
  unfold pairBitK pairBit rsq sod
  show Ideal.cmp .oge
      ((CI m ρ c (ix2 (3 : Fin 4) p) + CJ m ρ c (ix2 (3 : Fin 4) p)) * (CI m ρ c (ix2 (3 : Fin 4) p) + CJ m ρ c (ix2 (3 : Fin 4) p)))
      (∑ d : Fin 3,
        (CJ m ρ c (ix2 (⟨d.val, by have := d.isLt; omega⟩ : Fin 4) p) - CI m ρ c (ix2 (⟨d.val, by have := d.isLt; omega⟩ : Fin 4) p))
        * (CJ m ρ c (ix2 (⟨d.val, by have := d.isLt; omega⟩ : Fin 4) p) - CI m ρ c (ix2 (⟨d.val, by have := d.isLt; omega⟩ : Fin 4) p))) = _
  rw [ci_rad m ρ c hD p b hn, cj_rad m ρ c hD p b hn]
  refine congrArg (Ideal.cmp .oge _) (Finset.sum_congr rfl fun d _ => ?_)
  rw [ci_pos m ρ c hD p b hn d, cj_pos m ρ c hD p b hn d]

theorem v25_eq (c : Dev nD) (hD : Dom (inputs m c)) :
    (W8 m ρ c (Proc.devRef .tc main_v25) : IVec S32 1) = result (inputs m c) := by
  funext k
  obtain ⟨b, rfl⟩ : ∃ b : Fin 32, k = ix1 b := ⟨k 0, eq_ix1 k⟩
  rw [v25_apply m ρ c (ix1 b)]
  unfold result
  show IntOp.ori (Ideal.cmp .ogt (EB m ρ c (ix2 b (0 : Fin 1))) (Ideal.ofBits .f32 0x3F000000#32))
      (Ideal.cmp .ogt (Ideal.ofBits .f32 0x00000000#32
        + (CN (V6 m ρ) c (ix3 (0 : Fin 2) b (0 : Fin 1)) + CN (V6 m ρ) c (ix3 (1 : Fin 2) b (0 : Fin 1))))
        (Ideal.ofBits .f32 0x00000000#32))
    = IntOp.ori (Ideal.cmp .oge ((inputs m c).eng (ix1 b)) (engMax (inputs m c) b)) (closeBit (inputs m c) b)
  rw [eb_eq m ρ c hD b, Fin1.ogt_half_bitReal]
  refine congrArg (IntOp.ori _) ?_
  apply Fin1.bit_ext
  rw [closeBit_eq_one_iff, Ideal.ofBits_zero_f32, zero_add]
  obtain ⟨r0, h0, e0, i0⟩ := cnt_spec (V6 m ρ) c (0 : Fin 2) b
  obtain ⟨r1, h1, e1, i1⟩ := cnt_spec (V6 m ρ) c (1 : Fin 2) b
  rw [e0, e1, ← EReal.coe_add, Fin1.ogt_zero_coe]
  have hsum : 0 < r0 + r1 ↔ (0 < r0 ∨ 0 < r1) := by
    constructor
    · intro h; by_contra hc; rw [not_or, not_lt, not_lt] at hc; linarith [hc.1, hc.2]
    · rintro (h | h) <;> linarith
  rw [hsum, i0, i1]
  unfold close hit
  constructor
  · rintro (⟨p, -, hn, hb⟩ | ⟨p, -, hn, hb⟩)
    · have hn' : (inputs m c).n (ix1 p) = BitVec.ofNat 32 b.val := (ni_eq m ρ c p).symm.trans hn
      exact ⟨p, hn', (pairBitK_eq m ρ c hD p b hn').symm.trans hb⟩
    · have hn' : (inputs m c).n (ix1 p) = BitVec.ofNat 32 b.val := (ni_eq m ρ c p).symm.trans hn
      exact ⟨p, hn', (pairBitK_eq m ρ c hD p b hn').symm.trans hb⟩
  · rintro ⟨p, hn, hb⟩
    have hn' : rowN (V6 m ρ) c (ix2 (0 : Fin 1) p) = BitVec.ofNat 32 b.val := (ni_eq m ρ c p).trans hn
    have hb' : pairBitK (V6 m ρ) c p = 1#1 := (pairBitK_eq m ρ c hD p b hn).trans hb
    have hp : p.val / 4194304 = 0 ∨ p.val / 4194304 = 1 := by have := p.isLt; omega
    rcases hp with hp | hp
    · exact Or.inl ⟨p, hp, hn', hb'⟩
    · exact Or.inr ⟨p, hp, hn', hb'⟩

end Cert.KernelIdeal.KV

end
-- ==== Proof.RefGatherA.lean ====
/- The reference's gathers read at an index: with every class number below 8 and every atom number below 4096 a
   gather reads the table at the index itself (neither the negative-index wrap nor the clamp moves it). Here: the per-structure reference-energy sum. -/
import proofs.«427218_j89653147337010_1_alg».proof.Proof.Gen.ReferenceIdeal.Read
import proofs.«427218_j89653147337010_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RV

open Idealize.ShloMosaic Idealize.ShloMosaic.TcCoe Idealize.ShloMosaic.ValueIdx Idealize.SL.Sem
open Cert.ReferenceIdeal Cert.ReferenceIdeal.Gen Cert.ReferenceIdeal.Read Cert.Spec
variable (X : Inputs)

/-- A word below 8 read as a signed integer is its unsigned value. -/
private theorem toInt_small (w : BitVec 32) (hw : w.toNat < 8) : w.toInt = (w.toNat : Int) := by
  rw [BitVec.toInt_eq_toNat_cond]
  rw [if_pos (by omega)]

/-- A word below 8 is not negative as a signed word, so the negative-index wrap keeps it. -/
private theorem wrap8_id (w : BitVec 32) (hw : w.toNat < 8) :
    Scalar.select (IntOp.cmpi .slt w 0#32) (IntOp.addi w 8#32) w = w := by
  have h1 : w.slt 0#32 = false := by
    have := toInt_small w hw
    simp only [BitVec.slt, this]
    simp
  have h : IntOp.cmpi .slt w 0#32 = 0#1 := by
    simp only [IntOp.cmpi, h1]; rfl
  rw [h]; exact select_zero _ _

/-- The start-index array of the gather at `(b, a, 0)` is the class word of atom `a` of structure `b`. -/
private theorem v5_read (hD : Dom X) (b : Fin 32) (a : Fin 4096) :
    val_main_v5 (F := Ideal) X.elm (takeIdx (ix2 b a)) = X.elm (ix2 b a) := by
  have hi : idx_main_v5 (takeIdx (ix2 b a)) = ix2 b a := by
    funext d; match d with | ⟨0, _⟩ => rfl | ⟨1, _⟩ => rfl
  rw [val_main_v5_apply, hi, val_main_v4_apply, val_main_v1_apply, val_main_v3_apply, val_main_v0_apply,
    val_main_v2_apply, val_main_c_apply, val_main_c_0_apply]
  exact wrap8_id _ (hD.elm_rng b a)

/-- The gather of the reference energies read at `(b, a)`: with the class word below 8 neither the negative-index
    wrap nor the clamp moves the start index, so it is the reference energy of the atom's class. -/
private theorem v6_read (hD : Dom X) (b : Fin 32) (a : Fin 4096) :
    val_main_v6 (F := Ideal) X.elm X.engAtm (ix2 b a) = X.engAtm (ix1 (cls X b a)) := by
  unfold val_main_v6
  have h := gather_take_apply (N := 8) (R := 32) (C := 4096) (w := 32) (by decide)
    Facts₀.gather_S8_S32x4096x1_S32x4096_n_0_n_n_0_2_1_wf X.engAtm (val_main_v5 (F := Ideal) X.elm) (ix2 b a)
  have e : gather_S8_S32x4096x1_S32x4096_n_0_n_n_0_2_1
      = takeDims 8 32 4096 Facts₀.gather_S8_S32x4096x1_S32x4096_n_0_n_n_0_2_1_wf := rfl
  rw [e, h]
  congr 2
  refine Fin.ext ?_
  show min (BitVec.toInt (val_main_v5 (F := Ideal) X.elm (takeIdx (ix2 b a)))).toNat (8 - 1) = (X.elm (ix2 b a)).toNat % 8
  rw [v5_read X hD b a, toInt_small _ (hD.elm_rng b a)]
  have := hD.elm_rng b a
  omega

/-- The reference's per-structure sum of reference energies is the specification's. -/
theorem v7_eq (hD : Dom X) (b : Fin 32) :
    val_main_v7 (F := Ideal) X.elm X.engAtm (ix1 b) = engMax X b := by
  rw [val_main_v7_apply, val_main_cst_apply]
  have h0 : (FloatOps.ofBits (F := Ideal) FTy.f32 0x00000000#32) = (0 : EReal) := Ideal.ofBits_zero_f32
  rw [h0, zero_add]
  unfold engMax
  refine Finset.sum_congr rfl fun k _ => ?_
  have hi : idx_main_v7 (ix1 b) k = ix2 b k := by
    funext d; match d with | ⟨0, _⟩ => rfl | ⟨1, _⟩ => rfl
  rw [hi]
  exact v6_read X hD b k

end Cert.ReferenceIdeal.RV

end
-- ==== Proof.RefGatherB.lean ====
/- The reference's gathers read at an index: with every class number below 8 and every atom number below 4096 a
   gather reads the table at the index itself (neither the negative-index wrap nor the clamp moves it). Here: each pair's contact bit. -/
import proofs.«427218_j89653147337010_1_alg».proof.Proof.Gen.ReferenceIdeal.Read
import proofs.«427218_j89653147337010_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RV

open Idealize.ShloMosaic Idealize.ShloMosaic.TcCoe Idealize.ShloMosaic.ValueIdx Idealize.SL.Sem
open Cert.ReferenceIdeal Cert.ReferenceIdeal.Gen Cert.ReferenceIdeal.Read Cert.Spec
/-- A word below 2^31 is not negative as a signed word, so the negative-index wrap leaves it. -/
private theorem wrap_id (w c : BitVec 32) (h : w.toNat < 2147483648) :
    Scalar.select (IntOp.cmpi .slt w 0#32) (IntOp.addi w c) w = w := by
  have h0 : IntOp.cmpi .slt w 0#32 = 0#1 := by
    unfold IntOp.cmpi
    have : w.slt 0#32 = false := by
      rw [BitVec.slt_eq_decide]
      have := BitVec.toInt_eq_toNat_of_lt (x := w) (by omega)
      simp only [decide_eq_false_iff_not, not_lt]
      rw [this]; simp
    simp only [this]; rfl
  rw [h0, select_zero]

/-- The position gather at `(p, d)`: the table at the two start components of row `p`, each read signed and clamped
    to its axis, and coordinate `d`. -/
private theorem gpos_apply {α : Type} (x : S32x4096x3.Idx → α) (st : IVec S8388608x2 32) (p : Fin 8388608) (d : Fin 3) :
    Host.gather gather_S32x4096x3_S8388608x2_S8388608x3_1_01_n_n_01_1_113 x st (ix2 p d)
      = x (ix3 ⟨min (st (ix2 p 0)).toInt.toNat 31, by omega⟩ ⟨min (st (ix2 p 1)).toInt.toNat 4095, by omega⟩ d) := by
  unfold Host.gather
  congr 1
  funext a
  refine Fin.ext ?_
  let G := gather_S32x4096x3_S8388608x2_S8388608x3_1_01_n_n_01_1_113
  show G.start (ix2 p d) st a + G.batchCoord (ix2 p d) a + G.offCoord (ix2 p d) a = _
  rw [GatherDims.batchCoord_eq_zero _ _ _ List.not_mem_nil, Nat.add_zero]
  match a with
  | ⟨0, _⟩ =>
    show G.start (ix2 p d) st (0 : Fin 3) + G.offCoord (ix2 p d) (0 : Fin 3) = _
    rw [GatherDims.offCoord_eq_zero _ _ _ (fun h => ((GatherDims.mem_sKept _ _).mp h).1
      (show (0 : Fin 3) ∈ G.collapsedSliceDims by decide)), Nat.add_zero]
    unfold GatherDims.start
    rw [dif_pos (show (0 : Fin 3) ∈ G.startIndexMap from by decide)]
    have hsi : G.siIdx (ix2 p d) ⟨List.idxOf (0 : Fin 3) G.startIndexMap,
        List.idxOf_lt_length_iff.2 (by decide)⟩ = ix2 p 0 := by
      funext b; refine Fin.ext ?_
      match b with
      | ⟨0, _⟩ => rfl
      | ⟨1, _⟩ => rfl
    rw [hsi]
    rfl
  | ⟨1, _⟩ =>
    show G.start (ix2 p d) st (1 : Fin 3) + G.offCoord (ix2 p d) (1 : Fin 3) = _
    rw [GatherDims.offCoord_eq_zero _ _ _ (fun h => ((GatherDims.mem_sKept _ _).mp h).1
      (show (1 : Fin 3) ∈ G.collapsedSliceDims by decide)), Nat.add_zero]
    unfold GatherDims.start
    rw [dif_pos (show (1 : Fin 3) ∈ G.startIndexMap from by decide)]
    have hsi : G.siIdx (ix2 p d) ⟨List.idxOf (1 : Fin 3) G.startIndexMap,
        List.idxOf_lt_length_iff.2 (by decide)⟩ = ix2 p 1 := by
      funext b; refine Fin.ext ?_
      match b with
      | ⟨0, _⟩ => rfl
      | ⟨1, _⟩ => rfl
    rw [hsi]
    rfl
  | ⟨2, _⟩ =>
    show G.start (ix2 p d) st (2 : Fin 3) + G.offCoord (ix2 p d) (2 : Fin 3) = _
    unfold GatherDims.start
    rw [dif_neg (show ¬ (2 : Fin 3) ∈ G.startIndexMap from by decide), Nat.zero_add]
    unfold GatherDims.offCoord
    rw [dif_pos (show (2 : Fin 3) ∈ G.sKept from by decide)]
    rfl

/-- The class gather at `p`: the table at the two start components of row `p`, each read signed and clamped. -/
private theorem gelm_apply {α : Type} (x : S32x4096.Idx → α) (st : IVec S8388608x2 32) (p : Fin 8388608) :
    Host.gather gather_S32x4096_S8388608x2_S8388608_n_01_n_n_01_1_11 x st (ix1 p)
      = x (ix2 ⟨min (st (ix2 p 0)).toInt.toNat 31, by omega⟩ ⟨min (st (ix2 p 1)).toInt.toNat 4095, by omega⟩) := by
  unfold Host.gather
  congr 1
  funext a
  refine Fin.ext ?_
  let G := gather_S32x4096_S8388608x2_S8388608_n_01_n_n_01_1_11
  show G.start (ix1 p) st a + G.batchCoord (ix1 p) a + G.offCoord (ix1 p) a = _
  rw [GatherDims.batchCoord_eq_zero _ _ _ List.not_mem_nil, Nat.add_zero]
  match a with
  | ⟨0, _⟩ =>
    show G.start (ix1 p) st (0 : Fin 2) + G.offCoord (ix1 p) (0 : Fin 2) = _
    rw [GatherDims.offCoord_eq_zero _ _ _ (fun h => ((GatherDims.mem_sKept _ _).mp h).1
      (show (0 : Fin 2) ∈ G.collapsedSliceDims by decide)), Nat.add_zero]
    unfold GatherDims.start
    rw [dif_pos (show (0 : Fin 2) ∈ G.startIndexMap from by decide)]
    have hsi : G.siIdx (ix1 p) ⟨List.idxOf (0 : Fin 2) G.startIndexMap,
        List.idxOf_lt_length_iff.2 (by decide)⟩ = ix2 p 0 := by
      funext b; refine Fin.ext ?_
      match b with
      | ⟨0, _⟩ => rfl
      | ⟨1, _⟩ => rfl
    rw [hsi]
    rfl
  | ⟨1, _⟩ =>
    show G.start (ix1 p) st (1 : Fin 2) + G.offCoord (ix1 p) (1 : Fin 2) = _
    rw [GatherDims.offCoord_eq_zero _ _ _ (fun h => ((GatherDims.mem_sKept _ _).mp h).1
      (show (1 : Fin 2) ∈ G.collapsedSliceDims by decide)), Nat.add_zero]
    unfold GatherDims.start
    rw [dif_pos (show (1 : Fin 2) ∈ G.startIndexMap from by decide)]
    have hsi : G.siIdx (ix1 p) ⟨List.idxOf (1 : Fin 2) G.startIndexMap,
        List.idxOf_lt_length_iff.2 (by decide)⟩ = ix2 p 1 := by
      funext b; refine Fin.ext ?_
      match b with
      | ⟨0, _⟩ => rfl
      | ⟨1, _⟩ => rfl
    rw [hsi]
    rfl

/-- The radius gather at `p`: the table at the start index of row `p`, read signed and clamped. -/
private theorem grad_apply {α : Type} (x : S8.Idx → α) (st : IVec S8388608x1 32) (p : Fin 8388608) :
    Host.gather gather_S8_S8388608x1_S8388608_n_0_n_n_0_1_1 x st (ix1 p)
      = x (ix1 ⟨min (st (ix2 p 0)).toInt.toNat 7, by omega⟩) := by
  unfold Host.gather
  congr 1
  funext a
  refine Fin.ext ?_
  let G := gather_S8_S8388608x1_S8388608_n_0_n_n_0_1_1
  show G.start (ix1 p) st a + G.batchCoord (ix1 p) a + G.offCoord (ix1 p) a = _
  rw [GatherDims.batchCoord_eq_zero _ _ _ List.not_mem_nil, Nat.add_zero]
  match a with
  | ⟨0, _⟩ =>
    show G.start (ix1 p) st (0 : Fin 1) + G.offCoord (ix1 p) (0 : Fin 1) = _
    rw [GatherDims.offCoord_eq_zero _ _ _ (fun h => ((GatherDims.mem_sKept _ _).mp h).1
      (show (0 : Fin 1) ∈ G.collapsedSliceDims by decide)), Nat.add_zero]
    unfold GatherDims.start
    rw [dif_pos (show (0 : Fin 1) ∈ G.startIndexMap from by decide)]
    have hsi : G.siIdx (ix1 p) ⟨List.idxOf (0 : Fin 1) G.startIndexMap,
        List.idxOf_lt_length_iff.2 (by decide)⟩ = ix2 p 0 := by
      funext b; refine Fin.ext ?_
      match b with
      | ⟨0, _⟩ => rfl
      | ⟨1, _⟩ => rfl
    rw [hsi]
    rfl

/-- A column broadcast to a trailing unit axis reads the column. -/
private theorem bcol_apply {α : Type} (h : S8388608.BroadcastsInDim S8388608x1 (![0] : Fin 1 → Fin S8388608x1.rank))
    (c : S8388608.Idx → α) (p : Fin 8388608) (z : Fin 1) :
    broadcastInDim S8388608x1 ![0] h c (ix2 p z) = c (ix1 p) :=
  broadcastInDim_apply _ h c (ix2 p z) (ix1 p) (fun a => match a with
    | ⟨0, _⟩ => by show p.val = if (8388608 : Nat) = 1 then 0 else p.val; rw [if_neg (by decide)])

/-- Two columns joined along the second axis: at `(p, 0)` the first … -/
private theorem cat_left {α : Type} (h : Shape.Concatenates [S8388608x1, S8388608x1] S8388608x2 1)
    (a b : S8388608x1.Idx → α) (p : Fin 8388608) :
    concatenate S8388608x2 1 [⟨S8388608x1, a⟩, ⟨S8388608x1, b⟩] h (ix2 p 0) = a (ix2 p 0) :=
  concatenate_pair_apply_left 1 a b h (ix2 p 0) rfl (ix2 p 0) (fun c => match c with
    | ⟨0, _⟩ => rfl
    | ⟨1, _⟩ => rfl)

/-- … and at `(p, 1)` the second. -/
private theorem cat_right {α : Type} (h : Shape.Concatenates [S8388608x1, S8388608x1] S8388608x2 1)
    (a b : S8388608x1.Idx → α) (p : Fin 8388608) :
    concatenate S8388608x2 1 [⟨S8388608x1, a⟩, ⟨S8388608x1, b⟩] h (ix2 p 1) = b (ix2 p 0) :=
  concatenate_pair_apply_right 1 a b h (ix2 p 1) rfl rfl (ix2 p 0) (fun c hc => match c, hc with
    | ⟨0, _⟩, _ => rfl
    | ⟨1, _⟩, hc => absurd rfl hc) rfl

/-- A word at most `M`, `M` below 2^31, read signed and clamped to `[0, M]` is the word's number. -/
private theorem clamp_id (w : BitVec 32) (M : Nat) (h : w.toNat ≤ M) (hM : M < 2147483648) :
    min w.toInt.toNat M = w.toNat := by
  rw [BitVec.toInt_eq_toNat_of_lt (by omega), Int.toNat_natCast]
  exact Nat.min_eq_left h

/-- The position gather whose start components are the numbers `b`, `a` reads the table at `(b, a, d)`. -/
private theorem gpos_at {α : Type} (x : S32x4096x3.Idx → α) (st : IVec S8388608x2 32) (p : Fin 8388608) (d : Fin 3)
    (b : Fin 32) (a : Fin 4096) (h0 : (st (ix2 p 0)).toNat = b.val) (h1 : (st (ix2 p 1)).toNat = a.val) :
    Host.gather gather_S32x4096x3_S8388608x2_S8388608x3_1_01_n_n_01_1_113 x st (ix2 p d) = x (ix3 b a d) := by
  have e0 : (⟨min (st (ix2 p 0)).toInt.toNat 31, by omega⟩ : Fin 32) = b :=
    Fin.ext (by show min (st (ix2 p 0)).toInt.toNat 31 = b.val; rw [clamp_id _ _ (by omega) (by omega)]; exact h0)
  have e1 : (⟨min (st (ix2 p 1)).toInt.toNat 4095, by omega⟩ : Fin 4096) = a :=
    Fin.ext (by show min (st (ix2 p 1)).toInt.toNat 4095 = a.val; rw [clamp_id _ _ (by omega) (by omega)]; exact h1)
  rw [gpos_apply, e0, e1]

/-- The class gather whose start components are the numbers `b`, `a` reads the table at `(b, a)`. -/
private theorem gelm_at {α : Type} (x : S32x4096.Idx → α) (st : IVec S8388608x2 32) (p : Fin 8388608)
    (b : Fin 32) (a : Fin 4096) (h0 : (st (ix2 p 0)).toNat = b.val) (h1 : (st (ix2 p 1)).toNat = a.val) :
    Host.gather gather_S32x4096_S8388608x2_S8388608_n_01_n_n_01_1_11 x st (ix1 p) = x (ix2 b a) := by
  have e0 : (⟨min (st (ix2 p 0)).toInt.toNat 31, by omega⟩ : Fin 32) = b :=
    Fin.ext (by show min (st (ix2 p 0)).toInt.toNat 31 = b.val; rw [clamp_id _ _ (by omega) (by omega)]; exact h0)
  have e1 : (⟨min (st (ix2 p 1)).toInt.toNat 4095, by omega⟩ : Fin 4096) = a :=
    Fin.ext (by show min (st (ix2 p 1)).toInt.toNat 4095 = a.val; rw [clamp_id _ _ (by omega) (by omega)]; exact h1)
  rw [gelm_apply, e0, e1]

/-- The radius gather whose start index is the number `e` reads the table at `e`. -/
private theorem grad_at {α : Type} (x : S8.Idx → α) (st : IVec S8388608x1 32) (p : Fin 8388608)
    (e : Fin 8) (h0 : (st (ix2 p 0)).toNat = e.val) :
    Host.gather gather_S8_S8388608x1_S8388608_n_0_n_n_0_1_1 x st (ix1 p) = x (ix1 e) := by
  have e0 : (⟨min (st (ix2 p 0)).toInt.toNat 7, by omega⟩ : Fin 8) = e :=
    Fin.ext (by show min (st (ix2 p 0)).toInt.toNat 7 = e.val; rw [clamp_id _ _ (by omega) (by omega)]; exact h0)
  rw [grad_apply, e0]

section Words
variable (u : (⟨S8388608, .i32⟩ : BufTy).Contents (Elt Ideal)) (p : Fin 8388608) (h : (u (ix1 p)).toNat < 2147483648)
include h

/- Each wrapped index column is the column itself where the word is not negative. -/
private theorem v13_at : val_main_v13 (F := Ideal) u (ix1 p) = u (ix1 p) := by
  show Scalar.select (IntOp.cmpi .slt (u (ix1 p)) 0#32) (IntOp.addi (u (ix1 p)) 32#32) (u (ix1 p)) = _
  exact wrap_id _ _ h
private theorem v18_at : val_main_v18 (F := Ideal) u (ix1 p) = u (ix1 p) := by
  show Scalar.select (IntOp.cmpi .slt (u (ix1 p)) 0#32) (IntOp.addi (u (ix1 p)) 4096#32) (u (ix1 p)) = _
  exact wrap_id _ _ h
private theorem v27_at : val_main_v27 (F := Ideal) u (ix1 p) = u (ix1 p) := by
  show Scalar.select (IntOp.cmpi .slt (u (ix1 p)) 0#32) (IntOp.addi (u (ix1 p)) 32#32) (u (ix1 p)) = _
  exact wrap_id _ _ h
private theorem v32_at : val_main_v32 (F := Ideal) u (ix1 p) = u (ix1 p) := by
  show Scalar.select (IntOp.cmpi .slt (u (ix1 p)) 0#32) (IntOp.addi (u (ix1 p)) 4096#32) (u (ix1 p)) = _
  exact wrap_id _ _ h
private theorem v44_at : val_main_v44 (F := Ideal) u (ix1 p) = u (ix1 p) := by
  show Scalar.select (IntOp.cmpi .slt (u (ix1 p)) 0#32) (IntOp.addi (u (ix1 p)) 32#32) (u (ix1 p)) = _
  exact wrap_id _ _ h
private theorem v49_at : val_main_v49 (F := Ideal) u (ix1 p) = u (ix1 p) := by
  show Scalar.select (IntOp.cmpi .slt (u (ix1 p)) 0#32) (IntOp.addi (u (ix1 p)) 4096#32) (u (ix1 p)) = _
  exact wrap_id _ _ h
private theorem v58_at : val_main_v58 (F := Ideal) u (ix1 p) = u (ix1 p) := by
  show Scalar.select (IntOp.cmpi .slt (u (ix1 p)) 0#32) (IntOp.addi (u (ix1 p)) 32#32) (u (ix1 p)) = _
  exact wrap_id _ _ h
private theorem v63_at : val_main_v63 (F := Ideal) u (ix1 p) = u (ix1 p) := by
  show Scalar.select (IntOp.cmpi .slt (u (ix1 p)) 0#32) (IntOp.addi (u (ix1 p)) 4096#32) (u (ix1 p)) = _
  exact wrap_id _ _ h
end Words

section Starts
variable (u v : (⟨S8388608, .i32⟩ : BufTy).Contents (Elt Ideal)) (p : Fin 8388608)
  (hu : (u (ix1 p)).toNat < 2147483648) (hv : (v (ix1 p)).toNat < 2147483648)

/- The four two-column arrays of start indices, by component. -/
private theorem v21_0 (hu : (u (ix1 p)).toNat < 2147483648) : val_main_v21 (F := Ideal) u v (ix2 p 0) = u (ix1 p) := by
  unfold val_main_v21; rw [cat_left]; unfold val_main_v19; rw [bcol_apply, v13_at _ _ hu]
private theorem v21_1 (hv : (v (ix1 p)).toNat < 2147483648) : val_main_v21 (F := Ideal) u v (ix2 p 1) = v (ix1 p) := by
  unfold val_main_v21; rw [cat_right]; unfold val_main_v20; rw [bcol_apply, v18_at _ _ hv]
private theorem v35_0 (hu : (u (ix1 p)).toNat < 2147483648) : val_main_v35 (F := Ideal) u v (ix2 p 0) = u (ix1 p) := by
  unfold val_main_v35; rw [cat_left]; unfold val_main_v33; rw [bcol_apply, v27_at _ _ hu]
private theorem v35_1 (hv : (v (ix1 p)).toNat < 2147483648) : val_main_v35 (F := Ideal) u v (ix2 p 1) = v (ix1 p) := by
  unfold val_main_v35; rw [cat_right]; unfold val_main_v34; rw [bcol_apply, v32_at _ _ hv]
private theorem v52_0 (hu : (u (ix1 p)).toNat < 2147483648) : val_main_v52 (F := Ideal) u v (ix2 p 0) = u (ix1 p) := by
  unfold val_main_v52; rw [cat_left]; unfold val_main_v50; rw [bcol_apply, v44_at _ _ hu]
private theorem v52_1 (hv : (v (ix1 p)).toNat < 2147483648) : val_main_v52 (F := Ideal) u v (ix2 p 1) = v (ix1 p) := by
  unfold val_main_v52; rw [cat_right]; unfold val_main_v51; rw [bcol_apply, v49_at _ _ hv]
private theorem v66_0 (hu : (u (ix1 p)).toNat < 2147483648) : val_main_v66 (F := Ideal) u v (ix2 p 0) = u (ix1 p) := by
  unfold val_main_v66; rw [cat_left]; unfold val_main_v64; rw [bcol_apply, v58_at _ _ hu]
private theorem v66_1 (hv : (v (ix1 p)).toNat < 2147483648) : val_main_v66 (F := Ideal) u v (ix2 p 1) = v (ix1 p) := by
  unfold val_main_v66; rw [cat_right]; unfold val_main_v65; rw [bcol_apply, v63_at _ _ hv]
end Starts

variable (X : Inputs)

section Pair
variable (hD : Dom X) (p : Fin 8388608) (b : Fin 32) (hn : X.n (ix1 p) = BitVec.ofNat 32 b.val)
include hD hn

private theorem n_toNat : (X.n (ix1 p)).toNat = b.val := by
  rw [hn, BitVec.toNat_ofNat]; exact Nat.mod_eq_of_lt (by have := b.isLt; omega)

/-- The second atom's position … -/
private theorem v22_at (d : Fin 3) :
    val_main_v22 (F := Ideal) X.pos X.n X.j (ix2 p d) = X.pos (ix3 b (atomJ X p) d) := by
  have hb := n_toNat X hD p b hn
  have hj := hD.j_rng p
  unfold val_main_v22
  refine gpos_at _ _ p d b (atomJ X p) ?_ ?_
  · rw [v21_0 _ _ _ (by have := b.isLt; omega)]; exact hb
  · rw [v21_1 _ _ _ (by omega)]; exact (Nat.mod_eq_of_lt hj).symm

/-- … and the first atom's. -/
private theorem v36_at (d : Fin 3) :
    val_main_v36 (F := Ideal) X.pos X.n X.i (ix2 p d) = X.pos (ix3 b (atomI X p) d) := by
  have hb := n_toNat X hD p b hn
  have hi := hD.i_rng p
  unfold val_main_v36
  refine gpos_at _ _ p d b (atomI X p) ?_ ?_
  · rw [v35_0 _ _ _ (by have := b.isLt; omega)]; exact hb
  · rw [v35_1 _ _ _ (by omega)]; exact (Nat.mod_eq_of_lt hi).symm

/-- The first atom's class word … -/
private theorem v53_at : val_main_v53 (F := Ideal) X.elm X.n X.i (ix1 p) = X.elm (ix2 b (atomI X p)) := by
  have hb := n_toNat X hD p b hn
  have hi := hD.i_rng p
  unfold val_main_v53
  refine gelm_at _ _ p b (atomI X p) ?_ ?_
  · rw [v52_0 _ _ _ (by have := b.isLt; omega)]; exact hb
  · rw [v52_1 _ _ _ (by omega)]; exact (Nat.mod_eq_of_lt hi).symm

/-- … and the second atom's. -/
private theorem v67_at : val_main_v67 (F := Ideal) X.elm X.n X.j (ix1 p) = X.elm (ix2 b (atomJ X p)) := by
  have hb := n_toNat X hD p b hn
  have hj := hD.j_rng p
  unfold val_main_v67
  refine gelm_at _ _ p b (atomJ X p) ?_ ?_
  · rw [v66_0 _ _ _ (by have := b.isLt; omega)]; exact hb
  · rw [v66_1 _ _ _ (by omega)]; exact (Nat.mod_eq_of_lt hj).symm

/-- The first atom's radius … -/
private theorem v74_at : val_main_v74 (F := Ideal) X.elm X.radius X.n X.i (ix1 p) = rad X b (atomI X p) := by
  have he := hD.elm_rng b (atomI X p)
  unfold val_main_v74
  refine grad_at _ _ p (cls X b (atomI X p)) ?_
  unfold val_main_v73; rw [bcol_apply]
  show (Scalar.select (IntOp.cmpi .slt (val_main_v53 (F := Ideal) X.elm X.n X.i (ix1 p)) 0#32)
    (IntOp.addi (val_main_v53 (F := Ideal) X.elm X.n X.i (ix1 p)) 8#32)
    (val_main_v53 (F := Ideal) X.elm X.n X.i (ix1 p))).toNat = _
  rw [v53_at X hD p b hn, wrap_id _ _ (by omega)]
  exact (Nat.mod_eq_of_lt he).symm

/-- … and the second atom's. -/
private theorem v81_at : val_main_v81 (F := Ideal) X.elm X.radius X.n X.j (ix1 p) = rad X b (atomJ X p) := by
  have he := hD.elm_rng b (atomJ X p)
  unfold val_main_v81
  refine grad_at _ _ p (cls X b (atomJ X p)) ?_
  unfold val_main_v80; rw [bcol_apply]
  show (Scalar.select (IntOp.cmpi .slt (val_main_v67 (F := Ideal) X.elm X.n X.j (ix1 p)) 0#32)
    (IntOp.addi (val_main_v67 (F := Ideal) X.elm X.n X.j (ix1 p)) 8#32)
    (val_main_v67 (F := Ideal) X.elm X.n X.j (ix1 p))).toNat = _
  rw [v67_at X hD p b hn, wrap_id _ _ (by omega)]
  exact (Nat.mod_eq_of_lt he).symm

end Pair

/-- For a pair of structure `b`, the reference's contact bit is the specification's. -/
theorem v84_eq (hD : Dom X) (p : Fin 8388608) (b : Fin 32) (hn : X.n (ix1 p) = BitVec.ofNat 32 b.val) :
    val_main_v84 (F := Ideal) X.pos X.elm X.radius X.n X.i X.j (ix1 p) = pairBit X b (atomI X p) (atomJ X p) := by
  have hidx : ∀ k : Fin 3, idx_main_v39 (ix1 p) k = ix2 p k := fun k =>
    funext fun a => match a with
      | ⟨0, _⟩ => rfl
      | ⟨1, _⟩ => rfl
  rw [val_main_v84_apply, val_main_v83_apply, val_main_v82_apply, val_main_v39_apply,
    v74_at X hD p b hn, v81_at X hD p b hn, val_main_cst_9_apply]
  simp only [hidx, val_main_v38_apply, val_main_v37_apply, v22_at X hD p b hn, v36_at X hD p b hn,
    Ideal.mulf_def, Ideal.addf_def, Ideal.subf_def, Ideal.ofBits_def, Ideal.ofBits_zero_f32, zero_add, Ideal.cmpf_def]
  rfl

end Cert.ReferenceIdeal.RV

end
-- ==== Proof.RefScatter.lean ====
/- The reference's scatter-add of 0/1 words into 32 zero counters, read at one counter: the counter ends positive exactly
   when some update whose index is that counter carries a 1. (At most 8388608 ones land on one counter, far below 2^31,
   so the 32-bit sum never wraps and its sign is the count's.) -/
import proofs.«427218_j89653147337010_1_alg».proof.ReferenceIdeal
import proofs.«427218_j89653147337010_1_alg».proof.Proof.Gen.ReferenceIdeal
import Idealize.ShloMosaic.Lib.ValueIdx

noncomputable section

open scoped BigOperators

namespace Cert.ReferenceIdeal.RV

open Idealize.ShloMosaic Idealize.ShloMosaic.TcCoe Idealize.ShloMosaic.ValueIdx Idealize.SL.Sem
open Cert.ReferenceIdeal Cert.ReferenceIdeal.Gen
namespace RefScatter

/-- The reference's scatter dimension numbers. -/
abbrev dS := scatter_S32_S8388608x1_S8388608_n_0_0_1

/-- The scatter-indices position an update reads its start index at: the update's coordinate, component 0. -/
theorem siIdx_eq (j : S8388608.Idx) (c : Fin dS.scatterDimsToOperandDims.length) :
    dS.siIdx j c = ix2 (j 0 : Fin 8388608) (0 : Fin 1) := by
  funext b
  match b with
  | ⟨0, _⟩ =>
    apply Fin.ext
    unfold ScatterDims.siIdx
    rw [dif_neg]
    · unfold ScatterDims.siCoord
      exact congrArg (fun a => (j a).val) (Subsingleton.elim _ 0)
    · show ¬ (0 : Nat) = 1
      decide
  | ⟨1, _⟩ =>
    apply Fin.ext
    unfold ScatterDims.siIdx
    rw [dif_pos]
    · have : c.val < 1 := c.isLt
      show c.val = 0
      omega
    · show (1 : Nat) = 1
      rfl

/-- Start plus window coordinate on the operand's one axis: the index word read signed (the axis is inserted, so
    the window contributes nothing). -/
theorem startwin (idx : IVec S8388608x1 32) (j : S8388608.Idx) (a : Fin S32.rank) :
    dS.start j idx a + dS.window j a
      = (idx (ix2 (j 0 : Fin 8388608) (0 : Fin 1))).toInt := by
  have ha : a = 0 := Subsingleton.elim _ _
  subst ha
  unfold ScatterDims.start ScatterDims.window
  rw [dif_pos (by decide), dif_neg (by decide), siIdx_eq]
  simp

/-- A 32-bit word read signed lies in [0, 32) with value m exactly when it is the word of m. -/
theorem toInt_range_iff (x : BitVec 32) (m : Nat) (hm : m < 32) :
    (0 ≤ x.toInt ∧ x.toInt < 32 ∧ x.toInt.toNat = m) ↔ x = BitVec.ofNat 32 m := by
  have hx := x.isLt
  constructor
  · rintro ⟨h0, h1, h2⟩
    apply BitVec.eq_of_toNat_eq
    rw [BitVec.toNat_ofNat]
    rw [BitVec.toInt_eq_toNat_cond] at h0 h1 h2
    split_ifs at h0 h1 h2 <;> omega
  · rintro rfl
    rw [BitVec.toInt_eq_toNat_cond, BitVec.toNat_ofNat]
    have : m % 2 ^ 32 = m := Nat.mod_eq_of_lt (by omega)
    rw [this]
    split_ifs <;> omega

/-- Where an update lands: on counter i exactly when its index word is the word of i's number. -/
theorem resultIdx?_eq_some_iff (idx : IVec S8388608x1 32) (j : S8388608.Idx) (i : S32.Idx) :
    dS.resultIdx? j idx = some i ↔ idx (ix2 (j 0 : Fin 8388608) (0 : Fin 1)) = BitVec.ofNat 32 (i 0).val := by
  have hi : (i 0).val < 32 := (i 0).isLt
  rw [← toInt_range_iff _ _ hi]
  unfold ScatterDims.resultIdx?
  constructor
  · intro h
    split at h
    · rename_i hc
      have hc0 := hc 0
      rw [startwin] at hc0
      have h0 := congrArg Fin.val (congrFun (Option.some.inj h) 0)
      simp only [startwin] at h0
      exact ⟨hc0.1, hc0.2, h0⟩
    · exact absurd h (by simp)
  · rintro ⟨h0, h1, h2⟩
    have hc : ∀ a, 0 ≤ dS.start j idx a + dS.window j a ∧ dS.start j idx a + dS.window j a < S32.size a := by
      intro a
      rw [startwin]
      have ha : a = 0 := Subsingleton.elim _ _
      subst ha
      exact ⟨h0, h1⟩
    rw [dif_pos hc]
    congr 1
    funext a
    have ha : a = 0 := Subsingleton.elim _ _
    subst ha
    apply Fin.ext
    simp only [startwin]
    exact h2

section fold
variable {N S : Type} [DecidableEq S] (g : N → Option S) (v : N → BitVec 32)

/-- One step of the scatter's fold, over an abstract landing map and update values. -/
def scStep (r : S → BitVec 32) (n : N) : S → BitVec 32 :=
  match g n with
  | some i => fun i' => if i' = i then IntOp.addi (r i) (v n) else r i'
  | none => r

theorem scStep_none {r : S → BitVec 32} {n : N} (h : g n = none) : scStep g v r n = r := by
  unfold scStep; rw [h]

theorem scStep_some {r : S → BitVec 32} {n : N} {i : S} (h : g n = some i) :
    scStep g v r n = fun i' => if i' = i then IntOp.addi (r i) (v n) else r i' := by
  unfold scStep; rw [h]

/-- Folding the step over a list shorter than 2^31 from the zero counters: counter k holds at most the list's length,
    and is positive exactly when some listed update lands on k with value 1. -/
theorem fold_inv (hv : ∀ n, v n = 0#32 ∨ v n = 1#32) (k : S) (L : List N) (hL : L.length < 2 ^ 31) :
    ((L.foldl (scStep g v) (fun _ => (0#32 : BitVec 32))) k).toNat ≤ L.length ∧
    (0 < ((L.foldl (scStep g v) (fun _ => (0#32 : BitVec 32))) k).toNat ↔ ∃ n ∈ L, g n = some k ∧ v n = 1#32) := by
  induction L using List.reverseRecOn with
  | nil => simp
  | append_singleton L n ih =>
    have hlen : (L ++ [n]).length = L.length + 1 := by simp
    have hL' : L.length < 2 ^ 31 := by rw [hlen] at hL; omega
    obtain ⟨ih1, ih2⟩ := ih hL'
    rw [List.foldl_append, List.foldl_cons, List.foldl_nil]
    generalize L.foldl (scStep g v) (fun _ => (0#32 : BitVec 32)) = R at ih1 ih2 ⊢
    have hex : (∃ m ∈ L ++ [n], g m = some k ∧ v m = 1#32)
        ↔ (∃ m ∈ L, g m = some k ∧ v m = 1#32) ∨ (g n = some k ∧ v n = 1#32) := by
      constructor
      · rintro ⟨m, hm, h⟩
        rcases List.mem_append.1 hm with hm | hm
        · exact Or.inl ⟨m, hm, h⟩
        · rw [List.mem_singleton] at hm; subst hm; exact Or.inr h
      · rintro (⟨m, hm, h⟩ | h)
        · exact ⟨m, List.mem_append_left _ hm, h⟩
        · exact ⟨n, List.mem_append_right _ (List.mem_singleton.2 rfl), h⟩
    rw [hlen, hex, ← ih2]
    rw [hlen] at hL
    cases hg : g n with
    | none =>
      rw [scStep_none g v hg]
      refine ⟨by omega, ?_⟩
      simp
    | some i =>
      rw [scStep_some g v hg]
      by_cases hki : k = i
      · subst hki
        simp only [↓reduceIte]
        rcases hv n with h0 | h1
        · have e : IntOp.addi (R k) (v n) = R k := by rw [h0]; unfold IntOp.addi; simp
          rw [e, h0]
          refine ⟨by omega, ?_⟩
          simp
        · have e : (IntOp.addi (R k) (v n)).toNat = (R k).toNat + 1 := by
            rw [h1]; unfold IntOp.addi
            rw [BitVec.toNat_add_of_lt]
            · simp
            · simp; omega
          rw [e, h1]
          refine ⟨by omega, ?_⟩
          simp
      · simp only [hki, ↓reduceIte]
        refine ⟨by omega, ?_⟩
        have : ¬ (some i = some k) := fun h => hki (Option.some.inj h).symm
        simp [this]
end fold

/-- The fold the scatter is, with the step named. -/
theorem scatter_eq_foldl {s si u : Shape} {w : Nat} (d : ScatterDims s si u) (x : s.Idx → BitVec 32) (idx : IVec si w)
    (upd : u.Idx → BitVec 32) :
    Host.scatter d IntOp.addi x idx upd
      = (List.finRange u.numel).foldl
          (scStep (fun n => d.resultIdx? (u.rowMajor.symm n) idx) (fun n => upd (u.rowMajor.symm n))) x := by
  unfold Host.scatter
  congr 1
  funext r n
  unfold scStep
  beta_reduce
  generalize d.resultIdx? (u.rowMajor.symm n) idx = o
  cases o <;> rfl

/-- A word below 2^31 is greater than zero as a signed number exactly when it is not zero. -/
theorem sgt_zero_iff (x : BitVec 32) (hx : x.toNat < 2 ^ 31) : IntOp.cmpi .sgt x 0#32 = 1#1 ↔ 0 < x.toNat := by
  unfold IntOp.cmpi
  have h : (0#32).slt x = decide (0 < x.toNat) := by
    rw [BitVec.slt_eq_decide, BitVec.toInt_zero, BitVec.toInt_eq_toNat_of_lt (by omega)]
    simp
  simp only [h]
  by_cases hp : 0 < x.toNat <;> simp [hp]

end RefScatter

open RefScatter in
theorem scatter_pos (idx : IVec S8388608x1 32) (upd : IVec S8388608 32)
    (hupd : ∀ p, upd p = 0#32 ∨ upd p = 1#32) (k : S32.Idx) :
    IntOp.cmpi .sgt (Host.scatter scatter_S32_S8388608x1_S8388608_n_0_0_1 IntOp.addi (fun _ => (0#32 : BitVec 32)) idx upd k) 0#32 = 1#1
      ↔ ∃ p : Fin 8388608, idx (ix2 p (0 : Fin 1)) = BitVec.ofNat 32 (k 0).val ∧ upd (ix1 p) = 1#32 := by
  have hnum : S8388608.numel = 8388608 := by simp [Shape.numel]
  have hlen : (List.finRange S8388608.numel).length < 2 ^ 31 := by
    rw [List.length_finRange, hnum]; norm_num
  obtain ⟨k1, k2⟩ := fold_inv
    (fun n => scatter_S32_S8388608x1_S8388608_n_0_0_1.resultIdx? (S8388608.rowMajor.symm n) idx)
    (fun n => upd (S8388608.rowMajor.symm n)) (fun n => hupd _) k (List.finRange S8388608.numel) hlen
  rw [scatter_eq_foldl, sgt_zero_iff _ (lt_of_le_of_lt k1 hlen), k2]
  constructor
  · rintro ⟨n, _, h1, h2⟩
    refine ⟨(S8388608.rowMajor.symm n) 0, ?_, ?_⟩
    · exact (resultIdx?_eq_some_iff idx _ k).1 h1
    · exact (congrArg upd (eq_ix1 (S8388608.rowMajor.symm n))).symm.trans h2
  · rintro ⟨p, h1, h2⟩
    refine ⟨S8388608.rowMajor (ix1 p), List.mem_finRange _, ?_, ?_⟩
    · rw [Equiv.symm_apply_apply]; exact (resultIdx?_eq_some_iff idx (ix1 p) k).2 h1
    · rw [Equiv.symm_apply_apply]; exact h2

end Cert.ReferenceIdeal.RV

end
-- ==== Proof.RefValue.lean ====
/- The reference's result is the specification's flag array: its first bit is the energy comparison against the
   gathered reference-energy sum; its second the sign of an integer counter that a scatter-add of the pairs' 0/1 contact
   answers fills, positive exactly when a pair of the structure is in contact. -/
import proofs.«427218_j89653147337010_1_alg».proof.Proof.RefGatherA
import proofs.«427218_j89653147337010_1_alg».proof.Proof.RefGatherB
import proofs.«427218_j89653147337010_1_alg».proof.Proof.RefScatter

noncomputable section

open scoped BigOperators

namespace Cert.ReferenceIdeal.RV

open Idealize.ShloMosaic Idealize.ShloMosaic.TcCoe Idealize.ShloMosaic.ValueIdx Idealize.SL.Sem
open Cert.ReferenceIdeal Cert.ReferenceIdeal.Gen Cert.ReferenceIdeal.Read Cert.Spec
variable (X : Inputs)

/-- A bit is 0 or 1. -/
theorem bit_cases : ∀ x : BitVec 1, x = 0#1 ∨ x = 1#1 := by decide

/-- Two bits with the same "is 1" are equal. -/
theorem bit_ext (x y : BitVec 1) (h : x = 1#1 ↔ y = 1#1) : x = y := by
  rcases bit_cases x with rfl | rfl <;> rcases bit_cases y with rfl | rfl
  · rfl
  · exact absurd (h.mpr rfl) (by decide)
  · exact absurd (h.mp rfl) (by decide)
  · rfl

/-- A bit widened to a word is the word 0 or 1, and is 1 exactly when the bit is. -/
theorem setWidth_bit (x : BitVec 1) : (x.setWidth 32 = 0#32 ∨ x.setWidth 32 = 1#32) ∧ (x.setWidth 32 = 1#32 ↔ x = 1#1) := by
  revert x; decide

/-- The counters start at zero. -/
theorem v86_zero : val_main_v86 (F := Ideal) = fun _ => (0#32 : BitVec 32) := by
  funext i
  rw [val_main_v86_apply, val_main_c_22_apply]

/-- The scatter's index column at row `p` is the pair's structure word. -/
theorem v87_at (p : Fin 8388608) : val_main_v87 (F := Ideal) X.n (ix2 p (0 : Fin 1)) = X.n (ix1 p) := by
  rw [val_main_v87_apply]
  exact congrArg X.n (funext fun a => by match a with | ⟨0, _⟩ => rfl)

theorem v91_eq (hD : Dom X) :
    val_main_v91 (F := Ideal) X.pos X.eng X.elm X.radius X.engAtm X.n X.i X.j = result X := by
  funext k
  obtain ⟨b, rfl⟩ : ∃ b : Fin 32, k = ix1 b := ⟨k 0, eq_ix1 k⟩
  rw [val_main_v91_apply, val_main_v8_apply, val_main_v90_apply, v7_eq X hD b]
  unfold result
  show IntOp.ori (Ideal.cmp .oge (X.eng (ix1 b)) (engMax X b)) _ = IntOp.ori (Ideal.cmp .oge (X.eng (ix1 b)) (engMax X b)) (closeBit X b)
  refine congrArg (IntOp.ori _) ?_
  apply bit_ext
  rw [closeBit_eq_one_iff]
  have h89 : val_main_v89 (F := Ideal) (ix1 b) = 0#32 := by rw [val_main_v89_apply, val_main_c_23_apply]
  rw [h89]
  unfold val_main_v88
  rw [v86_zero]
  rw [scatter_pos (val_main_v87 (F := Ideal) X.n) (val_main_v85 (F := Ideal) X.pos X.elm X.radius X.n X.i X.j)
    (fun p => by rw [val_main_v85_apply]; exact (setWidth_bit _).1) (ix1 b)]
  show (∃ p : Fin 8388608, _ = BitVec.ofNat 32 b.val ∧ _) ↔ close X b
  unfold close hit
  refine exists_congr fun p => ?_
  rw [v87_at, val_main_v85_apply, (setWidth_bit _).2]
  constructor
  · rintro ⟨hn, h1⟩; exact ⟨hn, by rw [← v84_eq X hD p b hn]; exact h1⟩
  · rintro ⟨hn, h1⟩; exact ⟨hn, by rw [v84_eq X hD p b hn]; exact h1⟩

end Cert.ReferenceIdeal.RV

end
-- ==== Proof.Decode.lean ====
/- What the precondition says, decoded: the class radii and reference energies are real numbers, every class number is
   in 0 … 7, every atom number of a pair in 0 … 4095. -/
import proofs.«427218_j89653147337010_1_alg».proof.Pre_finite_inputs
import proofs.«427218_j89653147337010_1_alg».proof.Proof.Gen.Pre_finite_inputs
import proofs.«427218_j89653147337010_1_alg».proof.Proof.Spec
import Idealize.ShloMosaic.Lib.ValueIdx
import Idealize.ShloMosaic.Lib.ReduceAll
import Idealize.ShloMosaic.Lib.StableHlo.Predicate

noncomputable section

open scoped BigOperators

namespace Cert.Spec

open Idealize.ShloMosaic Idealize.ShloMosaic.TcCoe Idealize.ShloMosaic.ValueIdx Idealize.SL.Sem

/-- A signed word that is at least 0 and below a small non-negative bound is, read unsigned, below the bound. -/
private theorem toNat_lt_of_cmpi (w c : BitVec 32) (k : ℕ) (hc : c.toInt = (k : Int)) (h0 : IntOp.cmpi .sge w 0#32 = 1#1)
    (h1 : IntOp.cmpi .slt w c = 1#1) : w.toNat < k := by
  rw [IntOp.cmpi_sge] at h0
  rw [IntOp.cmpi_slt] at h1
  have hz : (0#32 : BitVec 32).toInt = 0 := by decide
  rw [hz] at h0
  rw [hc] at h1
  rw [BitVec.toInt_eq_toNat_cond] at h0 h1
  split at h0 <;> omega

/-- An extended real whose absolute value is below the pattern of +∞ is a real number. -/
private theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  simp only [Ideal.cmp] at h
  induction x using EReal.rec with
  | bot => simp at h
  | coe r => exact ⟨r, rfl⟩
  | top => simp at h

theorem dom_of_pre (X : Inputs)
    (h : Cert.Pre_finite_inputs.fn (F := Ideal) X.pos X.eng X.elm X.radius X.engAtm X.n X.i X.j = (fun _ => 1#1)) :
    Dom X := by
  have h0 := congrFun h ValueIdx.ix0
  haveI : Subsingleton Cert.Pre_finite_inputs.S_.Idx := ⟨fun a b => funext fun d => d.elim0⟩
  simp only [Cert.Pre_finite_inputs.fn, Cert.Pre_finite_inputs.fn_part1, Cert.Pre_finite_inputs.fn_part2] at h0
  -- the seven conjuncts, outermost first
  obtain ⟨h6, hj⟩ := IntOp.andi_eq_one.1 h0
  obtain ⟨h5, hi⟩ := IntOp.andi_eq_one.1 h6
  obtain ⟨h4, helm⟩ := IntOp.andi_eq_one.1 h5
  obtain ⟨h3, hatm⟩ := IntOp.andi_eq_one.1 h4
  obtain ⟨h2, hrad⟩ := IntOp.andi_eq_one.1 h3
  -- each "all" gives its bit at every index
  have Hj := Host.reduce_andi_all _ _ _ _ _ hj
  have Hi := Host.reduce_andi_all _ _ _ _ _ hi
  have Helm := Host.reduce_andi_all _ _ _ _ _ helm
  have Hatm := Host.reduce_andi_all _ _ _ _ _ hatm
  have Hrad := Host.reduce_andi_all _ _ _ _ _ hrad
  refine ⟨?_, ?_, ?_, ?_, ?_⟩
  · intro e
    exact real_of_abs_lt_inf _ (Hrad (ix1 e))
  · intro e
    exact real_of_abs_lt_inf _ (Hatm (ix1 e))
  · intro b a
    obtain ⟨p, q⟩ := IntOp.andi_eq_one.1 (Helm (ix2 b a))
    exact toNat_lt_of_cmpi _ 8#32 8 (by decide) p q
  · intro k
    obtain ⟨p, q⟩ := IntOp.andi_eq_one.1 (Hi (ix1 k))
    exact toNat_lt_of_cmpi _ 4096#32 4096 (by decide) p q
  · intro k
    obtain ⟨p, q⟩ := IntOp.andi_eq_one.1 (Hj (ix1 k))
    exact toNat_lt_of_cmpi _ 4096#32 4096 (by decide) p q

end Cert.Spec

end
-- ==== Proof.lean ====
/- Two programs flag, for each of 32 structures, whether its energy is at least the sum of its atoms' reference
   energies or some neighbour-list pair of the structure has its two atoms in contact (squared distance at most the
   squared sum of the two class radii).

   The kernel computes per-atom class radii and the energy flag in a first region, gathers per-pair coordinate and
   radius tables on the host, and in a second region counts, per half of the pair list and per structure, the pairs in
   contact (a one-hot compare of the pair's structure number against 0 … 31, summed over the block, accumulated over the
   grid); the host adds the two halves and tests the count against zero. The reference gathers by index, tests each
   pair and scatter-adds the 0/1 answers into 32 integer counters.

   Both are shown equal to one specification (Proof/Spec.lean `result`), under what the precondition gives: class
   numbers in 0 … 7, atom numbers in 0 … 4095, real class radii and reference energies. A count of 0/1 terms is positive
   exactly when one term is 1 — over the extended reals on the kernel's side, in 32-bit words (no wrap: at most 2^23
   ones) on the reference's. Pairs whose structure number is outside 0 … 31 count on neither side. -/
import proofs.«427218_j89653147337010_1_alg».proof.Defs
import proofs.«427218_j89653147337010_1_alg».proof.Proof.Gen.Kernel
import proofs.«427218_j89653147337010_1_alg».proof.Proof.Gen.Kernel.Frame
import proofs.«427218_j89653147337010_1_alg».proof.Proof.Gen.KernelIdeal
import proofs.«427218_j89653147337010_1_alg».proof.Proof.Gen.KernelIdeal.Frame
import proofs.«427218_j89653147337010_1_alg».proof.Proof.Gen.ReferenceIdeal
import proofs.«427218_j89653147337010_1_alg».proof.Proof.Gen.ReferenceIdeal.Run
import proofs.«427218_j89653147337010_1_alg».proof.Proof.Gen.ReferenceIdeal.Read
import proofs.«427218_j89653147337010_1_alg».proof.Proof.Gen.Pre_finite_inputs
import proofs.«427218_j89653147337010_1_alg».proof.Proof.KValue
import proofs.«427218_j89653147337010_1_alg».proof.Proof.RefValue
import proofs.«427218_j89653147337010_1_alg».proof.Proof.Decode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The precondition, decoded for core `c`'s arguments. -/
theorem dom (m : (ℓ : Loc Cert.KernelIdeal.nD Cert.KernelIdeal.τ Cert.KernelIdeal.sig) → Buf (Elt Ideal) ℓ)
    (h : Cert.Pre_KernelIdeal m) (c : Dev Cert.KernelIdeal.nD) : Cert.Spec.Dom (Cert.KernelIdeal.KV.inputs m c) :=
  Cert.Spec.dom_of_pre _ (h c)

/-- Both runs end with the specification's flags of the kernel's arguments. -/
theorem algebraic : Cert.algebraic_KernelIdeal_ReferenceIdeal := by
  intro m ρ m' ρ' hpre hagree
  refine ⟨fun c => Cert.Spec.result (Cert.KernelIdeal.KV.inputs m c), ?_, ?_⟩
  · exact (θ_run Cert.KernelIdeal.defs _ _).mono
      (fun _ h c => ⟨(h c).1.trans (Cert.KernelIdeal.KV.v25_eq m ρ c (dom m hpre c)), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v91_eq]
    obtain ⟨e0, e1, e2, e3, e4, e5, e6, e7⟩ := hagree c
    rw [e0, e1, e2, e3, e4, e5, e6, e7]
    exact Cert.ReferenceIdeal.RV.v91_eq (Cert.KernelIdeal.KV.inputs m c) (dom m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
